-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v376)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v376) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v447) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x262144x3 : Shape := ⟨3, ![4, 262144, 3]⟩
abbrev S32x513x513 : Shape := ⟨3, ![32, 513, 513]⟩
abbrev S_ : Shape := ⟨0, ![]⟩

class Facts : Prop where
  bcast_S_S4x262144x3 : S_.BroadcastsInDim S4x262144x3 (![] : Fin 0 → Fin S4x262144x3.rank)
  reducesTo_S4x262144x3_S_d0_1_2 : S4x262144x3.ReducesTo [0, 1, 2] S_
  h_S_ : 0 < S_.numel
  bcast_S_S32x513x513 : S_.BroadcastsInDim S32x513x513 (![] : Fin 0 → Fin S32x513x513.rank)
  reducesTo_S32x513x513_S_d0_1_2 : S32x513x513.ReducesTo [0, 1, 2] S_

variable [Facts]

def fn_part1 {F : FTy → Type} [FloatOps F] (main_v13 : IVec S_ 1) (main_v16 : IVec S32x513x513 1) : IVec S_ 1 :=
  let main_c_5 : IVec S_ 1 := constantI S_ 1 1#1
  let main_v17 : IVec S_ 1 := (fun x v => Host.reduce IntOp.andi x v reducesTo_S32x513x513_S_d0_1_2 h_S_) main_v16 main_c_5
  let main_v18 : IVec S_ 1 := andi main_v13 main_v17
  main_v18

def fn {F : FTy → Type} [FloatOps F] (main_arg0 : FVec F S4x262144x3 .f32) (main_arg1 : FVec F S32x513x513 .f32) (main_arg2 : FVec F S32x513x513 .f32) (main_arg3 : FVec F S32x513x513 .f32) : IVec S_ 1 :=
  let main_v0 : FVec F S4x262144x3 .f32 := Host.absf main_arg0
  let main_cst : FVec F S_ .f32 := constant S_ .f32 0x7F800000#32
  let main_v1 : FVec F S4x262144x3 .f32 := broadcastInDim S4x262144x3 ![] bcast_S_S4x262144x3 main_cst
  let main_v2 : IVec S4x262144x3 1 := cmpf .olt main_v0 main_v1
  let main_c : IVec S_ 1 := constantI S_ 1 1#1
  let main_v3 : IVec S_ 1 := (fun x v => Host.reduce IntOp.andi x v reducesTo_S4x262144x3_S_d0_1_2 h_S_) main_v2 main_c
  let main_v4 : FVec F S32x513x513 .f32 := Host.absf main_arg1
  let main_cst_0 : FVec F S_ .f32 := constant S_ .f32 0x7F800000#32
  let main_v5 : FVec F S32x513x513 .f32 := broadcastInDim S32x513x513 ![] bcast_S_S32x513x513 main_cst_0
  let main_v6 : IVec S32x513x513 1 := cmpf .olt main_v4 main_v5
  let main_c_1 : IVec S_ 1 := constantI S_ 1 1#1
  let main_v7 : IVec S_ 1 := (fun x v => Host.reduce IntOp.andi x v reducesTo_S32x513x513_S_d0_1_2 h_S_) main_v6 main_c_1
  let main_v8 : IVec S_ 1 := andi main_v3 main_v7
  let main_v9 : FVec F S32x513x513 .f32 := Host.absf main_arg2
  let main_cst_2 : FVec F S_ .f32 := constant S_ .f32 0x7F800000#32
  let main_v10 : FVec F S32x513x513 .f32 := broadcastInDim S32x513x513 ![] bcast_S_S32x513x513 main_cst_2
  let main_v11 : IVec S32x513x513 1 := cmpf .olt main_v9 main_v10
  let main_c_3 : IVec S_ 1 := constantI S_ 1 1#1
  let main_v12 : IVec S_ 1 := (fun x v => Host.reduce IntOp.andi x v reducesTo_S32x513x513_S_d0_1_2 h_S_) main_v11 main_c_3
  let main_v13 : IVec S_ 1 := andi main_v8 main_v12
  let main_v14 : FVec F S32x513x513 .f32 := Host.absf main_arg3
  let main_cst_4 : FVec F S_ .f32 := constant S_ .f32 0x7F800000#32
  let main_v15 : FVec F S32x513x513 .f32 := broadcastInDim S32x513x513 ![] bcast_S_S32x513x513 main_cst_4
  let main_v16 : IVec S32x513x513 1 := cmpf .olt main_v14 main_v15
  fn_part1 (F := F) main_v13 main_v16
-- ==== Kernel.lean ====
abbrev S4x262144x3 : Shape := ⟨3, ![4, 262144, 3]⟩
abbrev S32x513x513 : Shape := ⟨3, ![32, 513, 513]⟩
abbrev S1048576x3 : Shape := ⟨2, ![1048576, 3]⟩
abbrev S1048576x1 : Shape := ⟨2, ![1048576, 1]⟩
abbrev S1048576 : Shape := ⟨1, ![1048576]⟩
abbrev S_ : Shape := ⟨0, ![]⟩
abbrev S1048576x2 : Shape := ⟨2, ![1048576, 2]⟩
abbrev S32x1048576 : Shape := ⟨2, ![32, 1048576]⟩
abbrev S1048576x32 : Shape := ⟨2, ![1048576, 32]⟩
abbrev S1048576x1x32 : Shape := ⟨3, ![1048576, 1, 32]⟩
abbrev S1048576x3x32 : Shape := ⟨3, ![1048576, 3, 32]⟩
abbrev S1048576x3x1 : Shape := ⟨3, ![1048576, 3, 1]⟩
abbrev S4096x3x32 : Shape := ⟨3, ![4096, 3, 32]⟩
abbrev S4096x3x1 : Shape := ⟨3, ![4096, 3, 1]⟩
abbrev S4x262144x3x32 : Shape := ⟨4, ![4, 262144, 3, 32]⟩

abbrev nBuf : Space → Nat
  | .hbm => 525
  | .vmem => 14
  | .smem => 0
  | _ => 0

abbrev hbmTy0_0 (i : Nat) : BufTy := match i % 128 with
  | 0 => ⟨S4x262144x3, .f32⟩
  | 1 => ⟨S32x513x513, .f32⟩
  | 2 => ⟨S32x513x513, .f32⟩
  | 3 => ⟨S32x513x513, .f32⟩
  | 4 => ⟨S1048576x3, .f32⟩
  | 5 => ⟨S1048576x1, .f32⟩
  | 6 => ⟨S1048576, .f32⟩
  | 7 => ⟨S1048576x1, .f32⟩
  | 8 => ⟨S1048576, .f32⟩
  | 9 => ⟨S_, .f32⟩
  | 10 => ⟨S1048576, .f32⟩
  | 11 => ⟨S1048576, .f32⟩
  | 12 => ⟨S_, .f32⟩
  | 13 => ⟨S1048576, .f32⟩
  | 14 => ⟨S1048576, .f32⟩
  | 15 => ⟨S_, .f32⟩
  | 16 => ⟨S1048576, .f32⟩
  | 17 => ⟨S1048576, .f32⟩
  | 18 => ⟨S1048576, .f32⟩
  | 19 => ⟨S_, .f32⟩
  | 20 => ⟨S1048576, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S1048576, .f32⟩
  | 27 => ⟨S_, .f32⟩
  | 28 => ⟨S1048576, .f32⟩
  | 29 => ⟨S1048576, .i1⟩
  | 30 => ⟨S_, .f32⟩
  | 31 => ⟨S1048576, .f32⟩
  | 32 => ⟨S1048576, .f32⟩
  | 33 => ⟨S1048576, .f32⟩
  | 34 => ⟨S_, .f32⟩
  | 35 => ⟨S_, .f32⟩
  | 36 => ⟨S_, .f32⟩
  | 37 => ⟨S1048576, .f32⟩
  | 38 => ⟨S1048576, .f32⟩
  | 39 => ⟨S_, .f32⟩
  | 40 => ⟨S1048576, .f32⟩
  | 41 => ⟨S1048576, .f32⟩
  | 42 => ⟨S_, .f32⟩
  | 43 => ⟨S1048576, .f32⟩
  | 44 => ⟨S1048576, .f32⟩
  | 45 => ⟨S_, .f32⟩
  | 46 => ⟨S1048576, .f32⟩
  | 47 => ⟨S1048576, .f32⟩
  | 48 => ⟨S_, .f32⟩
  | 49 => ⟨S1048576, .f32⟩
  | 50 => ⟨S1048576, .f32⟩
  | 51 => ⟨S1048576, .f32⟩
  | 52 => ⟨S_, .f32⟩
  | 53 => ⟨S1048576, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S1048576, .f32⟩
  | 60 => ⟨S_, .f32⟩
  | 61 => ⟨S1048576, .f32⟩
  | 62 => ⟨S1048576, .i1⟩
  | 63 => ⟨S_, .f32⟩
  | 64 => ⟨S1048576, .f32⟩
  | 65 => ⟨S1048576, .f32⟩
  | 66 => ⟨S1048576, .f32⟩
  | 67 => ⟨S_, .f32⟩
  | 68 => ⟨S_, .f32⟩
  | 69 => ⟨S_, .f32⟩
  | 70 => ⟨S1048576, .f32⟩
  | 71 => ⟨S1048576, .f32⟩
  | 72 => ⟨S_, .f32⟩
  | 73 => ⟨S1048576, .f32⟩
  | 74 => ⟨S1048576, .f32⟩
  | 75 => ⟨S1048576, .f32⟩
  | 76 => ⟨S1048576, .f32⟩
  | 77 => ⟨S1048576, .f32⟩
  | 78 => ⟨S1048576, .f32⟩
  | 79 => ⟨S1048576, .i32⟩
  | 80 => ⟨S1048576, .i32⟩
  | 81 => ⟨S_, .i32⟩
  | 82 => ⟨S1048576, .i32⟩
  | 83 => ⟨S1048576, .i32⟩
  | 84 => ⟨S_, .i32⟩
  | 85 => ⟨S1048576, .i32⟩
  | 86 => ⟨S1048576, .i32⟩
  | 87 => ⟨S_, .i32⟩
  | 88 => ⟨S1048576, .i32⟩
  | 89 => ⟨S1048576, .i32⟩
  | 90 => ⟨S_, .i32⟩
  | 91 => ⟨S1048576, .i32⟩
  | 92 => ⟨S1048576, .i32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S1048576x1, .i32⟩
  | 109 => ⟨S1048576x2, .i32⟩
  | 110 => ⟨S32x1048576, .f32⟩
  | 111 => ⟨S1048576x32, .f32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1048576x1, .i32⟩
  | _ => ⟨S4x262144x3, .f32⟩

abbrev hbmTy0_1 (i : Nat) : BufTy := match i % 128 with
  | 0 => ⟨S1048576x2, .i32⟩
  | 1 => ⟨S32x1048576, .f32⟩
  | 2 => ⟨S1048576x32, .f32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S1048576x1, .i32⟩
  | 18 => ⟨S1048576x1, .i32⟩
  | 19 => ⟨S1048576x2, .i32⟩
  | 20 => ⟨S32x1048576, .f32⟩
  | 21 => ⟨S1048576x32, .f32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S1048576x1, .i32⟩
  | 37 => ⟨S1048576x1, .i32⟩
  | 38 => ⟨S1048576x2, .i32⟩
  | 39 => ⟨S32x1048576, .f32⟩
  | 40 => ⟨S1048576x32, .f32⟩
  | 41 => ⟨S1048576x1, .f32⟩
  | 42 => ⟨S1048576, .f32⟩
  | 43 => ⟨S1048576x1, .f32⟩
  | 44 => ⟨S1048576, .f32⟩
  | 45 => ⟨S_, .f32⟩
  | 46 => ⟨S1048576, .f32⟩
  | 47 => ⟨S1048576, .f32⟩
  | 48 => ⟨S_, .f32⟩
  | 49 => ⟨S1048576, .f32⟩
  | 50 => ⟨S1048576, .f32⟩
  | 51 => ⟨S_, .f32⟩
  | 52 => ⟨S1048576, .f32⟩
  | 53 => ⟨S1048576, .f32⟩
  | 54 => ⟨S1048576, .f32⟩
  | 55 => ⟨S_, .f32⟩
  | 56 => ⟨S1048576, .f32⟩
  | 57 => ⟨S1048576, .f32⟩
  | 58 => ⟨S1048576, .f32⟩
  | 59 => ⟨S_, .f32⟩
  | 60 => ⟨S1048576, .f32⟩
  | 61 => ⟨S1048576, .f32⟩
  | 62 => ⟨S1048576, .f32⟩
  | 63 => ⟨S_, .f32⟩
  | 64 => ⟨S1048576, .f32⟩
  | 65 => ⟨S1048576, .i1⟩
  | 66 => ⟨S_, .f32⟩
  | 67 => ⟨S1048576, .f32⟩
  | 68 => ⟨S1048576, .f32⟩
  | 69 => ⟨S1048576, .f32⟩
  | 70 => ⟨S_, .f32⟩
  | 71 => ⟨S_, .f32⟩
  | 72 => ⟨S_, .f32⟩
  | 73 => ⟨S1048576, .f32⟩
  | 74 => ⟨S1048576, .f32⟩
  | 75 => ⟨S_, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S1048576, .f32⟩
  | 88 => ⟨S_, .f32⟩
  | 89 => ⟨S1048576, .f32⟩
  | 90 => ⟨S1048576, .f32⟩
  | 91 => ⟨S1048576, .f32⟩
  | 92 => ⟨S_, .f32⟩
  | 93 => ⟨S1048576, .f32⟩
  | 94 => ⟨S1048576, .f32⟩
  | 95 => ⟨S1048576, .f32⟩
  | 96 => ⟨S_, .f32⟩
  | 97 => ⟨S1048576, .f32⟩
  | 98 => ⟨S1048576, .i1⟩
  | 99 => ⟨S_, .f32⟩
  | 100 => ⟨S1048576, .f32⟩
  | 101 => ⟨S1048576, .f32⟩
  | 102 => ⟨S1048576, .f32⟩
  | 103 => ⟨S_, .f32⟩
  | 104 => ⟨S_, .f32⟩
  | 105 => ⟨S_, .f32⟩
  | 106 => ⟨S1048576, .f32⟩
  | 107 => ⟨S1048576, .f32⟩
  | 108 => ⟨S_, .f32⟩
  | 109 => ⟨S1048576, .f32⟩
  | 110 => ⟨S1048576, .f32⟩
  | 111 => ⟨S1048576, .f32⟩
  | 112 => ⟨S1048576, .f32⟩
  | 113 => ⟨S1048576, .f32⟩
  | 114 => ⟨S1048576, .f32⟩
  | 115 => ⟨S1048576, .i32⟩
  | 116 => ⟨S1048576, .i32⟩
  | 117 => ⟨S_, .i32⟩
  | 118 => ⟨S1048576, .i32⟩
  | 119 => ⟨S1048576, .i32⟩
  | 120 => ⟨S_, .i32⟩
  | 121 => ⟨S1048576, .i32⟩
  | 122 => ⟨S1048576, .i32⟩
  | 123 => ⟨S_, .i32⟩
  | 124 => ⟨S1048576, .i32⟩
  | 125 => ⟨S1048576, .i32⟩
  | 126 => ⟨S_, .i32⟩
  | 127 => ⟨S1048576, .i32⟩
  | _ => ⟨S4x262144x3, .f32⟩

abbrev hbmTy0_2 (i : Nat) : BufTy := match i % 128 with
  | 0 => ⟨S1048576, .i32⟩
  | 1 => ⟨S_, .i32⟩
  | 2 => ⟨S1048576, .i32⟩
  | 3 => ⟨S1048576, .i1⟩
  | 4 => ⟨S_, .i32⟩
  | 5 => ⟨S1048576, .i32⟩
  | 6 => ⟨S1048576, .i32⟩
  | 7 => ⟨S1048576, .i32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S1048576x1, .i32⟩
  | 16 => ⟨S1048576x1, .i32⟩
  | 17 => ⟨S1048576x2, .i32⟩
  | 18 => ⟨S32x1048576, .f32⟩
  | 19 => ⟨S1048576x32, .f32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S1048576x1, .i32⟩
  | 36 => ⟨S1048576x2, .i32⟩
  | 37 => ⟨S32x1048576, .f32⟩
  | 38 => ⟨S1048576x32, .f32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S_, .i32⟩
  | 47 => ⟨S1048576, .i32⟩
  | 48 => ⟨S1048576, .i1⟩
  | 49 => ⟨S_, .i32⟩
  | 50 => ⟨S1048576, .i32⟩
  | 51 => ⟨S1048576, .i32⟩
  | 52 => ⟨S1048576, .i32⟩
  | 53 => ⟨S1048576x1, .i32⟩
  | 54 => ⟨S1048576x1, .i32⟩
  | 55 => ⟨S1048576x2, .i32⟩
  | 56 => ⟨S32x1048576, .f32⟩
  | 57 => ⟨S1048576x32, .f32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i32⟩
  | 71 => ⟨S1048576, .i32⟩
  | 72 => ⟨S1048576x1, .i32⟩
  | 73 => ⟨S1048576x1, .i32⟩
  | 74 => ⟨S1048576x2, .i32⟩
  | 75 => ⟨S32x1048576, .f32⟩
  | 76 => ⟨S1048576x32, .f32⟩
  | 77 => ⟨S1048576x1, .f32⟩
  | 78 => ⟨S1048576, .f32⟩
  | 79 => ⟨S1048576x1, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S_, .f32⟩
  | 88 => ⟨S1048576, .f32⟩
  | 89 => ⟨S1048576, .f32⟩
  | 90 => ⟨S1048576, .f32⟩
  | 91 => ⟨S_, .f32⟩
  | 92 => ⟨S1048576, .f32⟩
  | 93 => ⟨S1048576, .f32⟩
  | 94 => ⟨S1048576, .f32⟩
  | 95 => ⟨S_, .f32⟩
  | 96 => ⟨S1048576, .f32⟩
  | 97 => ⟨S1048576, .f32⟩
  | 98 => ⟨S1048576, .f32⟩
  | 99 => ⟨S_, .f32⟩
  | 100 => ⟨S1048576, .f32⟩
  | 101 => ⟨S1048576, .i1⟩
  | 102 => ⟨S_, .f32⟩
  | 103 => ⟨S1048576, .f32⟩
  | 104 => ⟨S1048576, .f32⟩
  | 105 => ⟨S1048576, .f32⟩
  | 106 => ⟨S_, .f32⟩
  | 107 => ⟨S_, .f32⟩
  | 108 => ⟨S_, .f32⟩
  | 109 => ⟨S1048576, .f32⟩
  | 110 => ⟨S1048576, .f32⟩
  | 111 => ⟨S_, .f32⟩
  | 112 => ⟨S1048576, .f32⟩
  | 113 => ⟨S1048576, .f32⟩
  | 114 => ⟨S_, .f32⟩
  | 115 => ⟨S1048576, .f32⟩
  | 116 => ⟨S1048576, .f32⟩
  | 117 => ⟨S_, .f32⟩
  | 118 => ⟨S1048576, .f32⟩
  | 119 => ⟨S1048576, .f32⟩
  | 120 => ⟨S_, .f32⟩
  | 121 => ⟨S1048576, .f32⟩
  | 122 => ⟨S1048576, .f32⟩
  | 123 => ⟨S1048576, .f32⟩
  | 124 => ⟨S_, .f32⟩
  | 125 => ⟨S1048576, .f32⟩
  | 126 => ⟨S1048576, .f32⟩
  | 127 => ⟨S1048576, .f32⟩
  | _ => ⟨S4x262144x3, .f32⟩

abbrev hbmTy0_3 (i : Nat) : BufTy := match i % 128 with
  | 0 => ⟨S_, .f32⟩
  | 1 => ⟨S1048576, .f32⟩
  | 2 => ⟨S1048576, .f32⟩
  | 3 => ⟨S1048576, .f32⟩
  | 4 => ⟨S_, .f32⟩
  | 5 => ⟨S1048576, .f32⟩
  | 6 => ⟨S1048576, .i1⟩
  | 7 => ⟨S_, .f32⟩
  | 8 => ⟨S1048576, .f32⟩
  | 9 => ⟨S1048576, .f32⟩
  | 10 => ⟨S1048576, .f32⟩
  | 11 => ⟨S_, .f32⟩
  | 12 => ⟨S_, .f32⟩
  | 13 => ⟨S_, .f32⟩
  | 14 => ⟨S1048576, .f32⟩
  | 15 => ⟨S1048576, .f32⟩
  | 16 => ⟨S_, .f32⟩
  | 17 => ⟨S1048576, .f32⟩
  | 18 => ⟨S1048576, .f32⟩
  | 19 => ⟨S1048576, .f32⟩
  | 20 => ⟨S1048576, .f32⟩
  | 21 => ⟨S1048576, .f32⟩
  | 22 => ⟨S1048576, .f32⟩
  | 23 => ⟨S1048576, .i32⟩
  | 24 => ⟨S1048576, .i32⟩
  | 25 => ⟨S_, .i32⟩
  | 26 => ⟨S1048576, .i32⟩
  | 27 => ⟨S1048576, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576x1, .i32⟩
  | 53 => ⟨S1048576x2, .i32⟩
  | 54 => ⟨S32x1048576, .f32⟩
  | 55 => ⟨S1048576x32, .f32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S_, .i32⟩
  | 64 => ⟨S1048576, .i32⟩
  | 65 => ⟨S1048576, .i1⟩
  | 66 => ⟨S_, .i32⟩
  | 67 => ⟨S1048576, .i32⟩
  | 68 => ⟨S1048576, .i32⟩
  | 69 => ⟨S1048576, .i32⟩
  | 70 => ⟨S1048576x1, .i32⟩
  | 71 => ⟨S1048576x1, .i32⟩
  | 72 => ⟨S1048576x2, .i32⟩
  | 73 => ⟨S32x1048576, .f32⟩
  | 74 => ⟨S1048576x32, .f32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S1048576x1, .i32⟩
  | 90 => ⟨S1048576x1, .i32⟩
  | 91 => ⟨S1048576x2, .i32⟩
  | 92 => ⟨S32x1048576, .f32⟩
  | 93 => ⟨S1048576x32, .f32⟩
  | 94 => ⟨S_, .i32⟩
  | 95 => ⟨S1048576, .i32⟩
  | 96 => ⟨S1048576, .i1⟩
  | 97 => ⟨S_, .i32⟩
  | 98 => ⟨S1048576, .i32⟩
  | 99 => ⟨S1048576, .i32⟩
  | 100 => ⟨S1048576, .i32⟩
  | 101 => ⟨S_, .i32⟩
  | 102 => ⟨S1048576, .i32⟩
  | 103 => ⟨S1048576, .i1⟩
  | 104 => ⟨S_, .i32⟩
  | 105 => ⟨S1048576, .i32⟩
  | 106 => ⟨S1048576, .i32⟩
  | 107 => ⟨S1048576, .i32⟩
  | 108 => ⟨S1048576x1, .i32⟩
  | 109 => ⟨S1048576x1, .i32⟩
  | 110 => ⟨S1048576x2, .i32⟩
  | 111 => ⟨S32x1048576, .f32⟩
  | 112 => ⟨S1048576x32, .f32⟩
  | 113 => ⟨S1048576x1x32, .f32⟩
  | 114 => ⟨S1048576x1x32, .f32⟩
  | 115 => ⟨S1048576x1x32, .f32⟩
  | 116 => ⟨S1048576x3x32, .f32⟩
  | 117 => ⟨S1048576x1x32, .f32⟩
  | 118 => ⟨S1048576x1x32, .f32⟩
  | 119 => ⟨S1048576x1x32, .f32⟩
  | 120 => ⟨S1048576x3x32, .f32⟩
  | 121 => ⟨S1048576x1x32, .f32⟩
  | 122 => ⟨S1048576x1x32, .f32⟩
  | 123 => ⟨S1048576x1x32, .f32⟩
  | 124 => ⟨S1048576x3x32, .f32⟩
  | 125 => ⟨S1048576x1x32, .f32⟩
  | 126 => ⟨S1048576x1x32, .f32⟩
  | 127 => ⟨S1048576x1x32, .f32⟩
  | _ => ⟨S4x262144x3, .f32⟩

abbrev hbmTy0_4 (i : Nat) : BufTy := match i % 128 with
  | 0 => ⟨S1048576x3x32, .f32⟩
  | 1 => ⟨S1048576x1, .f32⟩
  | 2 => ⟨S1048576x1, .f32⟩
  | 3 => ⟨S1048576x1, .f32⟩
  | 4 => ⟨S1048576x3, .f32⟩
  | 5 => ⟨S1048576x3x1, .f32⟩
  | 6 => ⟨S1048576x1, .f32⟩
  | 7 => ⟨S1048576x1, .f32⟩
  | 8 => ⟨S1048576x1, .f32⟩
  | 9 => ⟨S1048576x3, .f32⟩
  | 10 => ⟨S1048576x3x1, .f32⟩
  | 11 => ⟨S1048576x3x32, .f32⟩
  | 12 => ⟨S4x262144x3x32, .f32⟩
  | _ => ⟨S4x262144x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x262144x3, .f32⟩

abbrev bufTy : (tb : Table) → Fin (tcTables nBuf tb) → BufTy
  | .hbm, ⟨i, _⟩ => hbmTy i
  | .local _ .vmem, ⟨0, _⟩ => ⟨S4096x3x32, .f32⟩
  | .local _ .vmem, ⟨1, _⟩ => ⟨S4096x3x32, .f32⟩
  | .local _ .vmem, ⟨2, _⟩ => ⟨S4096x3x32, .f32⟩
  | .local _ .vmem, ⟨3, _⟩ => ⟨S4096x3x32, .f32⟩
  | .local _ .vmem, ⟨4, _⟩ => ⟨S4096x3x32, .f32⟩
  | .local _ .vmem, ⟨5, _⟩ => ⟨S4096x3x32, .f32⟩
  | .local _ .vmem, ⟨6, _⟩ => ⟨S4096x3x32, .f32⟩
  | .local _ .vmem, ⟨7, _⟩ => ⟨S4096x3x32, .f32⟩
  | .local _ .vmem, ⟨8, _⟩ => ⟨S4096x3x1, .f32⟩
  | .local _ .vmem, ⟨9, _⟩ => ⟨S4096x3x1, .f32⟩
  | .local _ .vmem, ⟨10, _⟩ => ⟨S4096x3x1, .f32⟩
  | .local _ .vmem, ⟨11, _⟩ => ⟨S4096x3x1, .f32⟩
  | .local _ .vmem, ⟨12, _⟩ => ⟨S4096x3x32, .f32⟩
  | .local _ .vmem, ⟨13, _⟩ => ⟨S4096x3x32, .f32⟩
  | _, _ => ⟨S4x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_13 : Ref sig .tc := ⟨.hbm, 60, rfl⟩
abbrev main_v37 : Ref sig .tc := ⟨.hbm, 61, rfl⟩
abbrev main_v38 : Ref sig .tc := ⟨.hbm, 62, rfl⟩
abbrev main_cst_14 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_15 : Ref sig .tc := ⟨.hbm, 67, rfl⟩
abbrev main_cst_16 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c : Ref sig .tc := ⟨.hbm, 81, rfl⟩
abbrev main_v49 : Ref sig .tc := ⟨.hbm, 82, rfl⟩
abbrev main_v50 : Ref sig .tc := ⟨.hbm, 83, rfl⟩
abbrev main_c_17 : Ref sig .tc := ⟨.hbm, 84, rfl⟩
abbrev main_v51 : Ref sig .tc := ⟨.hbm, 85, rfl⟩
abbrev main_v52 : Ref sig .tc := ⟨.hbm, 86, rfl⟩
abbrev main_c_18 : Ref sig .tc := ⟨.hbm, 87, rfl⟩
abbrev main_v53 : Ref sig .tc := ⟨.hbm, 88, rfl⟩
abbrev main_v54 : Ref sig .tc := ⟨.hbm, 89, rfl⟩
abbrev main_c_19 : Ref sig .tc := ⟨.hbm, 90, rfl⟩
abbrev main_v55 : Ref sig .tc := ⟨.hbm, 91, rfl⟩
abbrev main_v56 : Ref sig .tc := ⟨.hbm, 92, rfl⟩
abbrev main_c_20 : Ref sig .tc := ⟨.hbm, 93, rfl⟩
abbrev main_v57 : Ref sig .tc := ⟨.hbm, 94, rfl⟩
abbrev main_v58 : Ref sig .tc := ⟨.hbm, 95, rfl⟩
abbrev main_c_21 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_22 : Ref sig .tc := ⟨.hbm, 100, rfl⟩
abbrev main_v62 : Ref sig .tc := ⟨.hbm, 101, rfl⟩
abbrev main_v63 : Ref sig .tc := ⟨.hbm, 102, rfl⟩
abbrev main_c_23 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_24 : Ref sig .tc := ⟨.hbm, 112, rfl⟩
abbrev main_v72 : Ref sig .tc := ⟨.hbm, 113, rfl⟩
abbrev main_v73 : Ref sig .tc := ⟨.hbm, 114, rfl⟩
abbrev main_c_25 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_26 : Ref sig .tc := ⟨.hbm, 119, rfl⟩
abbrev main_v77 : Ref sig .tc := ⟨.hbm, 120, rfl⟩
abbrev main_v78 : Ref sig .tc := ⟨.hbm, 121, rfl⟩
abbrev main_c_27 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_28 : Ref sig .tc := ⟨.hbm, 131, rfl⟩
abbrev main_v87 : Ref sig .tc := ⟨.hbm, 132, rfl⟩
abbrev main_v88 : Ref sig .tc := ⟨.hbm, 133, rfl⟩
abbrev main_c_29 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_30 : Ref sig .tc := ⟨.hbm, 138, rfl⟩
abbrev main_v92 : Ref sig .tc := ⟨.hbm, 139, rfl⟩
abbrev main_v93 : Ref sig .tc := ⟨.hbm, 140, rfl⟩
abbrev main_c_31 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_32 : Ref sig .tc := ⟨.hbm, 150, rfl⟩
abbrev main_v102 : Ref sig .tc := ⟨.hbm, 151, rfl⟩
abbrev main_v103 : Ref sig .tc := ⟨.hbm, 152, rfl⟩
abbrev main_c_33 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_34 : Ref sig .tc := ⟨.hbm, 157, rfl⟩
abbrev main_v107 : Ref sig .tc := ⟨.hbm, 158, rfl⟩
abbrev main_v108 : Ref sig .tc := ⟨.hbm, 159, rfl⟩
abbrev main_c_35 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_36 : Ref sig .tc := ⟨.hbm, 173, rfl⟩
abbrev main_v121 : Ref sig .tc := ⟨.hbm, 174, rfl⟩
abbrev main_v122 : Ref sig .tc := ⟨.hbm, 175, rfl⟩
abbrev main_cst_37 : Ref sig .tc := ⟨.hbm, 176, rfl⟩
abbrev main_v123 : Ref sig .tc := ⟨.hbm, 177, rfl⟩
abbrev main_v124 : Ref sig .tc := ⟨.hbm, 178, rfl⟩
abbrev main_cst_38 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_39 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_40 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_41 : Ref sig .tc := ⟨.hbm, 191, rfl⟩
abbrev main_v134 : Ref sig .tc := ⟨.hbm, 192, rfl⟩
abbrev main_v135 : Ref sig .tc := ⟨.hbm, 193, rfl⟩
abbrev main_cst_42 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_43 : Ref sig .tc := ⟨.hbm, 198, rfl⟩
abbrev main_cst_44 : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_v139 : Ref sig .tc := ⟨.hbm, 205, rfl⟩
abbrev main_cst_45 : Ref sig .tc := ⟨.hbm, 206, rfl⟩
abbrev main_v140 : Ref sig .tc := ⟨.hbm, 207, rfl⟩
abbrev main_v141 : Ref sig .tc := ⟨.hbm, 208, rfl⟩
abbrev main_cst_46 : Ref sig .tc := ⟨.hbm, 209, rfl⟩
abbrev main_v142 : Ref sig .tc := ⟨.hbm, 210, rfl⟩
abbrev main_v143 : Ref sig .tc := ⟨.hbm, 211, rfl⟩
abbrev main_cst_47 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_48 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_49 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_50 : Ref sig .tc := ⟨.hbm, 224, rfl⟩
abbrev main_v153 : Ref sig .tc := ⟨.hbm, 225, rfl⟩
abbrev main_v154 : Ref sig .tc := ⟨.hbm, 226, rfl⟩
abbrev main_cst_51 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_52 : Ref sig .tc := ⟨.hbm, 231, rfl⟩
abbrev main_cst_53 : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_c_54 : Ref sig .tc := ⟨.hbm, 245, rfl⟩
abbrev main_v165 : Ref sig .tc := ⟨.hbm, 246, rfl⟩
abbrev main_v166 : Ref sig .tc := ⟨.hbm, 247, rfl⟩
abbrev main_c_55 : Ref sig .tc := ⟨.hbm, 248, rfl⟩
abbrev main_v167 : Ref sig .tc := ⟨.hbm, 249, rfl⟩
abbrev main_v168 : Ref sig .tc := ⟨.hbm, 250, rfl⟩
abbrev main_c_56 : Ref sig .tc := ⟨.hbm, 251, rfl⟩
abbrev main_v169 : Ref sig .tc := ⟨.hbm, 252, rfl⟩
abbrev main_v170 : Ref sig .tc := ⟨.hbm, 253, rfl⟩
abbrev main_c_57 : Ref sig .tc := ⟨.hbm, 254, rfl⟩
abbrev main_v171 : Ref sig .tc := ⟨.hbm, 255, rfl⟩
abbrev main_v172 : Ref sig .tc := ⟨.hbm, 256, rfl⟩
abbrev main_c_58 : Ref sig .tc := ⟨.hbm, 257, rfl⟩
abbrev main_v173 : Ref sig .tc := ⟨.hbm, 258, rfl⟩
abbrev main_v174 : Ref sig .tc := ⟨.hbm, 259, rfl⟩
abbrev main_c_59 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_c_60 : Ref sig .tc := ⟨.hbm, 264, rfl⟩
abbrev main_v178 : Ref sig .tc := ⟨.hbm, 265, rfl⟩
abbrev main_v179 : Ref sig .tc := ⟨.hbm, 266, rfl⟩
abbrev main_c_61 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_c_62 : Ref sig .tc := ⟨.hbm, 276, rfl⟩
abbrev main_v188 : Ref sig .tc := ⟨.hbm, 277, rfl⟩
abbrev main_v189 : Ref sig .tc := ⟨.hbm, 278, rfl⟩
abbrev main_c_63 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_c_64 : Ref sig .tc := ⟨.hbm, 283, rfl⟩
abbrev main_v193 : Ref sig .tc := ⟨.hbm, 284, rfl⟩
abbrev main_v194 : Ref sig .tc := ⟨.hbm, 285, rfl⟩
abbrev main_c_65 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_c_66 : Ref sig .tc := ⟨.hbm, 295, rfl⟩
abbrev main_v203 : Ref sig .tc := ⟨.hbm, 296, rfl⟩
abbrev main_v204 : Ref sig .tc := ⟨.hbm, 297, rfl⟩
abbrev main_c_67 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_c_68 : Ref sig .tc := ⟨.hbm, 302, rfl⟩
abbrev main_v208 : Ref sig .tc := ⟨.hbm, 303, rfl⟩
abbrev main_v209 : Ref sig .tc := ⟨.hbm, 304, rfl⟩
abbrev main_c_69 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_c_70 : Ref sig .tc := ⟨.hbm, 314, rfl⟩
abbrev main_v218 : Ref sig .tc := ⟨.hbm, 315, rfl⟩
abbrev main_v219 : Ref sig .tc := ⟨.hbm, 316, rfl⟩
abbrev main_c_71 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_c_72 : Ref sig .tc := ⟨.hbm, 321, rfl⟩
abbrev main_v223 : Ref sig .tc := ⟨.hbm, 322, rfl⟩
abbrev main_v224 : Ref sig .tc := ⟨.hbm, 323, rfl⟩
abbrev main_c_73 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_cst_74 : Ref sig .tc := ⟨.hbm, 337, rfl⟩
abbrev main_v237 : Ref sig .tc := ⟨.hbm, 338, rfl⟩
abbrev main_v238 : Ref sig .tc := ⟨.hbm, 339, rfl⟩
abbrev main_cst_75 : Ref sig .tc := ⟨.hbm, 340, rfl⟩
abbrev main_v239 : Ref sig .tc := ⟨.hbm, 341, rfl⟩
abbrev main_v240 : Ref sig .tc := ⟨.hbm, 342, rfl⟩
abbrev main_cst_76 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_cst_77 : Ref sig .tc := ⟨.hbm, 347, rfl⟩
abbrev main_v244 : Ref sig .tc := ⟨.hbm, 348, rfl⟩
abbrev main_v245 : Ref sig .tc := ⟨.hbm, 349, rfl⟩
abbrev main_v246 : Ref sig .tc := ⟨.hbm, 350, rfl⟩
abbrev main_cst_78 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩
abbrev main_cst_79 : Ref sig .tc := ⟨.hbm, 355, rfl⟩
abbrev main_v250 : Ref sig .tc := ⟨.hbm, 356, rfl⟩
abbrev main_v251 : Ref sig .tc := ⟨.hbm, 357, rfl⟩
abbrev main_cst_80 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_cst_81 : Ref sig .tc := ⟨.hbm, 362, rfl⟩
abbrev main_cst_82 : Ref sig .tc := ⟨.hbm, 363, rfl⟩
abbrev main_call9_v0 : Ref sig .tc := ⟨.hbm, 364, rfl⟩
abbrev main_call9_v1 : Ref sig .tc := ⟨.hbm, 365, rfl⟩
abbrev main_call9_v2 : Ref sig .tc := ⟨.hbm, 366, rfl⟩
abbrev main_call9_v3 : Ref sig .tc := ⟨.hbm, 367, rfl⟩
abbrev main_call9_v4 : Ref sig .tc := ⟨.hbm, 368, rfl⟩
abbrev main_v255 : Ref sig .tc := ⟨.hbm, 369, rfl⟩
abbrev main_cst_83 : Ref sig .tc := ⟨.hbm, 370, rfl⟩
abbrev main_v256 : Ref sig .tc := ⟨.hbm, 371, rfl⟩
abbrev main_v257 : Ref sig .tc := ⟨.hbm, 372, rfl⟩
abbrev main_cst_84 : Ref sig .tc := ⟨.hbm, 373, rfl⟩
abbrev main_v258 : Ref sig .tc := ⟨.hbm, 374, rfl⟩
abbrev main_v259 : Ref sig .tc := ⟨.hbm, 375, rfl⟩
abbrev main_cst_85 : Ref sig .tc := ⟨.hbm, 376, rfl⟩
abbrev main_v260 : Ref sig .tc := ⟨.hbm, 377, rfl⟩
abbrev main_v261 : Ref sig .tc := ⟨.hbm, 378, rfl⟩
abbrev main_v262 : Ref sig .tc := ⟨.hbm, 379, rfl⟩
abbrev main_cst_86 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_cst_87 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_cst_88 : Ref sig .tc := ⟨.hbm, 388, rfl⟩
abbrev main_v269 : Ref sig .tc := ⟨.hbm, 389, rfl⟩
abbrev main_v270 : Ref sig .tc := ⟨.hbm, 390, rfl⟩
abbrev main_cst_89 : Ref sig .tc := ⟨.hbm, 391, rfl⟩
abbrev main_v271 : Ref sig .tc := ⟨.hbm, 392, rfl⟩
abbrev main_v272 : Ref sig .tc := ⟨.hbm, 393, rfl⟩
abbrev main_v273 : Ref sig .tc := ⟨.hbm, 394, rfl⟩
abbrev main_cst_90 : Ref sig .tc := ⟨.hbm, 395, rfl⟩
abbrev main_cst_91 : Ref sig .tc := ⟨.hbm, 396, rfl⟩
abbrev main_call11_v0 : Ref sig .tc := ⟨.hbm, 397, rfl⟩
abbrev main_call11_v1 : Ref sig .tc := ⟨.hbm, 398, rfl⟩
abbrev main_call11_v2 : Ref sig .tc := ⟨.hbm, 399, rfl⟩
abbrev main_call11_v3 : Ref sig .tc := ⟨.hbm, 400, rfl⟩
abbrev main_call11_v4 : Ref sig .tc := ⟨.hbm, 401, rfl⟩
abbrev main_v274 : Ref sig .tc := ⟨.hbm, 402, rfl⟩
abbrev main_v275 : Ref sig .tc := ⟨.hbm, 403, rfl⟩
abbrev main_v276 : Ref sig .tc := ⟨.hbm, 404, rfl⟩
abbrev main_v277 : Ref sig .tc := ⟨.hbm, 405, rfl⟩
abbrev main_v278 : Ref sig .tc := ⟨.hbm, 406, rfl⟩
abbrev main_v279 : Ref sig .tc := ⟨.hbm, 407, rfl⟩
abbrev main_v280 : Ref sig .tc := ⟨.hbm, 408, rfl⟩
abbrev main_c_92 : Ref sig .tc := ⟨.hbm, 409, rfl⟩
abbrev main_v281 : Ref sig .tc := ⟨.hbm, 410, rfl⟩
abbrev main_v282 : Ref sig .tc := ⟨.hbm, 411, rfl⟩
abbrev main_c_93 : Ref sig .tc := ⟨.hbm, 412, rfl⟩
abbrev main_v283 : Ref sig .tc := ⟨.hbm, 413, rfl⟩
abbrev main_v284 : Ref sig .tc := ⟨.hbm, 414, rfl⟩
abbrev main_c_94 : Ref sig .tc := ⟨.hbm, 415, rfl⟩
abbrev main_v285 : Ref sig .tc := ⟨.hbm, 416, rfl⟩
abbrev main_v286 : Ref sig .tc := ⟨.hbm, 417, rfl⟩
abbrev main_c_95 : Ref sig .tc := ⟨.hbm, 418, rfl⟩
abbrev main_v287 : Ref sig .tc := ⟨.hbm, 419, rfl⟩
abbrev main_v288 : Ref sig .tc := ⟨.hbm, 420, rfl⟩
abbrev main_c_96 : Ref sig .tc := ⟨.hbm, 421, rfl⟩
abbrev main_v289 : Ref sig .tc := ⟨.hbm, 422, rfl⟩
abbrev main_v290 : Ref sig .tc := ⟨.hbm, 423, rfl⟩
abbrev main_c_97 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_c_98 : Ref sig .tc := ⟨.hbm, 428, rfl⟩
abbrev main_v294 : Ref sig .tc := ⟨.hbm, 429, rfl⟩
abbrev main_v295 : Ref sig .tc := ⟨.hbm, 430, rfl⟩
abbrev main_c_99 : Ref sig .tc := ⟨.hbm, 431, rfl⟩
abbrev main_v296 : Ref sig .tc := ⟨.hbm, 432, rfl⟩
abbrev main_v297 : Ref sig .tc := ⟨.hbm, 433, rfl⟩
abbrev main_v298 : Ref sig .tc := ⟨.hbm, 434, rfl⟩
abbrev main_v299 : Ref sig .tc := ⟨.hbm, 435, rfl⟩
abbrev main_v300 : Ref sig .tc := ⟨.hbm, 436, rfl⟩
abbrev main_v301 : Ref sig .tc := ⟨.hbm, 437, rfl⟩
abbrev main_v302 : Ref sig .tc := ⟨.hbm, 438, rfl⟩
abbrev main_v303 : Ref sig .tc := ⟨.hbm, 439, rfl⟩
abbrev main_c_100 : Ref sig .tc := ⟨.hbm, 440, rfl⟩
abbrev main_v304 : Ref sig .tc := ⟨.hbm, 441, rfl⟩
abbrev main_v305 : Ref sig .tc := ⟨.hbm, 442, rfl⟩
abbrev main_c_101 : Ref sig .tc := ⟨.hbm, 443, rfl⟩
abbrev main_v306 : Ref sig .tc := ⟨.hbm, 444, rfl⟩
abbrev main_v307 : Ref sig .tc := ⟨.hbm, 445, rfl⟩
abbrev main_v308 : Ref sig .tc := ⟨.hbm, 446, rfl⟩
abbrev main_c_102 : Ref sig .tc := ⟨.hbm, 447, rfl⟩
abbrev main_v309 : Ref sig .tc := ⟨.hbm, 448, rfl⟩
abbrev main_v310 : Ref sig .tc := ⟨.hbm, 449, rfl⟩
abbrev main_c_103 : Ref sig .tc := ⟨.hbm, 450, rfl⟩
abbrev main_v311 : Ref sig .tc := ⟨.hbm, 451, rfl⟩
abbrev main_v312 : Ref sig .tc := ⟨.hbm, 452, rfl⟩
abbrev main_v313 : Ref sig .tc := ⟨.hbm, 453, rfl⟩
abbrev main_v314 : Ref sig .tc := ⟨.hbm, 454, rfl⟩
abbrev main_v315 : Ref sig .tc := ⟨.hbm, 455, rfl⟩
abbrev main_v316 : Ref sig .tc := ⟨.hbm, 456, rfl⟩
abbrev main_v317 : Ref sig .tc := ⟨.hbm, 457, rfl⟩
abbrev main_v318 : Ref sig .tc := ⟨.hbm, 458, rfl⟩
abbrev main_c_104 : Ref sig .tc := ⟨.hbm, 459, rfl⟩
abbrev main_v319 : Ref sig .tc := ⟨.hbm, 460, rfl⟩
abbrev main_v320 : Ref sig .tc := ⟨.hbm, 461, rfl⟩
abbrev main_c_105 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_c_106 : Ref sig .tc := ⟨.hbm, 466, rfl⟩
abbrev main_v324 : Ref sig .tc := ⟨.hbm, 467, rfl⟩
abbrev main_v325 : Ref sig .tc := ⟨.hbm, 468, rfl⟩
abbrev main_c_107 : Ref sig .tc := ⟨.hbm, 469, rfl⟩
abbrev main_v326 : Ref sig .tc := ⟨.hbm, 470, rfl⟩
abbrev main_v327 : Ref sig .tc := ⟨.hbm, 471, rfl⟩
abbrev main_v328 : Ref sig .tc := ⟨.hbm, 472, rfl⟩
abbrev main_v329 : Ref sig .tc := ⟨.hbm, 473, rfl⟩
abbrev main_v330 : Ref sig .tc := ⟨.hbm, 474, rfl⟩
abbrev main_v331 : Ref sig .tc := ⟨.hbm, 475, rfl⟩
abbrev main_v332 : Ref sig .tc := ⟨.hbm, 476, rfl⟩
abbrev main_v333 : Ref sig .tc := ⟨.hbm, 477, rfl⟩
abbrev main_c_108 : Ref sig .tc := ⟨.hbm, 478, rfl⟩
abbrev main_v334 : Ref sig .tc := ⟨.hbm, 479, rfl⟩
abbrev main_v335 : Ref sig .tc := ⟨.hbm, 480, rfl⟩
abbrev main_c_109 : Ref sig .tc := ⟨.hbm, 481, rfl⟩
abbrev main_v336 : Ref sig .tc := ⟨.hbm, 482, rfl⟩
abbrev main_v337 : Ref sig .tc := ⟨.hbm, 483, rfl⟩
abbrev main_v338 : Ref sig .tc := ⟨.hbm, 484, rfl⟩
abbrev main_c_110 : Ref sig .tc := ⟨.hbm, 485, rfl⟩
abbrev main_v339 : Ref sig .tc := ⟨.hbm, 486, rfl⟩
abbrev main_v340 : Ref sig .tc := ⟨.hbm, 487, rfl⟩
abbrev main_c_111 : Ref sig .tc := ⟨.hbm, 488, rfl⟩
abbrev main_v341 : Ref sig .tc := ⟨.hbm, 489, rfl⟩
abbrev main_v342 : Ref sig .tc := ⟨.hbm, 490, rfl⟩
abbrev main_v343 : Ref sig .tc := ⟨.hbm, 491, rfl⟩
abbrev main_v344 : Ref sig .tc := ⟨.hbm, 492, rfl⟩
abbrev main_v345 : Ref sig .tc := ⟨.hbm, 493, rfl⟩
abbrev main_v346 : Ref sig .tc := ⟨.hbm, 494, rfl⟩
abbrev main_v347 : Ref sig .tc := ⟨.hbm, 495, rfl⟩
abbrev main_v348 : Ref sig .tc := ⟨.hbm, 496, rfl⟩
abbrev main_v349 : Ref sig .tc := ⟨.hbm, 497, rfl⟩
abbrev main_v350 : Ref sig .tc := ⟨.hbm, 498, rfl⟩
abbrev main_v351 : Ref sig .tc := ⟨.hbm, 499, rfl⟩
abbrev main_v352 : Ref sig .tc := ⟨.hbm, 500, rfl⟩
abbrev main_v353 : Ref sig .tc := ⟨.hbm, 501, rfl⟩
abbrev main_v354 : Ref sig .tc := ⟨.hbm, 502, rfl⟩
abbrev main_v355 : Ref sig .tc := ⟨.hbm, 503, rfl⟩
abbrev main_v356 : Ref sig .tc := ⟨.hbm, 504, rfl⟩
abbrev main_v357 : Ref sig .tc := ⟨.hbm, 505, rfl⟩
abbrev main_v358 : Ref sig .tc := ⟨.hbm, 506, rfl⟩
abbrev main_v359 : Ref sig .tc := ⟨.hbm, 507, rfl⟩
abbrev main_v360 : Ref sig .tc := ⟨.hbm, 508, rfl⟩
abbrev main_v361 : Ref sig .tc := ⟨.hbm, 509, rfl⟩
abbrev main_v362 : Ref sig .tc := ⟨.hbm, 510, rfl⟩
abbrev main_v363 : Ref sig .tc := ⟨.hbm, 511, rfl⟩
abbrev main_v364 : Ref sig .tc := ⟨.hbm, 512, rfl⟩
abbrev main_v365 : Ref sig .tc := ⟨.hbm, 513, rfl⟩
abbrev main_v366 : Ref sig .tc := ⟨.hbm, 514, rfl⟩
abbrev main_v367 : Ref sig .tc := ⟨.hbm, 515, rfl⟩
abbrev main_v368 : Ref sig .tc := ⟨.hbm, 516, rfl⟩
abbrev main_v369 : Ref sig .tc := ⟨.hbm, 517, rfl⟩
abbrev main_v370 : Ref sig .tc := ⟨.hbm, 518, rfl⟩
abbrev main_v371 : Ref sig .tc := ⟨.hbm, 519, rfl⟩
abbrev main_v372 : Ref sig .tc := ⟨.hbm, 520, rfl⟩
abbrev main_v373 : Ref sig .tc := ⟨.hbm, 521, rfl⟩
abbrev main_v374 : Ref sig .tc := ⟨.hbm, 522, rfl⟩
abbrev main_v375 : Ref sig .tc := ⟨.hbm, 523, rfl⟩
abbrev main_v376 : Ref sig .tc := ⟨.hbm, 524, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x3x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x3x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x3x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x3x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x3x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x3x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x262144x3_S1048576x3 : S4x262144x3.ShapeCasts S1048576x3
  slices_S1048576x3_S1048576x1_0_1 : S1048576x3.Slices ![0, 1] S1048576x1
  shapeCasts_S1048576x1_S1048576 : S1048576x1.ShapeCasts S1048576
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  transposes_S32x1048576_S1048576x32_1_0 : S32x1048576.Transposes [1, 0] S1048576x32
  slices_S1048576x3_S1048576x1_0_0 : S1048576x3.Slices ![0, 0] S1048576x1
  bcast_S1048576x32_S1048576x1x32_0_2 : S1048576x32.BroadcastsInDim S1048576x1x32 (![0, 2] : Fin 2 → Fin S1048576x1x32.rank)
  concatenates_S1048576x1x32_S1048576x1x32_S1048576x1x32_S1048576x3x32_d1 : Shape.Concatenates [S1048576x1x32, S1048576x1x32, S1048576x1x32] S1048576x3x32 1
  concatenates_S1048576x1_S1048576x1_S1048576x1_S1048576x3_d1 : Shape.Concatenates [S1048576x1, S1048576x1, S1048576x1] S1048576x3 1
  bcast_S1048576x3_S1048576x3x1_0_1 : S1048576x3.BroadcastsInDim S1048576x3x1 (![0, 1] : Fin 2 → Fin S1048576x3x1.rank)
  inb_S4096x3x1_S4096x3x1_0_0_0 : ∀ a, (![0, 0, 0] : Fin 3 → Nat) a + S4096x3x1.size a ≤ S4096x3x1.size a
  h_S4096x3x1 : 0 < S4096x3x1.numel
  shapeCasts_S4096x3x1_S4096x3x1 : S4096x3x1.ShapeCasts S4096x3x1
  inb_S4096x3x32_S4096x3x32_0_0_0 : ∀ a, (![0, 0, 0] : Fin 3 → Nat) a + S4096x3x32.size a ≤ S4096x3x32.size a
  h_S4096x3x32 : 0 < S4096x3x32.numel
  shapeCasts_S4096x3x32_S4096x3x32 : S4096x3x32.ShapeCasts S4096x3x32
  broadcasts_S4096x3x1_S4096x3x32 : S4096x3x1.Broadcasts S4096x3x32
  shapeCasts_S1048576x3x32_S4x262144x3x32 : S1048576x3x32.ShapeCasts S4x262144x3x32
  gather_S32x513x513_S1048576x2_S32x1048576_0_12_n_n_12_1_3211_wf : GatherDims.WF S32x513x513 S1048576x2 S32x1048576 [0] [1, 2] [] [1, 2] [] 1 ![32, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3x32.size a ≤ S1048576x3x32.size a
  hwx0_0 : ∀ i : grid0.Coords, EltTy.bits .f32 = 32 ∨ (Rect.block (s := S1048576x3x32) S4096x3x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3x32.size a ≤ S1048576x3x32.size a
  hwx0_1 : ∀ i : grid0.Coords, EltTy.bits .f32 = 32 ∨ (Rect.block (s := S1048576x3x32) S4096x3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x3x32.size a ≤ S1048576x3x32.size a
  hwx0_2 : ∀ i : grid0.Coords, EltTy.bits .f32 = 32 ∨ (Rect.block (s := S1048576x3x32) S4096x3x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x3x32.size a ≤ S1048576x3x32.size a
  hwx0_3 : ∀ i : grid0.Coords, EltTy.bits .f32 = 32 ∨ (Rect.block (s := S1048576x3x32) S4096x3x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x3x1.size a ≤ S1048576x3x1.size a
  hwx0_4 : ∀ i : grid0.Coords, EltTy.bits .f32 = 32 ∨ (Rect.block (s := S1048576x3x1) S4096x3x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x3x1.size a ≤ S1048576x3x1.size a
  hwx0_5 : ∀ i : grid0.Coords, EltTy.bits .f32 = 32 ∨ (Rect.block (s := S1048576x3x1) S4096x3x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x3x32.size a ≤ S1048576x3x32.size a
  hwx0_6 : ∀ i : grid0.Coords, EltTy.bits .f32 = 32 ∨ (Rect.block (s := S1048576x3x32) S4096x3x32.size (cc0_transform_6 i) (hinb0_6 i)).WholeWords (EltTy.packing .f32)

variable [Facts₀]

def gather_S32x513x513_S1048576x2_S32x1048576_0_12_n_n_12_1_3211 : GatherDims S32x513x513 S1048576x2 S32x1048576 where
  offsetDims := [0]
  collapsedSliceDims := [1, 2]
  operandBatchingDims := []
  startIndicesBatchingDims := []
  startIndexMap := [1, 2]
  indexVectorDim := 1
  sliceSizes := ![32, 1, 1]
  wf := gather_S32x513x513_S1048576x2_S32x1048576_0_12_n_n_12_1_3211_wf

abbrev win0_0 : Pipeline.Window sig grid0 :=
  Pipeline.Window.ofSpec (Memref.whole main_v352) S4096x3x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v356) S4096x3x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v360) S4096x3x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v364) S4096x3x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v369) S4096x3x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v374) S4096x3x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v375) S4096x3x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x262144x3 : Shape := ⟨3, ![4, 262144, 3]⟩
abbrev S32x513x513 : Shape := ⟨3, ![32, 513, 513]⟩
abbrev S4x262144x1 : Shape := ⟨3, ![4, 262144, 1]⟩
abbrev S4x262144 : Shape := ⟨2, ![4, 262144]⟩
abbrev S_ : Shape := ⟨0, ![]⟩
abbrev S4x262144x2 : Shape := ⟨3, ![4, 262144, 2]⟩
abbrev S32x4x262144 : Shape := ⟨3, ![32, 4, 262144]⟩
abbrev S1x4x262144 : Shape := ⟨3, ![1, 4, 262144]⟩
abbrev S4x262144x32 : Shape := ⟨3, ![4, 262144, 32]⟩
abbrev S4x262144x1x32 : Shape := ⟨4, ![4, 262144, 1, 32]⟩
abbrev S4x262144x3x32 : Shape := ⟨4, ![4, 262144, 3, 32]⟩

abbrev nBuf : Space → Nat
  | .hbm => 608
  | .vmem => 0
  | .smem => 0
  | _ => 0

abbrev hbmTy0_0 (i : Nat) : BufTy := match i % 128 with
  | 0 => ⟨S4x262144x3, .f32⟩
  | 1 => ⟨S32x513x513, .f32⟩
  | 2 => ⟨S32x513x513, .f32⟩
  | 3 => ⟨S32x513x513, .f32⟩
  | 4 => ⟨S4x262144x1, .f32⟩
  | 5 => ⟨S4x262144, .f32⟩
  | 6 => ⟨S4x262144x1, .f32⟩
  | 7 => ⟨S4x262144, .f32⟩
  | 8 => ⟨S_, .f32⟩
  | 9 => ⟨S4x262144, .f32⟩
  | 10 => ⟨S4x262144, .f32⟩
  | 11 => ⟨S_, .f32⟩
  | 12 => ⟨S4x262144, .f32⟩
  | 13 => ⟨S4x262144, .f32⟩
  | 14 => ⟨S_, .f32⟩
  | 15 => ⟨S4x262144, .f32⟩
  | 16 => ⟨S4x262144, .f32⟩
  | 17 => ⟨S4x262144, .f32⟩
  | 18 => ⟨S_, .f32⟩
  | 19 => ⟨S4x262144, .f32⟩
  | 20 => ⟨S4x262144, .f32⟩
  | 21 => ⟨S4x262144, .f32⟩
  | 22 => ⟨S_, .f32⟩
  | 23 => ⟨S4x262144, .f32⟩
  | 24 => ⟨S4x262144, .f32⟩
  | 25 => ⟨S4x262144, .f32⟩
  | 26 => ⟨S_, .f32⟩
  | 27 => ⟨S4x262144, .f32⟩
  | 28 => ⟨S4x262144, .i1⟩
  | 29 => ⟨S_, .f32⟩
  | 30 => ⟨S4x262144, .f32⟩
  | 31 => ⟨S4x262144, .f32⟩
  | 32 => ⟨S4x262144, .f32⟩
  | 33 => ⟨S_, .f32⟩
  | 34 => ⟨S_, .f32⟩
  | 35 => ⟨S_, .f32⟩
  | 36 => ⟨S4x262144, .f32⟩
  | 37 => ⟨S4x262144, .f32⟩
  | 38 => ⟨S_, .f32⟩
  | 39 => ⟨S4x262144, .f32⟩
  | 40 => ⟨S4x262144, .f32⟩
  | 41 => ⟨S_, .f32⟩
  | 42 => ⟨S4x262144, .f32⟩
  | 43 => ⟨S4x262144, .f32⟩
  | 44 => ⟨S_, .f32⟩
  | 45 => ⟨S4x262144, .f32⟩
  | 46 => ⟨S4x262144, .f32⟩
  | 47 => ⟨S_, .f32⟩
  | 48 => ⟨S4x262144, .f32⟩
  | 49 => ⟨S4x262144, .f32⟩
  | 50 => ⟨S4x262144, .f32⟩
  | 51 => ⟨S_, .f32⟩
  | 52 => ⟨S4x262144, .f32⟩
  | 53 => ⟨S4x262144, .f32⟩
  | 54 => ⟨S4x262144, .f32⟩
  | 55 => ⟨S_, .f32⟩
  | 56 => ⟨S4x262144, .f32⟩
  | 57 => ⟨S4x262144, .f32⟩
  | 58 => ⟨S4x262144, .f32⟩
  | 59 => ⟨S_, .f32⟩
  | 60 => ⟨S4x262144, .f32⟩
  | 61 => ⟨S4x262144, .i1⟩
  | 62 => ⟨S_, .f32⟩
  | 63 => ⟨S4x262144, .f32⟩
  | 64 => ⟨S4x262144, .f32⟩
  | 65 => ⟨S4x262144, .f32⟩
  | 66 => ⟨S_, .f32⟩
  | 67 => ⟨S_, .f32⟩
  | 68 => ⟨S_, .f32⟩
  | 69 => ⟨S4x262144, .f32⟩
  | 70 => ⟨S4x262144, .f32⟩
  | 71 => ⟨S_, .f32⟩
  | 72 => ⟨S4x262144, .f32⟩
  | 73 => ⟨S4x262144, .f32⟩
  | 74 => ⟨S4x262144, .f32⟩
  | 75 => ⟨S4x262144, .f32⟩
  | 76 => ⟨S4x262144, .f32⟩
  | 77 => ⟨S4x262144, .f32⟩
  | 78 => ⟨S4x262144, .i32⟩
  | 79 => ⟨S4x262144, .i32⟩
  | 80 => ⟨S_, .i32⟩
  | 81 => ⟨S4x262144, .i32⟩
  | 82 => ⟨S4x262144, .i32⟩
  | 83 => ⟨S_, .i32⟩
  | 84 => ⟨S4x262144, .i32⟩
  | 85 => ⟨S4x262144, .i32⟩
  | 86 => ⟨S_, .i32⟩
  | 87 => ⟨S4x262144, .i32⟩
  | 88 => ⟨S4x262144, .i32⟩
  | 89 => ⟨S_, .i32⟩
  | 90 => ⟨S4x262144, .i32⟩
  | 91 => ⟨S4x262144, .i32⟩
  | 92 => ⟨S_, .i32⟩
  | 93 => ⟨S4x262144, .i32⟩
  | 94 => ⟨S4x262144, .i1⟩
  | 95 => ⟨S_, .i32⟩
  | 96 => ⟨S4x262144, .i32⟩
  | 97 => ⟨S4x262144, .i32⟩
  | 98 => ⟨S4x262144, .i32⟩
  | 99 => ⟨S_, .i32⟩
  | 100 => ⟨S4x262144, .i32⟩
  | 101 => ⟨S4x262144, .i1⟩
  | 102 => ⟨S_, .i32⟩
  | 103 => ⟨S4x262144, .i32⟩
  | 104 => ⟨S4x262144, .i32⟩
  | 105 => ⟨S4x262144, .i32⟩
  | 106 => ⟨S4x262144x1, .i32⟩
  | 107 => ⟨S4x262144x1, .i32⟩
  | 108 => ⟨S4x262144x2, .i32⟩
  | 109 => ⟨S32x4x262144, .f32⟩
  | 110 => ⟨S_, .i32⟩
  | 111 => ⟨S4x262144, .i32⟩
  | 112 => ⟨S4x262144, .i1⟩
  | 113 => ⟨S_, .i32⟩
  | 114 => ⟨S4x262144, .i32⟩
  | 115 => ⟨S4x262144, .i32⟩
  | 116 => ⟨S4x262144, .i32⟩
  | 117 => ⟨S_, .i32⟩
  | 118 => ⟨S4x262144, .i32⟩
  | 119 => ⟨S4x262144, .i1⟩
  | 120 => ⟨S_, .i32⟩
  | 121 => ⟨S4x262144, .i32⟩
  | 122 => ⟨S4x262144, .i32⟩
  | 123 => ⟨S4x262144, .i32⟩
  | 124 => ⟨S4x262144x1, .i32⟩
  | 125 => ⟨S4x262144x1, .i32⟩
  | 126 => ⟨S4x262144x2, .i32⟩
  | 127 => ⟨S32x4x262144, .f32⟩
  | _ => ⟨S4x262144x3, .f32⟩

abbrev hbmTy0_1 (i : Nat) : BufTy := match i % 128 with
  | 0 => ⟨S_, .i32⟩
  | 1 => ⟨S4x262144, .i32⟩
  | 2 => ⟨S4x262144, .i1⟩
  | 3 => ⟨S_, .i32⟩
  | 4 => ⟨S4x262144, .i32⟩
  | 5 => ⟨S4x262144, .i32⟩
  | 6 => ⟨S4x262144, .i32⟩
  | 7 => ⟨S_, .i32⟩
  | 8 => ⟨S4x262144, .i32⟩
  | 9 => ⟨S4x262144, .i1⟩
  | 10 => ⟨S_, .i32⟩
  | 11 => ⟨S4x262144, .i32⟩
  | 12 => ⟨S4x262144, .i32⟩
  | 13 => ⟨S4x262144, .i32⟩
  | 14 => ⟨S4x262144x1, .i32⟩
  | 15 => ⟨S4x262144x1, .i32⟩
  | 16 => ⟨S4x262144x2, .i32⟩
  | 17 => ⟨S32x4x262144, .f32⟩
  | 18 => ⟨S_, .i32⟩
  | 19 => ⟨S4x262144, .i32⟩
  | 20 => ⟨S4x262144, .i1⟩
  | 21 => ⟨S_, .i32⟩
  | 22 => ⟨S4x262144, .i32⟩
  | 23 => ⟨S4x262144, .i32⟩
  | 24 => ⟨S4x262144, .i32⟩
  | 25 => ⟨S_, .i32⟩
  | 26 => ⟨S4x262144, .i32⟩
  | 27 => ⟨S4x262144, .i1⟩
  | 28 => ⟨S_, .i32⟩
  | 29 => ⟨S4x262144, .i32⟩
  | 30 => ⟨S4x262144, .i32⟩
  | 31 => ⟨S4x262144, .i32⟩
  | 32 => ⟨S4x262144x1, .i32⟩
  | 33 => ⟨S4x262144x1, .i32⟩
  | 34 => ⟨S4x262144x2, .i32⟩
  | 35 => ⟨S32x4x262144, .f32⟩
  | 36 => ⟨S_, .f32⟩
  | 37 => ⟨S4x262144, .f32⟩
  | 38 => ⟨S4x262144, .f32⟩
  | 39 => ⟨S1x4x262144, .f32⟩
  | 40 => ⟨S32x4x262144, .f32⟩
  | 41 => ⟨S32x4x262144, .f32⟩
  | 42 => ⟨S_, .f32⟩
  | 43 => ⟨S4x262144, .f32⟩
  | 44 => ⟨S4x262144, .f32⟩
  | 45 => ⟨S1x4x262144, .f32⟩
  | 46 => ⟨S32x4x262144, .f32⟩
  | 47 => ⟨S32x4x262144, .f32⟩
  | 48 => ⟨S1x4x262144, .f32⟩
  | 49 => ⟨S32x4x262144, .f32⟩
  | 50 => ⟨S32x4x262144, .f32⟩
  | 51 => ⟨S_, .f32⟩
  | 52 => ⟨S4x262144, .f32⟩
  | 53 => ⟨S4x262144, .f32⟩
  | 54 => ⟨S1x4x262144, .f32⟩
  | 55 => ⟨S32x4x262144, .f32⟩
  | 56 => ⟨S32x4x262144, .f32⟩
  | 57 => ⟨S32x4x262144, .f32⟩
  | 58 => ⟨S_, .f32⟩
  | 59 => ⟨S4x262144, .f32⟩
  | 60 => ⟨S4x262144, .f32⟩
  | 61 => ⟨S1x4x262144, .f32⟩
  | 62 => ⟨S32x4x262144, .f32⟩
  | 63 => ⟨S32x4x262144, .f32⟩
  | 64 => ⟨S1x4x262144, .f32⟩
  | 65 => ⟨S32x4x262144, .f32⟩
  | 66 => ⟨S32x4x262144, .f32⟩
  | 67 => ⟨S32x4x262144, .f32⟩
  | 68 => ⟨S1x4x262144, .f32⟩
  | 69 => ⟨S32x4x262144, .f32⟩
  | 70 => ⟨S32x4x262144, .f32⟩
  | 71 => ⟨S1x4x262144, .f32⟩
  | 72 => ⟨S32x4x262144, .f32⟩
  | 73 => ⟨S32x4x262144, .f32⟩
  | 74 => ⟨S32x4x262144, .f32⟩
  | 75 => ⟨S4x262144x32, .f32⟩
  | 76 => ⟨S4x262144x1, .f32⟩
  | 77 => ⟨S4x262144, .f32⟩
  | 78 => ⟨S4x262144x1, .f32⟩
  | 79 => ⟨S4x262144, .f32⟩
  | 80 => ⟨S_, .f32⟩
  | 81 => ⟨S4x262144, .f32⟩
  | 82 => ⟨S4x262144, .f32⟩
  | 83 => ⟨S_, .f32⟩
  | 84 => ⟨S4x262144, .f32⟩
  | 85 => ⟨S4x262144, .f32⟩
  | 86 => ⟨S_, .f32⟩
  | 87 => ⟨S4x262144, .f32⟩
  | 88 => ⟨S4x262144, .f32⟩
  | 89 => ⟨S4x262144, .f32⟩
  | 90 => ⟨S_, .f32⟩
  | 91 => ⟨S4x262144, .f32⟩
  | 92 => ⟨S4x262144, .f32⟩
  | 93 => ⟨S4x262144, .f32⟩
  | 94 => ⟨S_, .f32⟩
  | 95 => ⟨S4x262144, .f32⟩
  | 96 => ⟨S4x262144, .f32⟩
  | 97 => ⟨S4x262144, .f32⟩
  | 98 => ⟨S_, .f32⟩
  | 99 => ⟨S4x262144, .f32⟩
  | 100 => ⟨S4x262144, .i1⟩
  | 101 => ⟨S_, .f32⟩
  | 102 => ⟨S4x262144, .f32⟩
  | 103 => ⟨S4x262144, .f32⟩
  | 104 => ⟨S4x262144, .f32⟩
  | 105 => ⟨S_, .f32⟩
  | 106 => ⟨S_, .f32⟩
  | 107 => ⟨S_, .f32⟩
  | 108 => ⟨S4x262144, .f32⟩
  | 109 => ⟨S4x262144, .f32⟩
  | 110 => ⟨S_, .f32⟩
  | 111 => ⟨S4x262144, .f32⟩
  | 112 => ⟨S4x262144, .f32⟩
  | 113 => ⟨S_, .f32⟩
  | 114 => ⟨S4x262144, .f32⟩
  | 115 => ⟨S4x262144, .f32⟩
  | 116 => ⟨S_, .f32⟩
  | 117 => ⟨S4x262144, .f32⟩
  | 118 => ⟨S4x262144, .f32⟩
  | 119 => ⟨S_, .f32⟩
  | 120 => ⟨S4x262144, .f32⟩
  | 121 => ⟨S4x262144, .f32⟩
  | 122 => ⟨S4x262144, .f32⟩
  | 123 => ⟨S_, .f32⟩
  | 124 => ⟨S4x262144, .f32⟩
  | 125 => ⟨S4x262144, .f32⟩
  | 126 => ⟨S4x262144, .f32⟩
  | 127 => ⟨S_, .f32⟩
  | _ => ⟨S4x262144x3, .f32⟩

abbrev hbmTy0_2 (i : Nat) : BufTy := match i % 128 with
  | 0 => ⟨S4x262144, .f32⟩
  | 1 => ⟨S4x262144, .f32⟩
  | 2 => ⟨S4x262144, .f32⟩
  | 3 => ⟨S_, .f32⟩
  | 4 => ⟨S4x262144, .f32⟩
  | 5 => ⟨S4x262144, .i1⟩
  | 6 => ⟨S_, .f32⟩
  | 7 => ⟨S4x262144, .f32⟩
  | 8 => ⟨S4x262144, .f32⟩
  | 9 => ⟨S4x262144, .f32⟩
  | 10 => ⟨S_, .f32⟩
  | 11 => ⟨S_, .f32⟩
  | 12 => ⟨S_, .f32⟩
  | 13 => ⟨S4x262144, .f32⟩
  | 14 => ⟨S4x262144, .f32⟩
  | 15 => ⟨S_, .f32⟩
  | 16 => ⟨S4x262144, .f32⟩
  | 17 => ⟨S4x262144, .f32⟩
  | 18 => ⟨S4x262144, .f32⟩
  | 19 => ⟨S4x262144, .f32⟩
  | 20 => ⟨S4x262144, .f32⟩
  | 21 => ⟨S4x262144, .f32⟩
  | 22 => ⟨S4x262144, .i32⟩
  | 23 => ⟨S4x262144, .i32⟩
  | 24 => ⟨S_, .i32⟩
  | 25 => ⟨S4x262144, .i32⟩
  | 26 => ⟨S4x262144, .i32⟩
  | 27 => ⟨S_, .i32⟩
  | 28 => ⟨S4x262144, .i32⟩
  | 29 => ⟨S4x262144, .i32⟩
  | 30 => ⟨S_, .i32⟩
  | 31 => ⟨S4x262144, .i32⟩
  | 32 => ⟨S4x262144, .i32⟩
  | 33 => ⟨S_, .i32⟩
  | 34 => ⟨S4x262144, .i32⟩
  | 35 => ⟨S4x262144, .i32⟩
  | 36 => ⟨S_, .i32⟩
  | 37 => ⟨S4x262144, .i32⟩
  | 38 => ⟨S4x262144, .i1⟩
  | 39 => ⟨S_, .i32⟩
  | 40 => ⟨S4x262144, .i32⟩
  | 41 => ⟨S4x262144, .i32⟩
  | 42 => ⟨S4x262144, .i32⟩
  | 43 => ⟨S_, .i32⟩
  | 44 => ⟨S4x262144, .i32⟩
  | 45 => ⟨S4x262144, .i1⟩
  | 46 => ⟨S_, .i32⟩
  | 47 => ⟨S4x262144, .i32⟩
  | 48 => ⟨S4x262144, .i32⟩
  | 49 => ⟨S4x262144, .i32⟩
  | 50 => ⟨S4x262144x1, .i32⟩
  | 51 => ⟨S4x262144x1, .i32⟩
  | 52 => ⟨S4x262144x2, .i32⟩
  | 53 => ⟨S32x4x262144, .f32⟩
  | 54 => ⟨S_, .i32⟩
  | 55 => ⟨S4x262144, .i32⟩
  | 56 => ⟨S4x262144, .i1⟩
  | 57 => ⟨S_, .i32⟩
  | 58 => ⟨S4x262144, .i32⟩
  | 59 => ⟨S4x262144, .i32⟩
  | 60 => ⟨S4x262144, .i32⟩
  | 61 => ⟨S_, .i32⟩
  | 62 => ⟨S4x262144, .i32⟩
  | 63 => ⟨S4x262144, .i1⟩
  | 64 => ⟨S_, .i32⟩
  | 65 => ⟨S4x262144, .i32⟩
  | 66 => ⟨S4x262144, .i32⟩
  | 67 => ⟨S4x262144, .i32⟩
  | 68 => ⟨S4x262144x1, .i32⟩
  | 69 => ⟨S4x262144x1, .i32⟩
  | 70 => ⟨S4x262144x2, .i32⟩
  | 71 => ⟨S32x4x262144, .f32⟩
  | 72 => ⟨S_, .i32⟩
  | 73 => ⟨S4x262144, .i32⟩
  | 74 => ⟨S4x262144, .i1⟩
  | 75 => ⟨S_, .i32⟩
  | 76 => ⟨S4x262144, .i32⟩
  | 77 => ⟨S4x262144, .i32⟩
  | 78 => ⟨S4x262144, .i32⟩
  | 79 => ⟨S_, .i32⟩
  | 80 => ⟨S4x262144, .i32⟩
  | 81 => ⟨S4x262144, .i1⟩
  | 82 => ⟨S_, .i32⟩
  | 83 => ⟨S4x262144, .i32⟩
  | 84 => ⟨S4x262144, .i32⟩
  | 85 => ⟨S4x262144, .i32⟩
  | 86 => ⟨S4x262144x1, .i32⟩
  | 87 => ⟨S4x262144x1, .i32⟩
  | 88 => ⟨S4x262144x2, .i32⟩
  | 89 => ⟨S32x4x262144, .f32⟩
  | 90 => ⟨S_, .i32⟩
  | 91 => ⟨S4x262144, .i32⟩
  | 92 => ⟨S4x262144, .i1⟩
  | 93 => ⟨S_, .i32⟩
  | 94 => ⟨S4x262144, .i32⟩
  | 95 => ⟨S4x262144, .i32⟩
  | 96 => ⟨S4x262144, .i32⟩
  | 97 => ⟨S_, .i32⟩
  | 98 => ⟨S4x262144, .i32⟩
  | 99 => ⟨S4x262144, .i1⟩
  | 100 => ⟨S_, .i32⟩
  | 101 => ⟨S4x262144, .i32⟩
  | 102 => ⟨S4x262144, .i32⟩
  | 103 => ⟨S4x262144, .i32⟩
  | 104 => ⟨S4x262144x1, .i32⟩
  | 105 => ⟨S4x262144x1, .i32⟩
  | 106 => ⟨S4x262144x2, .i32⟩
  | 107 => ⟨S32x4x262144, .f32⟩
  | 108 => ⟨S_, .f32⟩
  | 109 => ⟨S4x262144, .f32⟩
  | 110 => ⟨S4x262144, .f32⟩
  | 111 => ⟨S1x4x262144, .f32⟩
  | 112 => ⟨S32x4x262144, .f32⟩
  | 113 => ⟨S32x4x262144, .f32⟩
  | 114 => ⟨S_, .f32⟩
  | 115 => ⟨S4x262144, .f32⟩
  | 116 => ⟨S4x262144, .f32⟩
  | 117 => ⟨S1x4x262144, .f32⟩
  | 118 => ⟨S32x4x262144, .f32⟩
  | 119 => ⟨S32x4x262144, .f32⟩
  | 120 => ⟨S1x4x262144, .f32⟩
  | 121 => ⟨S32x4x262144, .f32⟩
  | 122 => ⟨S32x4x262144, .f32⟩
  | 123 => ⟨S_, .f32⟩
  | 124 => ⟨S4x262144, .f32⟩
  | 125 => ⟨S4x262144, .f32⟩
  | 126 => ⟨S1x4x262144, .f32⟩
  | 127 => ⟨S32x4x262144, .f32⟩
  | _ => ⟨S4x262144x3, .f32⟩

abbrev hbmTy0_3 (i : Nat) : BufTy := match i % 128 with
  | 0 => ⟨S32x4x262144, .f32⟩
  | 1 => ⟨S32x4x262144, .f32⟩
  | 2 => ⟨S_, .f32⟩
  | 3 => ⟨S4x262144, .f32⟩
  | 4 => ⟨S4x262144, .f32⟩
  | 5 => ⟨S1x4x262144, .f32⟩
  | 6 => ⟨S32x4x262144, .f32⟩
  | 7 => ⟨S32x4x262144, .f32⟩
  | 8 => ⟨S1x4x262144, .f32⟩
  | 9 => ⟨S32x4x262144, .f32⟩
  | 10 => ⟨S32x4x262144, .f32⟩
  | 11 => ⟨S32x4x262144, .f32⟩
  | 12 => ⟨S1x4x262144, .f32⟩
  | 13 => ⟨S32x4x262144, .f32⟩
  | 14 => ⟨S32x4x262144, .f32⟩
  | 15 => ⟨S1x4x262144, .f32⟩
  | 16 => ⟨S32x4x262144, .f32⟩
  | 17 => ⟨S32x4x262144, .f32⟩
  | 18 => ⟨S32x4x262144, .f32⟩
  | 19 => ⟨S4x262144x32, .f32⟩
  | 20 => ⟨S4x262144x1, .f32⟩
  | 21 => ⟨S4x262144, .f32⟩
  | 22 => ⟨S4x262144x1, .f32⟩
  | 23 => ⟨S4x262144, .f32⟩
  | 24 => ⟨S_, .f32⟩
  | 25 => ⟨S4x262144, .f32⟩
  | 26 => ⟨S4x262144, .f32⟩
  | 27 => ⟨S_, .f32⟩
  | 28 => ⟨S4x262144, .f32⟩
  | 29 => ⟨S4x262144, .f32⟩
  | 30 => ⟨S_, .f32⟩
  | 31 => ⟨S4x262144, .f32⟩
  | 32 => ⟨S4x262144, .f32⟩
  | 33 => ⟨S4x262144, .f32⟩
  | 34 => ⟨S_, .f32⟩
  | 35 => ⟨S4x262144, .f32⟩
  | 36 => ⟨S4x262144, .f32⟩
  | 37 => ⟨S4x262144, .f32⟩
  | 38 => ⟨S_, .f32⟩
  | 39 => ⟨S4x262144, .f32⟩
  | 40 => ⟨S4x262144, .f32⟩
  | 41 => ⟨S4x262144, .f32⟩
  | 42 => ⟨S_, .f32⟩
  | 43 => ⟨S4x262144, .f32⟩
  | 44 => ⟨S4x262144, .i1⟩
  | 45 => ⟨S_, .f32⟩
  | 46 => ⟨S4x262144, .f32⟩
  | 47 => ⟨S4x262144, .f32⟩
  | 48 => ⟨S4x262144, .f32⟩
  | 49 => ⟨S_, .f32⟩
  | 50 => ⟨S_, .f32⟩
  | 51 => ⟨S_, .f32⟩
  | 52 => ⟨S4x262144, .f32⟩
  | 53 => ⟨S4x262144, .f32⟩
  | 54 => ⟨S_, .f32⟩
  | 55 => ⟨S4x262144, .f32⟩
  | 56 => ⟨S4x262144, .f32⟩
  | 57 => ⟨S_, .f32⟩
  | 58 => ⟨S4x262144, .f32⟩
  | 59 => ⟨S4x262144, .f32⟩
  | 60 => ⟨S_, .f32⟩
  | 61 => ⟨S4x262144, .f32⟩
  | 62 => ⟨S4x262144, .f32⟩
  | 63 => ⟨S_, .f32⟩
  | 64 => ⟨S4x262144, .f32⟩
  | 65 => ⟨S4x262144, .f32⟩
  | 66 => ⟨S4x262144, .f32⟩
  | 67 => ⟨S_, .f32⟩
  | 68 => ⟨S4x262144, .f32⟩
  | 69 => ⟨S4x262144, .f32⟩
  | 70 => ⟨S4x262144, .f32⟩
  | 71 => ⟨S_, .f32⟩
  | 72 => ⟨S4x262144, .f32⟩
  | 73 => ⟨S4x262144, .f32⟩
  | 74 => ⟨S4x262144, .f32⟩
  | 75 => ⟨S_, .f32⟩
  | 76 => ⟨S4x262144, .f32⟩
  | 77 => ⟨S4x262144, .i1⟩
  | 78 => ⟨S_, .f32⟩
  | 79 => ⟨S4x262144, .f32⟩
  | 80 => ⟨S4x262144, .f32⟩
  | 81 => ⟨S4x262144, .f32⟩
  | 82 => ⟨S_, .f32⟩
  | 83 => ⟨S_, .f32⟩
  | 84 => ⟨S_, .f32⟩
  | 85 => ⟨S4x262144, .f32⟩
  | 86 => ⟨S4x262144, .f32⟩
  | 87 => ⟨S_, .f32⟩
  | 88 => ⟨S4x262144, .f32⟩
  | 89 => ⟨S4x262144, .f32⟩
  | 90 => ⟨S4x262144, .f32⟩
  | 91 => ⟨S4x262144, .f32⟩
  | 92 => ⟨S4x262144, .f32⟩
  | 93 => ⟨S4x262144, .f32⟩
  | 94 => ⟨S4x262144, .i32⟩
  | 95 => ⟨S4x262144, .i32⟩
  | 96 => ⟨S_, .i32⟩
  | 97 => ⟨S4x262144, .i32⟩
  | 98 => ⟨S4x262144, .i32⟩
  | 99 => ⟨S_, .i32⟩
  | 100 => ⟨S4x262144, .i32⟩
  | 101 => ⟨S4x262144, .i32⟩
  | 102 => ⟨S_, .i32⟩
  | 103 => ⟨S4x262144, .i32⟩
  | 104 => ⟨S4x262144, .i32⟩
  | 105 => ⟨S_, .i32⟩
  | 106 => ⟨S4x262144, .i32⟩
  | 107 => ⟨S4x262144, .i32⟩
  | 108 => ⟨S_, .i32⟩
  | 109 => ⟨S4x262144, .i32⟩
  | 110 => ⟨S4x262144, .i1⟩
  | 111 => ⟨S_, .i32⟩
  | 112 => ⟨S4x262144, .i32⟩
  | 113 => ⟨S4x262144, .i32⟩
  | 114 => ⟨S4x262144, .i32⟩
  | 115 => ⟨S_, .i32⟩
  | 116 => ⟨S4x262144, .i32⟩
  | 117 => ⟨S4x262144, .i1⟩
  | 118 => ⟨S_, .i32⟩
  | 119 => ⟨S4x262144, .i32⟩
  | 120 => ⟨S4x262144, .i32⟩
  | 121 => ⟨S4x262144, .i32⟩
  | 122 => ⟨S4x262144x1, .i32⟩
  | 123 => ⟨S4x262144x1, .i32⟩
  | 124 => ⟨S4x262144x2, .i32⟩
  | 125 => ⟨S32x4x262144, .f32⟩
  | 126 => ⟨S_, .i32⟩
  | 127 => ⟨S4x262144, .i32⟩
  | _ => ⟨S4x262144x3, .f32⟩

abbrev hbmTy0_4 (i : Nat) : BufTy := match i % 128 with
  | 0 => ⟨S4x262144, .i1⟩
  | 1 => ⟨S_, .i32⟩
  | 2 => ⟨S4x262144, .i32⟩
  | 3 => ⟨S4x262144, .i32⟩
  | 4 => ⟨S4x262144, .i32⟩
  | 5 => ⟨S_, .i32⟩
  | 6 => ⟨S4x262144, .i32⟩
  | 7 => ⟨S4x262144, .i1⟩
  | 8 => ⟨S_, .i32⟩
  | 9 => ⟨S4x262144, .i32⟩
  | 10 => ⟨S4x262144, .i32⟩
  | 11 => ⟨S4x262144, .i32⟩
  | 12 => ⟨S4x262144x1, .i32⟩
  | 13 => ⟨S4x262144x1, .i32⟩
  | 14 => ⟨S4x262144x2, .i32⟩
  | 15 => ⟨S32x4x262144, .f32⟩
  | 16 => ⟨S_, .i32⟩
  | 17 => ⟨S4x262144, .i32⟩
  | 18 => ⟨S4x262144, .i1⟩
  | 19 => ⟨S_, .i32⟩
  | 20 => ⟨S4x262144, .i32⟩
  | 21 => ⟨S4x262144, .i32⟩
  | 22 => ⟨S4x262144, .i32⟩
  | 23 => ⟨S_, .i32⟩
  | 24 => ⟨S4x262144, .i32⟩
  | 25 => ⟨S4x262144, .i1⟩
  | 26 => ⟨S_, .i32⟩
  | 27 => ⟨S4x262144, .i32⟩
  | 28 => ⟨S4x262144, .i32⟩
  | 29 => ⟨S4x262144, .i32⟩
  | 30 => ⟨S4x262144x1, .i32⟩
  | 31 => ⟨S4x262144x1, .i32⟩
  | 32 => ⟨S4x262144x2, .i32⟩
  | 33 => ⟨S32x4x262144, .f32⟩
  | 34 => ⟨S_, .i32⟩
  | 35 => ⟨S4x262144, .i32⟩
  | 36 => ⟨S4x262144, .i1⟩
  | 37 => ⟨S_, .i32⟩
  | 38 => ⟨S4x262144, .i32⟩
  | 39 => ⟨S4x262144, .i32⟩
  | 40 => ⟨S4x262144, .i32⟩
  | 41 => ⟨S_, .i32⟩
  | 42 => ⟨S4x262144, .i32⟩
  | 43 => ⟨S4x262144, .i1⟩
  | 44 => ⟨S_, .i32⟩
  | 45 => ⟨S4x262144, .i32⟩
  | 46 => ⟨S4x262144, .i32⟩
  | 47 => ⟨S4x262144, .i32⟩
  | 48 => ⟨S4x262144x1, .i32⟩
  | 49 => ⟨S4x262144x1, .i32⟩
  | 50 => ⟨S4x262144x2, .i32⟩
  | 51 => ⟨S32x4x262144, .f32⟩
  | 52 => ⟨S_, .f32⟩
  | 53 => ⟨S4x262144, .f32⟩
  | 54 => ⟨S4x262144, .f32⟩
  | 55 => ⟨S1x4x262144, .f32⟩
  | 56 => ⟨S32x4x262144, .f32⟩
  | 57 => ⟨S32x4x262144, .f32⟩
  | 58 => ⟨S_, .f32⟩
  | 59 => ⟨S4x262144, .f32⟩
  | 60 => ⟨S4x262144, .f32⟩
  | 61 => ⟨S1x4x262144, .f32⟩
  | 62 => ⟨S32x4x262144, .f32⟩
  | 63 => ⟨S32x4x262144, .f32⟩
  | 64 => ⟨S1x4x262144, .f32⟩
  | 65 => ⟨S32x4x262144, .f32⟩
  | 66 => ⟨S32x4x262144, .f32⟩
  | 67 => ⟨S_, .f32⟩
  | 68 => ⟨S4x262144, .f32⟩
  | 69 => ⟨S4x262144, .f32⟩
  | 70 => ⟨S1x4x262144, .f32⟩
  | 71 => ⟨S32x4x262144, .f32⟩
  | 72 => ⟨S32x4x262144, .f32⟩
  | 73 => ⟨S32x4x262144, .f32⟩
  | 74 => ⟨S_, .f32⟩
  | 75 => ⟨S4x262144, .f32⟩
  | 76 => ⟨S4x262144, .f32⟩
  | 77 => ⟨S1x4x262144, .f32⟩
  | 78 => ⟨S32x4x262144, .f32⟩
  | 79 => ⟨S32x4x262144, .f32⟩
  | 80 => ⟨S1x4x262144, .f32⟩
  | 81 => ⟨S32x4x262144, .f32⟩
  | 82 => ⟨S32x4x262144, .f32⟩
  | 83 => ⟨S32x4x262144, .f32⟩
  | 84 => ⟨S1x4x262144, .f32⟩
  | 85 => ⟨S32x4x262144, .f32⟩
  | 86 => ⟨S32x4x262144, .f32⟩
  | 87 => ⟨S1x4x262144, .f32⟩
  | 88 => ⟨S32x4x262144, .f32⟩
  | 89 => ⟨S32x4x262144, .f32⟩
  | 90 => ⟨S32x4x262144, .f32⟩
  | 91 => ⟨S4x262144x32, .f32⟩
  | 92 => ⟨S4x262144x1x32, .f32⟩
  | 93 => ⟨S4x262144x1x32, .f32⟩
  | 94 => ⟨S4x262144x1x32, .f32⟩
  | 95 => ⟨S4x262144x3x32, .f32⟩
  | _ => ⟨S4x262144x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x262144x3, .f32⟩

abbrev bufTy : (tb : Table) → Fin (tcTables nBuf tb) → BufTy
  | .hbm, ⟨i, _⟩ => hbmTy i
  | _, _ => ⟨S4x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_cst_9 : Ref sig .tc := ⟨.hbm, 44, rfl⟩
abbrev main_v25 : Ref sig .tc := ⟨.hbm, 45, rfl⟩
abbrev main_v26 : Ref sig .tc := ⟨.hbm, 46, rfl⟩
abbrev main_cst_10 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_cst_14 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_15 : Ref sig .tc := ⟨.hbm, 66, rfl⟩
abbrev main_cst_16 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c : Ref sig .tc := ⟨.hbm, 80, rfl⟩
abbrev main_v48 : Ref sig .tc := ⟨.hbm, 81, rfl⟩
abbrev main_v49 : Ref sig .tc := ⟨.hbm, 82, rfl⟩
abbrev main_c_17 : Ref sig .tc := ⟨.hbm, 83, rfl⟩
abbrev main_v50 : Ref sig .tc := ⟨.hbm, 84, rfl⟩
abbrev main_v51 : Ref sig .tc := ⟨.hbm, 85, rfl⟩
abbrev main_c_18 : Ref sig .tc := ⟨.hbm, 86, rfl⟩
abbrev main_v52 : Ref sig .tc := ⟨.hbm, 87, rfl⟩
abbrev main_v53 : Ref sig .tc := ⟨.hbm, 88, rfl⟩
abbrev main_c_19 : Ref sig .tc := ⟨.hbm, 89, rfl⟩
abbrev main_v54 : Ref sig .tc := ⟨.hbm, 90, rfl⟩
abbrev main_v55 : Ref sig .tc := ⟨.hbm, 91, rfl⟩
abbrev main_c_20 : Ref sig .tc := ⟨.hbm, 92, rfl⟩
abbrev main_v56 : Ref sig .tc := ⟨.hbm, 93, rfl⟩
abbrev main_v57 : Ref sig .tc := ⟨.hbm, 94, rfl⟩
abbrev main_c_21 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_22 : Ref sig .tc := ⟨.hbm, 99, rfl⟩
abbrev main_v61 : Ref sig .tc := ⟨.hbm, 100, rfl⟩
abbrev main_v62 : Ref sig .tc := ⟨.hbm, 101, rfl⟩
abbrev main_c_23 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_24 : Ref sig .tc := ⟨.hbm, 110, rfl⟩
abbrev main_v70 : Ref sig .tc := ⟨.hbm, 111, rfl⟩
abbrev main_v71 : Ref sig .tc := ⟨.hbm, 112, rfl⟩
abbrev main_c_25 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_26 : Ref sig .tc := ⟨.hbm, 117, rfl⟩
abbrev main_v75 : Ref sig .tc := ⟨.hbm, 118, rfl⟩
abbrev main_v76 : Ref sig .tc := ⟨.hbm, 119, rfl⟩
abbrev main_c_27 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_28 : Ref sig .tc := ⟨.hbm, 128, rfl⟩
abbrev main_v84 : Ref sig .tc := ⟨.hbm, 129, rfl⟩
abbrev main_v85 : Ref sig .tc := ⟨.hbm, 130, rfl⟩
abbrev main_c_29 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_30 : Ref sig .tc := ⟨.hbm, 135, rfl⟩
abbrev main_v89 : Ref sig .tc := ⟨.hbm, 136, rfl⟩
abbrev main_v90 : Ref sig .tc := ⟨.hbm, 137, rfl⟩
abbrev main_c_31 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_c_32 : Ref sig .tc := ⟨.hbm, 146, rfl⟩
abbrev main_v98 : Ref sig .tc := ⟨.hbm, 147, rfl⟩
abbrev main_v99 : Ref sig .tc := ⟨.hbm, 148, rfl⟩
abbrev main_c_33 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_34 : Ref sig .tc := ⟨.hbm, 153, rfl⟩
abbrev main_v103 : Ref sig .tc := ⟨.hbm, 154, rfl⟩
abbrev main_v104 : Ref sig .tc := ⟨.hbm, 155, rfl⟩
abbrev main_c_35 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_36 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_37 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_38 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_39 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_cst_40 : Ref sig .tc := ⟨.hbm, 208, rfl⟩
abbrev main_v152 : Ref sig .tc := ⟨.hbm, 209, rfl⟩
abbrev main_v153 : Ref sig .tc := ⟨.hbm, 210, rfl⟩
abbrev main_cst_41 : Ref sig .tc := ⟨.hbm, 211, rfl⟩
abbrev main_v154 : Ref sig .tc := ⟨.hbm, 212, rfl⟩
abbrev main_v155 : Ref sig .tc := ⟨.hbm, 213, rfl⟩
abbrev main_cst_42 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_43 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_44 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_cst_45 : Ref sig .tc := ⟨.hbm, 226, rfl⟩
abbrev main_v165 : Ref sig .tc := ⟨.hbm, 227, rfl⟩
abbrev main_v166 : Ref sig .tc := ⟨.hbm, 228, rfl⟩
abbrev main_cst_46 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_47 : Ref sig .tc := ⟨.hbm, 233, rfl⟩
abbrev main_cst_48 : Ref sig .tc := ⟨.hbm, 234, rfl⟩
abbrev main_call5_v0 : Ref sig .tc := ⟨.hbm, 235, rfl⟩
abbrev main_call5_v1 : Ref sig .tc := ⟨.hbm, 236, rfl⟩
abbrev main_call5_v2 : Ref sig .tc := ⟨.hbm, 237, rfl⟩
abbrev main_call5_v3 : Ref sig .tc := ⟨.hbm, 238, rfl⟩
abbrev main_call5_v4 : Ref sig .tc := ⟨.hbm, 239, rfl⟩
abbrev main_v170 : Ref sig .tc := ⟨.hbm, 240, rfl⟩
abbrev main_cst_49 : Ref sig .tc := ⟨.hbm, 241, rfl⟩
abbrev main_v171 : Ref sig .tc := ⟨.hbm, 242, rfl⟩
abbrev main_v172 : Ref sig .tc := ⟨.hbm, 243, rfl⟩
abbrev main_cst_50 : Ref sig .tc := ⟨.hbm, 244, rfl⟩
abbrev main_v173 : Ref sig .tc := ⟨.hbm, 245, rfl⟩
abbrev main_v174 : Ref sig .tc := ⟨.hbm, 246, rfl⟩
abbrev main_cst_51 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_cst_52 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_cst_53 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_cst_54 : Ref sig .tc := ⟨.hbm, 259, rfl⟩
abbrev main_v184 : Ref sig .tc := ⟨.hbm, 260, rfl⟩
abbrev main_v185 : Ref sig .tc := ⟨.hbm, 261, rfl⟩
abbrev main_cst_55 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_cst_56 : Ref sig .tc := ⟨.hbm, 266, rfl⟩
abbrev main_cst_57 : Ref sig .tc := ⟨.hbm, 267, rfl⟩
abbrev main_call7_v0 : Ref sig .tc := ⟨.hbm, 268, rfl⟩
abbrev main_call7_v1 : Ref sig .tc := ⟨.hbm, 269, rfl⟩
abbrev main_call7_v2 : Ref sig .tc := ⟨.hbm, 270, rfl⟩
abbrev main_call7_v3 : Ref sig .tc := ⟨.hbm, 271, rfl⟩
abbrev main_call7_v4 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_c_58 : Ref sig .tc := ⟨.hbm, 280, rfl⟩
abbrev main_v196 : Ref sig .tc := ⟨.hbm, 281, rfl⟩
abbrev main_v197 : Ref sig .tc := ⟨.hbm, 282, rfl⟩
abbrev main_c_59 : Ref sig .tc := ⟨.hbm, 283, rfl⟩
abbrev main_v198 : Ref sig .tc := ⟨.hbm, 284, rfl⟩
abbrev main_v199 : Ref sig .tc := ⟨.hbm, 285, rfl⟩
abbrev main_c_60 : Ref sig .tc := ⟨.hbm, 286, rfl⟩
abbrev main_v200 : Ref sig .tc := ⟨.hbm, 287, rfl⟩
abbrev main_v201 : Ref sig .tc := ⟨.hbm, 288, rfl⟩
abbrev main_c_61 : Ref sig .tc := ⟨.hbm, 289, rfl⟩
abbrev main_v202 : Ref sig .tc := ⟨.hbm, 290, rfl⟩
abbrev main_v203 : Ref sig .tc := ⟨.hbm, 291, rfl⟩
abbrev main_c_62 : Ref sig .tc := ⟨.hbm, 292, rfl⟩
abbrev main_v204 : Ref sig .tc := ⟨.hbm, 293, rfl⟩
abbrev main_v205 : Ref sig .tc := ⟨.hbm, 294, rfl⟩
abbrev main_c_63 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_c_64 : Ref sig .tc := ⟨.hbm, 299, rfl⟩
abbrev main_v209 : Ref sig .tc := ⟨.hbm, 300, rfl⟩
abbrev main_v210 : Ref sig .tc := ⟨.hbm, 301, rfl⟩
abbrev main_c_65 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_c_66 : Ref sig .tc := ⟨.hbm, 310, rfl⟩
abbrev main_v218 : Ref sig .tc := ⟨.hbm, 311, rfl⟩
abbrev main_v219 : Ref sig .tc := ⟨.hbm, 312, rfl⟩
abbrev main_c_67 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_c_68 : Ref sig .tc := ⟨.hbm, 317, rfl⟩
abbrev main_v223 : Ref sig .tc := ⟨.hbm, 318, rfl⟩
abbrev main_v224 : Ref sig .tc := ⟨.hbm, 319, rfl⟩
abbrev main_c_69 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_c_70 : Ref sig .tc := ⟨.hbm, 328, rfl⟩
abbrev main_v232 : Ref sig .tc := ⟨.hbm, 329, rfl⟩
abbrev main_v233 : Ref sig .tc := ⟨.hbm, 330, rfl⟩
abbrev main_c_71 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_c_72 : Ref sig .tc := ⟨.hbm, 335, rfl⟩
abbrev main_v237 : Ref sig .tc := ⟨.hbm, 336, rfl⟩
abbrev main_v238 : Ref sig .tc := ⟨.hbm, 337, rfl⟩
abbrev main_c_73 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_c_74 : Ref sig .tc := ⟨.hbm, 346, rfl⟩
abbrev main_v246 : Ref sig .tc := ⟨.hbm, 347, rfl⟩
abbrev main_v247 : Ref sig .tc := ⟨.hbm, 348, rfl⟩
abbrev main_c_75 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_c_76 : Ref sig .tc := ⟨.hbm, 353, rfl⟩
abbrev main_v251 : Ref sig .tc := ⟨.hbm, 354, rfl⟩
abbrev main_v252 : Ref sig .tc := ⟨.hbm, 355, rfl⟩
abbrev main_c_77 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_cst_78 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_cst_79 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_cst_80 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_cst_81 : Ref sig .tc := ⟨.hbm, 386, rfl⟩
abbrev main_v279 : Ref sig .tc := ⟨.hbm, 387, rfl⟩
abbrev main_v280 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_v285 : Ref sig .tc := ⟨.hbm, 393, rfl⟩
abbrev main_v286 : Ref sig .tc := ⟨.hbm, 394, rfl⟩
abbrev main_v287 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩
abbrev main_v299 : Ref sig .tc := ⟨.hbm, 407, rfl⟩
abbrev main_cst_82 : Ref sig .tc := ⟨.hbm, 408, rfl⟩
abbrev main_v300 : Ref sig .tc := ⟨.hbm, 409, rfl⟩
abbrev main_v301 : Ref sig .tc := ⟨.hbm, 410, rfl⟩
abbrev main_cst_83 : Ref sig .tc := ⟨.hbm, 411, rfl⟩
abbrev main_v302 : Ref sig .tc := ⟨.hbm, 412, rfl⟩
abbrev main_v303 : Ref sig .tc := ⟨.hbm, 413, rfl⟩
abbrev main_cst_84 : Ref sig .tc := ⟨.hbm, 414, rfl⟩
abbrev main_v304 : Ref sig .tc := ⟨.hbm, 415, rfl⟩
abbrev main_v305 : Ref sig .tc := ⟨.hbm, 416, rfl⟩
abbrev main_v306 : Ref sig .tc := ⟨.hbm, 417, rfl⟩
abbrev main_cst_85 : Ref sig .tc := ⟨.hbm, 418, rfl⟩
abbrev main_v307 : Ref sig .tc := ⟨.hbm, 419, rfl⟩
abbrev main_v308 : Ref sig .tc := ⟨.hbm, 420, rfl⟩
abbrev main_v309 : Ref sig .tc := ⟨.hbm, 421, rfl⟩
abbrev main_cst_86 : Ref sig .tc := ⟨.hbm, 422, rfl⟩
abbrev main_v310 : Ref sig .tc := ⟨.hbm, 423, rfl⟩
abbrev main_v311 : Ref sig .tc := ⟨.hbm, 424, rfl⟩
abbrev main_v312 : Ref sig .tc := ⟨.hbm, 425, rfl⟩
abbrev main_cst_87 : Ref sig .tc := ⟨.hbm, 426, rfl⟩
abbrev main_v313 : Ref sig .tc := ⟨.hbm, 427, rfl⟩
abbrev main_v314 : Ref sig .tc := ⟨.hbm, 428, rfl⟩
abbrev main_cst_88 : Ref sig .tc := ⟨.hbm, 429, rfl⟩
abbrev main_v315 : Ref sig .tc := ⟨.hbm, 430, rfl⟩
abbrev main_v316 : Ref sig .tc := ⟨.hbm, 431, rfl⟩
abbrev main_v317 : Ref sig .tc := ⟨.hbm, 432, rfl⟩
abbrev main_cst_89 : Ref sig .tc := ⟨.hbm, 433, rfl⟩
abbrev main_cst_90 : Ref sig .tc := ⟨.hbm, 434, rfl⟩
abbrev main_call9_v0 : Ref sig .tc := ⟨.hbm, 435, rfl⟩
abbrev main_call9_v1 : Ref sig .tc := ⟨.hbm, 436, rfl⟩
abbrev main_call9_v2 : Ref sig .tc := ⟨.hbm, 437, rfl⟩
abbrev main_call9_v3 : Ref sig .tc := ⟨.hbm, 438, rfl⟩
abbrev main_call9_v4 : Ref sig .tc := ⟨.hbm, 439, rfl⟩
abbrev main_v318 : Ref sig .tc := ⟨.hbm, 440, rfl⟩
abbrev main_cst_91 : Ref sig .tc := ⟨.hbm, 441, rfl⟩
abbrev main_v319 : Ref sig .tc := ⟨.hbm, 442, rfl⟩
abbrev main_v320 : Ref sig .tc := ⟨.hbm, 443, rfl⟩
abbrev main_cst_92 : Ref sig .tc := ⟨.hbm, 444, rfl⟩
abbrev main_v321 : Ref sig .tc := ⟨.hbm, 445, rfl⟩
abbrev main_v322 : Ref sig .tc := ⟨.hbm, 446, rfl⟩
abbrev main_cst_93 : Ref sig .tc := ⟨.hbm, 447, rfl⟩
abbrev main_v323 : Ref sig .tc := ⟨.hbm, 448, rfl⟩
abbrev main_v324 : Ref sig .tc := ⟨.hbm, 449, rfl⟩
abbrev main_v325 : Ref sig .tc := ⟨.hbm, 450, rfl⟩
abbrev main_cst_94 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_cst_95 : Ref sig .tc := ⟨.hbm, 455, rfl⟩
abbrev main_v329 : Ref sig .tc := ⟨.hbm, 456, rfl⟩
abbrev main_v330 : Ref sig .tc := ⟨.hbm, 457, rfl⟩
abbrev main_v331 : Ref sig .tc := ⟨.hbm, 458, rfl⟩
abbrev main_cst_96 : Ref sig .tc := ⟨.hbm, 459, rfl⟩
abbrev main_v332 : Ref sig .tc := ⟨.hbm, 460, rfl⟩
abbrev main_v333 : Ref sig .tc := ⟨.hbm, 461, rfl⟩
abbrev main_cst_97 : Ref sig .tc := ⟨.hbm, 462, rfl⟩
abbrev main_v334 : Ref sig .tc := ⟨.hbm, 463, rfl⟩
abbrev main_v335 : Ref sig .tc := ⟨.hbm, 464, rfl⟩
abbrev main_v336 : Ref sig .tc := ⟨.hbm, 465, rfl⟩
abbrev main_cst_98 : Ref sig .tc := ⟨.hbm, 466, rfl⟩
abbrev main_cst_99 : Ref sig .tc := ⟨.hbm, 467, rfl⟩
abbrev main_call11_v0 : Ref sig .tc := ⟨.hbm, 468, rfl⟩
abbrev main_call11_v1 : Ref sig .tc := ⟨.hbm, 469, rfl⟩
abbrev main_call11_v2 : Ref sig .tc := ⟨.hbm, 470, rfl⟩
abbrev main_call11_v3 : Ref sig .tc := ⟨.hbm, 471, rfl⟩
abbrev main_call11_v4 : Ref sig .tc := ⟨.hbm, 472, rfl⟩
abbrev main_v337 : Ref sig .tc := ⟨.hbm, 473, rfl⟩
abbrev main_v338 : Ref sig .tc := ⟨.hbm, 474, rfl⟩
abbrev main_v339 : Ref sig .tc := ⟨.hbm, 475, rfl⟩
abbrev main_v340 : Ref sig .tc := ⟨.hbm, 476, rfl⟩
abbrev main_v341 : Ref sig .tc := ⟨.hbm, 477, rfl⟩
abbrev main_v342 : Ref sig .tc := ⟨.hbm, 478, rfl⟩
abbrev main_v343 : Ref sig .tc := ⟨.hbm, 479, rfl⟩
abbrev main_c_100 : Ref sig .tc := ⟨.hbm, 480, rfl⟩
abbrev main_v344 : Ref sig .tc := ⟨.hbm, 481, rfl⟩
abbrev main_v345 : Ref sig .tc := ⟨.hbm, 482, rfl⟩
abbrev main_c_101 : Ref sig .tc := ⟨.hbm, 483, rfl⟩
abbrev main_v346 : Ref sig .tc := ⟨.hbm, 484, rfl⟩
abbrev main_v347 : Ref sig .tc := ⟨.hbm, 485, rfl⟩
abbrev main_c_102 : Ref sig .tc := ⟨.hbm, 486, rfl⟩
abbrev main_v348 : Ref sig .tc := ⟨.hbm, 487, rfl⟩
abbrev main_v349 : Ref sig .tc := ⟨.hbm, 488, rfl⟩
abbrev main_c_103 : Ref sig .tc := ⟨.hbm, 489, rfl⟩
abbrev main_v350 : Ref sig .tc := ⟨.hbm, 490, rfl⟩
abbrev main_v351 : Ref sig .tc := ⟨.hbm, 491, rfl⟩
abbrev main_c_104 : Ref sig .tc := ⟨.hbm, 492, rfl⟩
abbrev main_v352 : Ref sig .tc := ⟨.hbm, 493, rfl⟩
abbrev main_v353 : Ref sig .tc := ⟨.hbm, 494, rfl⟩
abbrev main_c_105 : Ref sig .tc := ⟨.hbm, 495, rfl⟩
abbrev main_v354 : Ref sig .tc := ⟨.hbm, 496, rfl⟩
abbrev main_v355 : Ref sig .tc := ⟨.hbm, 497, rfl⟩
abbrev main_v356 : Ref sig .tc := ⟨.hbm, 498, rfl⟩
abbrev main_c_106 : Ref sig .tc := ⟨.hbm, 499, rfl⟩
abbrev main_v357 : Ref sig .tc := ⟨.hbm, 500, rfl⟩
abbrev main_v358 : Ref sig .tc := ⟨.hbm, 501, rfl⟩
abbrev main_c_107 : Ref sig .tc := ⟨.hbm, 502, rfl⟩
abbrev main_v359 : Ref sig .tc := ⟨.hbm, 503, rfl⟩
abbrev main_v360 : Ref sig .tc := ⟨.hbm, 504, rfl⟩
abbrev main_v361 : Ref sig .tc := ⟨.hbm, 505, rfl⟩
abbrev main_v362 : Ref sig .tc := ⟨.hbm, 506, rfl⟩
abbrev main_v363 : Ref sig .tc := ⟨.hbm, 507, rfl⟩
abbrev main_v364 : Ref sig .tc := ⟨.hbm, 508, rfl⟩
abbrev main_v365 : Ref sig .tc := ⟨.hbm, 509, rfl⟩
abbrev main_c_108 : Ref sig .tc := ⟨.hbm, 510, rfl⟩
abbrev main_v366 : Ref sig .tc := ⟨.hbm, 511, rfl⟩
abbrev main_v367 : Ref sig .tc := ⟨.hbm, 512, rfl⟩
abbrev main_c_109 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_c_110 : Ref sig .tc := ⟨.hbm, 517, rfl⟩
abbrev main_v371 : Ref sig .tc := ⟨.hbm, 518, rfl⟩
abbrev main_v372 : Ref sig .tc := ⟨.hbm, 519, rfl⟩
abbrev main_c_111 : Ref sig .tc := ⟨.hbm, 520, rfl⟩
abbrev main_v373 : Ref sig .tc := ⟨.hbm, 521, rfl⟩
abbrev main_v374 : Ref sig .tc := ⟨.hbm, 522, rfl⟩
abbrev main_v375 : Ref sig .tc := ⟨.hbm, 523, rfl⟩
abbrev main_v376 : Ref sig .tc := ⟨.hbm, 524, rfl⟩
abbrev main_v377 : Ref sig .tc := ⟨.hbm, 525, rfl⟩
abbrev main_v378 : Ref sig .tc := ⟨.hbm, 526, rfl⟩
abbrev main_v379 : Ref sig .tc := ⟨.hbm, 527, rfl⟩
abbrev main_c_112 : Ref sig .tc := ⟨.hbm, 528, rfl⟩
abbrev main_v380 : Ref sig .tc := ⟨.hbm, 529, rfl⟩
abbrev main_v381 : Ref sig .tc := ⟨.hbm, 530, rfl⟩
abbrev main_c_113 : Ref sig .tc := ⟨.hbm, 531, rfl⟩
abbrev main_v382 : Ref sig .tc := ⟨.hbm, 532, rfl⟩
abbrev main_v383 : Ref sig .tc := ⟨.hbm, 533, rfl⟩
abbrev main_v384 : Ref sig .tc := ⟨.hbm, 534, rfl⟩
abbrev main_c_114 : Ref sig .tc := ⟨.hbm, 535, rfl⟩
abbrev main_v385 : Ref sig .tc := ⟨.hbm, 536, rfl⟩
abbrev main_v386 : Ref sig .tc := ⟨.hbm, 537, rfl⟩
abbrev main_c_115 : Ref sig .tc := ⟨.hbm, 538, rfl⟩
abbrev main_v387 : Ref sig .tc := ⟨.hbm, 539, rfl⟩
abbrev main_v388 : Ref sig .tc := ⟨.hbm, 540, rfl⟩
abbrev main_v389 : Ref sig .tc := ⟨.hbm, 541, rfl⟩
abbrev main_v390 : Ref sig .tc := ⟨.hbm, 542, rfl⟩
abbrev main_v391 : Ref sig .tc := ⟨.hbm, 543, rfl⟩
abbrev main_v392 : Ref sig .tc := ⟨.hbm, 544, rfl⟩
abbrev main_v393 : Ref sig .tc := ⟨.hbm, 545, rfl⟩
abbrev main_c_116 : Ref sig .tc := ⟨.hbm, 546, rfl⟩
abbrev main_v394 : Ref sig .tc := ⟨.hbm, 547, rfl⟩
abbrev main_v395 : Ref sig .tc := ⟨.hbm, 548, rfl⟩
abbrev main_c_117 : Ref sig .tc := ⟨.hbm, 549, rfl⟩
abbrev main_v396 : Ref sig .tc := ⟨.hbm, 550, rfl⟩
abbrev main_v397 : Ref sig .tc := ⟨.hbm, 551, rfl⟩
abbrev main_v398 : Ref sig .tc := ⟨.hbm, 552, rfl⟩
abbrev main_c_118 : Ref sig .tc := ⟨.hbm, 553, rfl⟩
abbrev main_v399 : Ref sig .tc := ⟨.hbm, 554, rfl⟩
abbrev main_v400 : Ref sig .tc := ⟨.hbm, 555, rfl⟩
abbrev main_c_119 : Ref sig .tc := ⟨.hbm, 556, rfl⟩
abbrev main_v401 : Ref sig .tc := ⟨.hbm, 557, rfl⟩
abbrev main_v402 : Ref sig .tc := ⟨.hbm, 558, rfl⟩
abbrev main_v403 : Ref sig .tc := ⟨.hbm, 559, rfl⟩
abbrev main_v404 : Ref sig .tc := ⟨.hbm, 560, rfl⟩
abbrev main_v405 : Ref sig .tc := ⟨.hbm, 561, rfl⟩
abbrev main_v406 : Ref sig .tc := ⟨.hbm, 562, rfl⟩
abbrev main_v407 : Ref sig .tc := ⟨.hbm, 563, rfl⟩
abbrev main_cst_120 : Ref sig .tc := ⟨.hbm, 564, rfl⟩
abbrev main_v408 : Ref sig .tc := ⟨.hbm, 565, rfl⟩
abbrev main_v409 : Ref sig .tc := ⟨.hbm, 566, rfl⟩
abbrev main_v410 : Ref sig .tc := ⟨.hbm, 567, rfl⟩
abbrev main_v411 : Ref sig .tc := ⟨.hbm, 568, rfl⟩
abbrev main_v412 : Ref sig .tc := ⟨.hbm, 569, rfl⟩
abbrev main_cst_121 : Ref sig .tc := ⟨.hbm, 570, rfl⟩
abbrev main_v413 : Ref sig .tc := ⟨.hbm, 571, rfl⟩
abbrev main_v414 : Ref sig .tc := ⟨.hbm, 572, rfl⟩
abbrev main_v415 : Ref sig .tc := ⟨.hbm, 573, rfl⟩
abbrev main_v416 : Ref sig .tc := ⟨.hbm, 574, rfl⟩
abbrev main_v417 : Ref sig .tc := ⟨.hbm, 575, rfl⟩
abbrev main_v418 : Ref sig .tc := ⟨.hbm, 576, rfl⟩
abbrev main_v419 : Ref sig .tc := ⟨.hbm, 577, rfl⟩
abbrev main_v420 : Ref sig .tc := ⟨.hbm, 578, rfl⟩
abbrev main_cst_122 : Ref sig .tc := ⟨.hbm, 579, rfl⟩
abbrev main_v421 : Ref sig .tc := ⟨.hbm, 580, rfl⟩
abbrev main_v422 : Ref sig .tc := ⟨.hbm, 581, rfl⟩
abbrev main_v423 : Ref sig .tc := ⟨.hbm, 582, rfl⟩
abbrev main_v424 : Ref sig .tc := ⟨.hbm, 583, rfl⟩
abbrev main_v425 : Ref sig .tc := ⟨.hbm, 584, rfl⟩
abbrev main_v426 : Ref sig .tc := ⟨.hbm, 585, rfl⟩
abbrev main_cst_123 : Ref sig .tc := ⟨.hbm, 586, rfl⟩
abbrev main_v427 : Ref sig .tc := ⟨.hbm, 587, rfl⟩
abbrev main_v428 : Ref sig .tc := ⟨.hbm, 588, rfl⟩
abbrev main_v429 : Ref sig .tc := ⟨.hbm, 589, rfl⟩
abbrev main_v430 : Ref sig .tc := ⟨.hbm, 590, rfl⟩
abbrev main_v431 : Ref sig .tc := ⟨.hbm, 591, rfl⟩
abbrev main_v432 : Ref sig .tc := ⟨.hbm, 592, rfl⟩
abbrev main_v433 : Ref sig .tc := ⟨.hbm, 593, rfl⟩
abbrev main_v434 : Ref sig .tc := ⟨.hbm, 594, rfl⟩
abbrev main_v435 : Ref sig .tc := ⟨.hbm, 595, rfl⟩
abbrev main_v436 : Ref sig .tc := ⟨.hbm, 596, rfl⟩
abbrev main_v437 : Ref sig .tc := ⟨.hbm, 597, rfl⟩
abbrev main_v438 : Ref sig .tc := ⟨.hbm, 598, rfl⟩
abbrev main_v439 : Ref sig .tc := ⟨.hbm, 599, rfl⟩
abbrev main_v440 : Ref sig .tc := ⟨.hbm, 600, rfl⟩
abbrev main_v441 : Ref sig .tc := ⟨.hbm, 601, rfl⟩
abbrev main_v442 : Ref sig .tc := ⟨.hbm, 602, rfl⟩
abbrev main_v443 : Ref sig .tc := ⟨.hbm, 603, rfl⟩
abbrev main_v444 : Ref sig .tc := ⟨.hbm, 604, rfl⟩
abbrev main_v445 : Ref sig .tc := ⟨.hbm, 605, rfl⟩
abbrev main_v446 : Ref sig .tc := ⟨.hbm, 606, rfl⟩
abbrev main_v447 : Ref sig .tc := ⟨.hbm, 607, rfl⟩

abbrev nD : Nat := 1
abbrev τ : Topo := Topo.v7x

variable {F : FTy → Type} [FloatOps F]

class Facts₀ : Prop where
  slices_S4x262144x3_S4x262144x1_0_0_1 : S4x262144x3.Slices ![0, 0, 1] S4x262144x1
  shapeCasts_S4x262144x1_S4x262144 : S4x262144x1.ShapeCasts S4x262144
  slices_S4x262144x3_S4x262144x1_0_0_2 : S4x262144x3.Slices ![0, 0, 2] S4x262144x1
  bcast_S_S4x262144 : S_.BroadcastsInDim S4x262144 (![] : Fin 0 → Fin S4x262144.rank)
  bcast_S4x262144_S4x262144x1_0_1 : S4x262144.BroadcastsInDim S4x262144x1 (![0, 1] : Fin 2 → Fin S4x262144x1.rank)
  concatenates_S4x262144x1_S4x262144x1_S4x262144x2_d2 : Shape.Concatenates [S4x262144x1, S4x262144x1] S4x262144x2 2
  bcast_S4x262144_S1x4x262144_1_2 : S4x262144.BroadcastsInDim S1x4x262144 (![1, 2] : Fin 2 → Fin S1x4x262144.rank)
  bcast_S1x4x262144_S32x4x262144_0_1_2 : S1x4x262144.BroadcastsInDim S32x4x262144 (![0, 1, 2] : Fin 3 → Fin S32x4x262144.rank)
  transposes_S32x4x262144_S4x262144x32_1_2_0 : S32x4x262144.Transposes [1, 2, 0] S4x262144x32
  slices_S4x262144x3_S4x262144x1_0_0_0 : S4x262144x3.Slices ![0, 0, 0] S4x262144x1
  bcast_S4x262144x32_S4x262144x1x32_0_1_3 : S4x262144x32.BroadcastsInDim S4x262144x1x32 (![0, 1, 3] : Fin 3 → Fin S4x262144x1x32.rank)
  concatenates_S4x262144x1x32_S4x262144x1x32_S4x262144x1x32_S4x262144x3x32_d2 : Shape.Concatenates [S4x262144x1x32, S4x262144x1x32, S4x262144x1x32] S4x262144x3x32 2
  gather_S32x513x513_S4x262144x2_S32x4x262144_0_12_n_n_12_2_3211_wf : GatherDims.WF S32x513x513 S4x262144x2 S32x4x262144 [0] [1, 2] [] [1, 2] [] 2 ![32, 1, 1]

variable [Facts₀]

def gather_S32x513x513_S4x262144x2_S32x4x262144_0_12_n_n_12_2_3211 : GatherDims S32x513x513 S4x262144x2 S32x4x262144 where
  offsetDims := [0]
  collapsedSliceDims := [1, 2]
  operandBatchingDims := []
  startIndicesBatchingDims := []
  startIndexMap := [1, 2]
  indexVectorDim := 2
  sliceSizes := ![32, 1, 1]
  wf := gather_S32x513x513_S4x262144x2_S32x4x262144_0_12_n_n_12_2_3211_wf

class Facts : Prop extends Facts₀ where

variable [Facts]
-- ==== Proof.KernelBitsFrame.lean ====
/- THE FRAME of the program: @main is twenty-five stretches of host operations, ONE region (a single
   pipelined launch over a grid of 256 points, seven windows: six inputs and one output), then one reshape.
   Stated here: what each core's buffers hold when the region is entered (`V0`, `V`: the fold of the host
   operations over the launch memory), that no host operation writes an argument array, each window's
   block at a grid point (`iblk`), what the body leaves in the output block (`out0_6`: a pointwise
   bilinear blend of the four value blocks by the two weight blocks), the body's triple, the proof data of
   the pipeline, the body obligation, the run, and the frame claim: the four arguments end as launched. -/
import proofs.«157496_j37812892074356_1_alg».proof.Proof.Gen.Kernel.Launch
import proofs.«157496_j37812892074356_1_alg».proof.Proof.Gen.Kernel.Skeleton
import proofs.«157496_j37812892074356_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch memory folded through every host operation
    that precedes the region, stretch after stretch. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b))
/-- The same, read at a TensorCore reference. -/
abbrev V (c : Dev nD) (b : Ref sig .tc) : Buf (Elt F) ((c : Thread nD τ).loc b) := V0 m c (Proc.devRef .tc b)

/-! ### No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
set_option maxHeartbeats 4000000 in
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
set_option maxHeartbeats 4000000 in
theorem hostOps0_24_fresh : (hostOps0_24 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the stretches before the region, the region, and the reshape after it; run from the launch
    memory it reaches the region with the buffers at `V`, and what remains is the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩) main_chain

/-! ### The reshape after the region -/

/-- It touches only the pipeline's arrays and the buffers that bypass the region: its two buffers are
    unscoped TensorCore references, and nothing is prefetched. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result only, which is none of the seven arrays of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ### The arguments are never written -/

/-- The four argument arrays of @main. -/
abbrev mainArgs : List (Ref sig .tc) := [main_arg0, main_arg1, main_arg2, main_arg3]

theorem hostOps0_spares_args : (hostOps0 : List (HloOp τ sig (Elt F))).Forall fun op => ∀ r ∈ mainArgs, Proc.devRef .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_1_spares_args : (hostOps0_1 : List (HloOp τ sig (Elt F))).Forall fun op => ∀ r ∈ mainArgs, Proc.devRef .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_2_spares_args : (hostOps0_2 : List (HloOp τ sig (Elt F))).Forall fun op => ∀ r ∈ mainArgs, Proc.devRef .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_3_spares_args : (hostOps0_3 : List (HloOp τ sig (Elt F))).Forall fun op => ∀ r ∈ mainArgs, Proc.devRef .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_4_spares_args : (hostOps0_4 : List (HloOp τ sig (Elt F))).Forall fun op => ∀ r ∈ mainArgs, Proc.devRef .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_5_spares_args : (hostOps0_5 : List (HloOp τ sig (Elt F))).Forall fun op => ∀ r ∈ mainArgs, Proc.devRef .tc r ∉ op.writes := by
  simp only [hostOps0_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_6_spares_args : (hostOps0_6 : List (HloOp τ sig (Elt F))).Forall fun op => ∀ r ∈ mainArgs, Proc.devRef .tc r ∉ op.writes := by
  simp only [hostOps0_6, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_7_spares_args : (hostOps0_7 : List (HloOp τ sig (Elt F))).Forall fun op => ∀ r ∈ mainArgs, Proc.devRef .tc r ∉ op.writes := by
  simp only [hostOps0_7, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
set_option maxHeartbeats 4000000 in
theorem hostOps0_8_spares_args : (hostOps0_8 : List (HloOp τ sig (Elt F))).Forall fun op => ∀ r ∈ mainArgs, Proc.devRef .tc r ∉ op.writes := by
  simp only [hostOps0_8, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_9_spares_args : (hostOps0_9 : List (HloOp τ sig (Elt F))).Forall fun op => ∀ r ∈ mainArgs, Proc.devRef .tc r ∉ op.writes := by
  simp only [hostOps0_9, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_10_spares_args : (hostOps0_10 : List (HloOp τ sig (Elt F))).Forall fun op => ∀ r ∈ mainArgs, Proc.devRef .tc r ∉ op.writes := by
  simp only [hostOps0_10, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_11_spares_args : (hostOps0_11 : List (HloOp τ sig (Elt F))).Forall fun op => ∀ r ∈ mainArgs, Proc.devRef .tc r ∉ op.writes := by
  simp only [hostOps0_11, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_12_spares_args : (hostOps0_12 : List (HloOp τ sig (Elt F))).Forall fun op => ∀ r ∈ mainArgs, Proc.devRef .tc r ∉ op.writes := by
  simp only [hostOps0_12, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_13_spares_args : (hostOps0_13 : List (HloOp τ sig (Elt F))).Forall fun op => ∀ r ∈ mainArgs, Proc.devRef .tc r ∉ op.writes := by
  simp only [hostOps0_13, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_14_spares_args : (hostOps0_14 : List (HloOp τ sig (Elt F))).Forall fun op => ∀ r ∈ mainArgs, Proc.devRef .tc r ∉ op.writes := by
  simp only [hostOps0_14, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_15_spares_args : (hostOps0_15 : List (HloOp τ sig (Elt F))).Forall fun op => ∀ r ∈ mainArgs, Proc.devRef .tc r ∉ op.writes := by
  simp only [hostOps0_15, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
set_option maxHeartbeats 4000000 in
theorem hostOps0_16_spares_args : (hostOps0_16 : List (HloOp τ sig (Elt F))).Forall fun op => ∀ r ∈ mainArgs, Proc.devRef .tc r ∉ op.writes := by
  simp only [hostOps0_16, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_17_spares_args : (hostOps0_17 : List (HloOp τ sig (Elt F))).Forall fun op => ∀ r ∈ mainArgs, Proc.devRef .tc r ∉ op.writes := by
  simp only [hostOps0_17, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_18_spares_args : (hostOps0_18 : List (HloOp τ sig (Elt F))).Forall fun op => ∀ r ∈ mainArgs, Proc.devRef .tc r ∉ op.writes := by
  simp only [hostOps0_18, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_19_spares_args : (hostOps0_19 : List (HloOp τ sig (Elt F))).Forall fun op => ∀ r ∈ mainArgs, Proc.devRef .tc r ∉ op.writes := by
  simp only [hostOps0_19, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_20_spares_args : (hostOps0_20 : List (HloOp τ sig (Elt F))).Forall fun op => ∀ r ∈ mainArgs, Proc.devRef .tc r ∉ op.writes := by
  simp only [hostOps0_20, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_21_spares_args : (hostOps0_21 : List (HloOp τ sig (Elt F))).Forall fun op => ∀ r ∈ mainArgs, Proc.devRef .tc r ∉ op.writes := by
  simp only [hostOps0_21, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_22_spares_args : (hostOps0_22 : List (HloOp τ sig (Elt F))).Forall fun op => ∀ r ∈ mainArgs, Proc.devRef .tc r ∉ op.writes := by
  simp only [hostOps0_22, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_23_spares_args : (hostOps0_23 : List (HloOp τ sig (Elt F))).Forall fun op => ∀ r ∈ mainArgs, Proc.devRef .tc r ∉ op.writes := by
  simp only [hostOps0_23, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
set_option maxHeartbeats 4000000 in
theorem hostOps0_24_spares_args : (hostOps0_24 : List (HloOp τ sig (Elt F))).Forall fun op => ∀ r ∈ mainArgs, Proc.devRef .tc r ∉ op.writes := by
  simp only [hostOps0_24, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))

/-- Every operation of every stretch before the region writes its own result buffer, never an argument. -/
theorem prefix_spares_args : ∀ op ∈ List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] : List (List (HloOp τ sig (Elt F)))),
    ∀ r ∈ mainArgs, Proc.devRef .tc r ∉ op.writes := by
  intro op hop
  obtain ⟨ops, hops, hmem⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps0_spares_args) op hmem
  · exact (List.forall_iff_forall_mem.mp hostOps0_1_spares_args) op hmem
  · exact (List.forall_iff_forall_mem.mp hostOps0_2_spares_args) op hmem
  · exact (List.forall_iff_forall_mem.mp hostOps0_3_spares_args) op hmem
  · exact (List.forall_iff_forall_mem.mp hostOps0_4_spares_args) op hmem
  · exact (List.forall_iff_forall_mem.mp hostOps0_5_spares_args) op hmem
  · exact (List.forall_iff_forall_mem.mp hostOps0_6_spares_args) op hmem
  · exact (List.forall_iff_forall_mem.mp hostOps0_7_spares_args) op hmem
  · exact (List.forall_iff_forall_mem.mp hostOps0_8_spares_args) op hmem
  · exact (List.forall_iff_forall_mem.mp hostOps0_9_spares_args) op hmem
  · exact (List.forall_iff_forall_mem.mp hostOps0_10_spares_args) op hmem
  · exact (List.forall_iff_forall_mem.mp hostOps0_11_spares_args) op hmem
  · exact (List.forall_iff_forall_mem.mp hostOps0_12_spares_args) op hmem
  · exact (List.forall_iff_forall_mem.mp hostOps0_13_spares_args) op hmem
  · exact (List.forall_iff_forall_mem.mp hostOps0_14_spares_args) op hmem
  · exact (List.forall_iff_forall_mem.mp hostOps0_15_spares_args) op hmem
  · exact (List.forall_iff_forall_mem.mp hostOps0_16_spares_args) op hmem
  · exact (List.forall_iff_forall_mem.mp hostOps0_17_spares_args) op hmem
  · exact (List.forall_iff_forall_mem.mp hostOps0_18_spares_args) op hmem
  · exact (List.forall_iff_forall_mem.mp hostOps0_19_spares_args) op hmem
  · exact (List.forall_iff_forall_mem.mp hostOps0_20_spares_args) op hmem
  · exact (List.forall_iff_forall_mem.mp hostOps0_21_spares_args) op hmem
  · exact (List.forall_iff_forall_mem.mp hostOps0_22_spares_args) op hmem
  · exact (List.forall_iff_forall_mem.mp hostOps0_23_spares_args) op hmem
  · exact (List.forall_iff_forall_mem.mp hostOps0_24_spares_args) op hmem

/-- So the region finds each argument as launched. -/
theorem V_arg (c : Dev nD) (r : Ref sig .tc) (hr : r ∈ mainArgs) : V m c r = m ((c : Thread nD τ).loc r) :=
  StableHlo.after_of_forall_not_mem (b := Proc.devRef .tc r) _ _ (fun op hop => prefix_spares_args op hop r hr)

theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)

/-- The reshape after the region writes its own result, no argument; and an argument is none of the seven
    arrays the region writes back to: it ends as launched. -/
theorem W_arg (dats' : (p : Fin 1) → (c : Dev nD) → Pipeline.Dat τ (Elt F) Unit ℕ (UR sig nD τ) ℕ (cfgs p) c) (c : Dev nD)
    (r : Ref sig .tc) (hr : r ∈ mainArgs) :
    Pipeline.afterTail₀ cfgs dats' 0 (V0 m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.Forall, StableHlo.reshape_writes, Finset.mem_singleton]
      exact StableHlo.devRef_ne_of_ne (ne_of_mem_of_not_mem hr (by decide)))),
    Pipeline.withArrays_of_ne _ c (V0 m c) _ r (fun w => (ne_of_mem_of_not_mem hr (by fin_cases w <;> decide)).symm)]
  exact V_arg m c r hr

theorem W_main_arg0 (dats' : (p : Fin 1) → (c : Dev nD) → Pipeline.Dat τ (Elt F) Unit ℕ (UR sig nD τ) ℕ (cfgs p) c) (c : Dev nD) :
    Pipeline.afterTail₀ cfgs dats' 0 (V0 m) [hostOps1] c main_arg0 = m ((c : Thread nD τ).loc main_arg0) := W_arg m dats' c main_arg0 (by decide)
theorem W_main_arg1 (dats' : (p : Fin 1) → (c : Dev nD) → Pipeline.Dat τ (Elt F) Unit ℕ (UR sig nD τ) ℕ (cfgs p) c) (c : Dev nD) :
    Pipeline.afterTail₀ cfgs dats' 0 (V0 m) [hostOps1] c main_arg1 = m ((c : Thread nD τ).loc main_arg1) := W_arg m dats' c main_arg1 (by decide)
theorem W_main_arg2 (dats' : (p : Fin 1) → (c : Dev nD) → Pipeline.Dat τ (Elt F) Unit ℕ (UR sig nD τ) ℕ (cfgs p) c) (c : Dev nD) :
    Pipeline.afterTail₀ cfgs dats' 0 (V0 m) [hostOps1] c main_arg2 = m ((c : Thread nD τ).loc main_arg2) := W_arg m dats' c main_arg2 (by decide)
theorem W_main_arg3 (dats' : (p : Fin 1) → (c : Dev nD) → Pipeline.Dat τ (Elt F) Unit ℕ (UR sig nD τ) ℕ (cfgs p) c) (c : Dev nD) :
    Pipeline.afterTail₀ cfgs dats' 0 (V0 m) [hostOps1] c main_arg3 = m ((c : Thread nD τ).loc main_arg3) := W_arg m dats' c main_arg3 (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds that window's block when the body is called, fetched at this
    point or not (a window not fetched here has not moved), for any proof data whose array is the region-entry
    contents and whose body leaves the block where it was: the windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data: a run ending with every buffer outside the seven arrays at what the reshape after the
    region leaves is a run ending with the four arguments as launched, an argument being none of the arrays. -/
theorem frame_of (dats' : (p : Fin 1) → (c : Dev nD) → Dat τ (Elt F) Unit ℕ (UR sig nD τ) ℕ (cfgs p) c)
    (h : θ_run defs (onTc (τ := τ) (main (F := F))) (s₀ m ρ) (Pipeline.FramePost cfgs dats' 0 (Pipeline.afterTail₀ cfgs dats' 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats' c),
     ((h c).2 main_arg1 (Pipeline.mem_restRefs_of main_arg1 (by decide) (by decide))).trans (W_main_arg1 m dats' c),
     ((h c).2 main_arg2 (Pipeline.mem_restRefs_of main_arg2 (by decide) (by decide))).trans (W_main_arg2 m dats' c),
     ((h c).2 main_arg3 (Pipeline.mem_restRefs_of main_arg3 (by decide) (by decide))).trans (W_main_arg3 m dats' c)⟩) h

/-! ## What the body computes -/

/-- The whole of a value block (4096 x 3 x 32) and the whole of a weight block (4096 x 3 x 1). -/
abbrev wholeValue : Rect S4096x3x32 := Rect.unit (s := S4096x3x32) ![0, 0, 0] S4096x3x32.size inb_S4096x3x32_S4096x3x32_0_0_0
abbrev wholeWeight : Rect S4096x3x1 := Rect.unit (s := S4096x3x1) ![0, 0, 0] S4096x3x1.size inb_S4096x3x1_S4096x3x1_0_0_0

/-- What the body leaves in the output block, from the six input blocks: its one store, of the blend of the
    four value blocks `x0 … x3` by the products of the weights `x4`, `x5` and their complements to one. -/
def out0_6 (x0 x1 x2 x3 : Vec F S4096x3x32 .f32) (x4 x5 : Vec F S4096x3x1 .f32) : Vec F S4096x3x32 .f32 :=
  View.canon [⟨wholeValue, k0_pay1 (View.ld x4 wholeWeight) (View.ld x5 wholeWeight) (View.ld x0 wholeValue) (View.ld x1 wholeValue) (View.ld x2 wholeValue) (View.ld x3 wholeValue)⟩]

/-- The one store is of the whole block: every index of the output block lies in it. -/
theorem store_covers (p : Vec F S4096x3x32 .f32) (y : S4096x3x32.Idx) :
    ∃ pc ∈ ([⟨wholeValue, p⟩] : List (View.Piece (Elt F) S4096x3x32 .f32)), y ∈ pc.1.set :=
  View.cover_of_tiled [⟨wholeValue, p⟩] S4096x3x32.size (by rfl) y

set_option maxHeartbeats 1000000 in
/-- The body on whole staging buffers, the six inputs' at `x0 … x5` and the output's at anything: it loads the
    six blocks whole, reads the output block (the value read is dropped), stores the blend over the whole output
    block, and returns with the inputs' buffers as they were and the output's at `out0_6` of them. -/
theorem sound_kernel (c : Dev nD) (E : Set ℕ) (i : grid0.Coords)
    (arg1 : Memref sig .tc .vmem S4096x3x32 .f32) (harg1 : arg1.IsWhole) (arg2 : Memref sig .tc .vmem S4096x3x32 .f32) (harg2 : arg2.IsWhole)
    (arg3 : Memref sig .tc .vmem S4096x3x32 .f32) (harg3 : arg3.IsWhole) (arg4 : Memref sig .tc .vmem S4096x3x32 .f32) (harg4 : arg4.IsWhole)
    (arg5 : Memref sig .tc .vmem S4096x3x1 .f32) (harg5 : arg5.IsWhole) (arg6 : Memref sig .tc .vmem S4096x3x1 .f32) (harg6 : arg6.IsWhole)
    (arg7 : Memref sig .tc .vmem S4096x3x32 .f32) (harg7 : arg7.IsWhole)
    (x0 x1 x2 x3 : Vec F S4096x3x32 .f32) (x4 x5 : Vec F S4096x3x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

/-! ## The proof data of the pipeline -/

/-- On core `c`: the arrays as the region finds them; after the body at point `t` each input's buffer at its
    block and the output's at the blend of the six input blocks; the invariant is the scoped rest and the
    generator register, untouched; full shares; nothing owed. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents, by projection (the fold stays folded). -/
theorem A_eq (c : Dev nD) (w : Fin cfg0.W) : (dats m 0 c).A w = V m c (Pipeline.arrRef spec0 w) := by
  dsimp only [dats]

/-- What the body leaves, window by window, by projection. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

/-- Each input's staging buffer holds its block when the body is called. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`: the invariant, what the core owes, and the seven staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates,
    with every array of the pipeline at what the proof data give and every other unscoped buffer as the reshape
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- THE FRAME: @main runs to the end and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.KernelIdealFrame.lean ====
/- THE FRAME of the program: @main is twenty-five stretches of host operations, ONE region (a single
   pipelined launch over a grid of 256 points, seven windows: six inputs and one output), then one reshape.
   Stated here: what each core's buffers hold when the region is entered (`V0`, `V`: the fold of the host
   operations over the launch memory), that no host operation writes an argument array, each window's
   block at a grid point (`iblk`), what the body leaves in the output block (`out0_6`: a pointwise
   bilinear blend of the four value blocks by the two weight blocks), the body's triple, the proof data of
   the pipeline, the body obligation, the run, and the frame claim: the four arguments end as launched. -/
import proofs.«157496_j37812892074356_1_alg».proof.Proof.Gen.KernelIdeal.Launch
import proofs.«157496_j37812892074356_1_alg».proof.Proof.Gen.KernelIdeal.Skeleton
import proofs.«157496_j37812892074356_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch memory folded through every host operation
    that precedes the region, stretch after stretch. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b))
/-- The same, read at a TensorCore reference. -/
abbrev V (c : Dev nD) (b : Ref sig .tc) : Buf (Elt F) ((c : Thread nD τ).loc b) := V0 m c (Proc.devRef .tc b)

/-! ### No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
set_option maxHeartbeats 4000000 in
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
set_option maxHeartbeats 4000000 in
theorem hostOps0_24_fresh : (hostOps0_24 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the stretches before the region, the region, and the reshape after it; run from the launch
    memory it reaches the region with the buffers at `V`, and what remains is the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩) main_chain

/-! ### The reshape after the region -/

/-- It touches only the pipeline's arrays and the buffers that bypass the region: its two buffers are
    unscoped TensorCore references, and nothing is prefetched. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result only, which is none of the seven arrays of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ### The arguments are never written -/

/-- The four argument arrays of @main. -/
abbrev mainArgs : List (Ref sig .tc) := [main_arg0, main_arg1, main_arg2, main_arg3]

theorem hostOps0_spares_args : (hostOps0 : List (HloOp τ sig (Elt F))).Forall fun op => ∀ r ∈ mainArgs, Proc.devRef .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_1_spares_args : (hostOps0_1 : List (HloOp τ sig (Elt F))).Forall fun op => ∀ r ∈ mainArgs, Proc.devRef .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_2_spares_args : (hostOps0_2 : List (HloOp τ sig (Elt F))).Forall fun op => ∀ r ∈ mainArgs, Proc.devRef .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_3_spares_args : (hostOps0_3 : List (HloOp τ sig (Elt F))).Forall fun op => ∀ r ∈ mainArgs, Proc.devRef .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_4_spares_args : (hostOps0_4 : List (HloOp τ sig (Elt F))).Forall fun op => ∀ r ∈ mainArgs, Proc.devRef .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_5_spares_args : (hostOps0_5 : List (HloOp τ sig (Elt F))).Forall fun op => ∀ r ∈ mainArgs, Proc.devRef .tc r ∉ op.writes := by
  simp only [hostOps0_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_6_spares_args : (hostOps0_6 : List (HloOp τ sig (Elt F))).Forall fun op => ∀ r ∈ mainArgs, Proc.devRef .tc r ∉ op.writes := by
  simp only [hostOps0_6, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_7_spares_args : (hostOps0_7 : List (HloOp τ sig (Elt F))).Forall fun op => ∀ r ∈ mainArgs, Proc.devRef .tc r ∉ op.writes := by
  simp only [hostOps0_7, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
set_option maxHeartbeats 4000000 in
theorem hostOps0_8_spares_args : (hostOps0_8 : List (HloOp τ sig (Elt F))).Forall fun op => ∀ r ∈ mainArgs, Proc.devRef .tc r ∉ op.writes := by
  simp only [hostOps0_8, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_9_spares_args : (hostOps0_9 : List (HloOp τ sig (Elt F))).Forall fun op => ∀ r ∈ mainArgs, Proc.devRef .tc r ∉ op.writes := by
  simp only [hostOps0_9, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_10_spares_args : (hostOps0_10 : List (HloOp τ sig (Elt F))).Forall fun op => ∀ r ∈ mainArgs, Proc.devRef .tc r ∉ op.writes := by
  simp only [hostOps0_10, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_11_spares_args : (hostOps0_11 : List (HloOp τ sig (Elt F))).Forall fun op => ∀ r ∈ mainArgs, Proc.devRef .tc r ∉ op.writes := by
  simp only [hostOps0_11, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_12_spares_args : (hostOps0_12 : List (HloOp τ sig (Elt F))).Forall fun op => ∀ r ∈ mainArgs, Proc.devRef .tc r ∉ op.writes := by
  simp only [hostOps0_12, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_13_spares_args : (hostOps0_13 : List (HloOp τ sig (Elt F))).Forall fun op => ∀ r ∈ mainArgs, Proc.devRef .tc r ∉ op.writes := by
  simp only [hostOps0_13, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_14_spares_args : (hostOps0_14 : List (HloOp τ sig (Elt F))).Forall fun op => ∀ r ∈ mainArgs, Proc.devRef .tc r ∉ op.writes := by
  simp only [hostOps0_14, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_15_spares_args : (hostOps0_15 : List (HloOp τ sig (Elt F))).Forall fun op => ∀ r ∈ mainArgs, Proc.devRef .tc r ∉ op.writes := by
  simp only [hostOps0_15, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
set_option maxHeartbeats 4000000 in
theorem hostOps0_16_spares_args : (hostOps0_16 : List (HloOp τ sig (Elt F))).Forall fun op => ∀ r ∈ mainArgs, Proc.devRef .tc r ∉ op.writes := by
  simp only [hostOps0_16, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_17_spares_args : (hostOps0_17 : List (HloOp τ sig (Elt F))).Forall fun op => ∀ r ∈ mainArgs, Proc.devRef .tc r ∉ op.writes := by
  simp only [hostOps0_17, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_18_spares_args : (hostOps0_18 : List (HloOp τ sig (Elt F))).Forall fun op => ∀ r ∈ mainArgs, Proc.devRef .tc r ∉ op.writes := by
  simp only [hostOps0_18, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_19_spares_args : (hostOps0_19 : List (HloOp τ sig (Elt F))).Forall fun op => ∀ r ∈ mainArgs, Proc.devRef .tc r ∉ op.writes := by
  simp only [hostOps0_19, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_20_spares_args : (hostOps0_20 : List (HloOp τ sig (Elt F))).Forall fun op => ∀ r ∈ mainArgs, Proc.devRef .tc r ∉ op.writes := by
  simp only [hostOps0_20, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_21_spares_args : (hostOps0_21 : List (HloOp τ sig (Elt F))).Forall fun op => ∀ r ∈ mainArgs, Proc.devRef .tc r ∉ op.writes := by
  simp only [hostOps0_21, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_22_spares_args : (hostOps0_22 : List (HloOp τ sig (Elt F))).Forall fun op => ∀ r ∈ mainArgs, Proc.devRef .tc r ∉ op.writes := by
  simp only [hostOps0_22, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
theorem hostOps0_23_spares_args : (hostOps0_23 : List (HloOp τ sig (Elt F))).Forall fun op => ∀ r ∈ mainArgs, Proc.devRef .tc r ∉ op.writes := by
  simp only [hostOps0_23, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))
set_option maxHeartbeats 4000000 in
theorem hostOps0_24_spares_args : (hostOps0_24 : List (HloOp τ sig (Elt F))).Forall fun op => ∀ r ∈ mainArgs, Proc.devRef .tc r ∉ op.writes := by
  simp only [hostOps0_24, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (ne_of_mem_of_not_mem hr (by decide))

/-- Every operation of every stretch before the region writes its own result buffer, never an argument. -/
theorem prefix_spares_args : ∀ op ∈ List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] : List (List (HloOp τ sig (Elt F)))),
    ∀ r ∈ mainArgs, Proc.devRef .tc r ∉ op.writes := by
  intro op hop
  obtain ⟨ops, hops, hmem⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps0_spares_args) op hmem
  · exact (List.forall_iff_forall_mem.mp hostOps0_1_spares_args) op hmem
  · exact (List.forall_iff_forall_mem.mp hostOps0_2_spares_args) op hmem
  · exact (List.forall_iff_forall_mem.mp hostOps0_3_spares_args) op hmem
  · exact (List.forall_iff_forall_mem.mp hostOps0_4_spares_args) op hmem
  · exact (List.forall_iff_forall_mem.mp hostOps0_5_spares_args) op hmem
  · exact (List.forall_iff_forall_mem.mp hostOps0_6_spares_args) op hmem
  · exact (List.forall_iff_forall_mem.mp hostOps0_7_spares_args) op hmem
  · exact (List.forall_iff_forall_mem.mp hostOps0_8_spares_args) op hmem
  · exact (List.forall_iff_forall_mem.mp hostOps0_9_spares_args) op hmem
  · exact (List.forall_iff_forall_mem.mp hostOps0_10_spares_args) op hmem
  · exact (List.forall_iff_forall_mem.mp hostOps0_11_spares_args) op hmem
  · exact (List.forall_iff_forall_mem.mp hostOps0_12_spares_args) op hmem
  · exact (List.forall_iff_forall_mem.mp hostOps0_13_spares_args) op hmem
  · exact (List.forall_iff_forall_mem.mp hostOps0_14_spares_args) op hmem
  · exact (List.forall_iff_forall_mem.mp hostOps0_15_spares_args) op hmem
  · exact (List.forall_iff_forall_mem.mp hostOps0_16_spares_args) op hmem
  · exact (List.forall_iff_forall_mem.mp hostOps0_17_spares_args) op hmem
  · exact (List.forall_iff_forall_mem.mp hostOps0_18_spares_args) op hmem
  · exact (List.forall_iff_forall_mem.mp hostOps0_19_spares_args) op hmem
  · exact (List.forall_iff_forall_mem.mp hostOps0_20_spares_args) op hmem
  · exact (List.forall_iff_forall_mem.mp hostOps0_21_spares_args) op hmem
  · exact (List.forall_iff_forall_mem.mp hostOps0_22_spares_args) op hmem
  · exact (List.forall_iff_forall_mem.mp hostOps0_23_spares_args) op hmem
  · exact (List.forall_iff_forall_mem.mp hostOps0_24_spares_args) op hmem

/-- So the region finds each argument as launched. -/
theorem V_arg (c : Dev nD) (r : Ref sig .tc) (hr : r ∈ mainArgs) : V m c r = m ((c : Thread nD τ).loc r) :=
  StableHlo.after_of_forall_not_mem (b := Proc.devRef .tc r) _ _ (fun op hop => prefix_spares_args op hop r hr)

theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)

/-- The reshape after the region writes its own result, no argument; and an argument is none of the seven
    arrays the region writes back to: it ends as launched. -/
theorem W_arg (dats' : (p : Fin 1) → (c : Dev nD) → Pipeline.Dat τ (Elt F) Unit ℕ (UR sig nD τ) ℕ (cfgs p) c) (c : Dev nD)
    (r : Ref sig .tc) (hr : r ∈ mainArgs) :
    Pipeline.afterTail₀ cfgs dats' 0 (V0 m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.Forall, StableHlo.reshape_writes, Finset.mem_singleton]
      exact StableHlo.devRef_ne_of_ne (ne_of_mem_of_not_mem hr (by decide)))),
    Pipeline.withArrays_of_ne _ c (V0 m c) _ r (fun w => (ne_of_mem_of_not_mem hr (by fin_cases w <;> decide)).symm)]
  exact V_arg m c r hr

theorem W_main_arg0 (dats' : (p : Fin 1) → (c : Dev nD) → Pipeline.Dat τ (Elt F) Unit ℕ (UR sig nD τ) ℕ (cfgs p) c) (c : Dev nD) :
    Pipeline.afterTail₀ cfgs dats' 0 (V0 m) [hostOps1] c main_arg0 = m ((c : Thread nD τ).loc main_arg0) := W_arg m dats' c main_arg0 (by decide)
theorem W_main_arg1 (dats' : (p : Fin 1) → (c : Dev nD) → Pipeline.Dat τ (Elt F) Unit ℕ (UR sig nD τ) ℕ (cfgs p) c) (c : Dev nD) :
    Pipeline.afterTail₀ cfgs dats' 0 (V0 m) [hostOps1] c main_arg1 = m ((c : Thread nD τ).loc main_arg1) := W_arg m dats' c main_arg1 (by decide)
theorem W_main_arg2 (dats' : (p : Fin 1) → (c : Dev nD) → Pipeline.Dat τ (Elt F) Unit ℕ (UR sig nD τ) ℕ (cfgs p) c) (c : Dev nD) :
    Pipeline.afterTail₀ cfgs dats' 0 (V0 m) [hostOps1] c main_arg2 = m ((c : Thread nD τ).loc main_arg2) := W_arg m dats' c main_arg2 (by decide)
theorem W_main_arg3 (dats' : (p : Fin 1) → (c : Dev nD) → Pipeline.Dat τ (Elt F) Unit ℕ (UR sig nD τ) ℕ (cfgs p) c) (c : Dev nD) :
    Pipeline.afterTail₀ cfgs dats' 0 (V0 m) [hostOps1] c main_arg3 = m ((c : Thread nD τ).loc main_arg3) := W_arg m dats' c main_arg3 (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds that window's block when the body is called, fetched at this
    point or not (a window not fetched here has not moved), for any proof data whose array is the region-entry
    contents and whose body leaves the block where it was: the windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data: a run ending with every buffer outside the seven arrays at what the reshape after the
    region leaves is a run ending with the four arguments as launched, an argument being none of the arrays. -/
theorem frame_of (dats' : (p : Fin 1) → (c : Dev nD) → Dat τ (Elt F) Unit ℕ (UR sig nD τ) ℕ (cfgs p) c)
    (h : θ_run defs (onTc (τ := τ) (main (F := F))) (s₀ m ρ) (Pipeline.FramePost cfgs dats' 0 (Pipeline.afterTail₀ cfgs dats' 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats' c),
     ((h c).2 main_arg1 (Pipeline.mem_restRefs_of main_arg1 (by decide) (by decide))).trans (W_main_arg1 m dats' c),
     ((h c).2 main_arg2 (Pipeline.mem_restRefs_of main_arg2 (by decide) (by decide))).trans (W_main_arg2 m dats' c),
     ((h c).2 main_arg3 (Pipeline.mem_restRefs_of main_arg3 (by decide) (by decide))).trans (W_main_arg3 m dats' c)⟩) h

/-! ## What the body computes -/

/-- The whole of a value block (4096 x 3 x 32) and the whole of a weight block (4096 x 3 x 1). -/
abbrev wholeValue : Rect S4096x3x32 := Rect.unit (s := S4096x3x32) ![0, 0, 0] S4096x3x32.size inb_S4096x3x32_S4096x3x32_0_0_0
abbrev wholeWeight : Rect S4096x3x1 := Rect.unit (s := S4096x3x1) ![0, 0, 0] S4096x3x1.size inb_S4096x3x1_S4096x3x1_0_0_0

/-- What the body leaves in the output block, from the six input blocks: its one store, of the blend of the
    four value blocks `x0 … x3` by the products of the weights `x4`, `x5` and their complements to one. -/
def out0_6 (x0 x1 x2 x3 : Vec F S4096x3x32 .f32) (x4 x5 : Vec F S4096x3x1 .f32) : Vec F S4096x3x32 .f32 :=
  View.canon [⟨wholeValue, k0_pay1 (View.ld x4 wholeWeight) (View.ld x5 wholeWeight) (View.ld x0 wholeValue) (View.ld x1 wholeValue) (View.ld x2 wholeValue) (View.ld x3 wholeValue)⟩]

/-- The one store is of the whole block: every index of the output block lies in it. -/
theorem store_covers (p : Vec F S4096x3x32 .f32) (y : S4096x3x32.Idx) :
    ∃ pc ∈ ([⟨wholeValue, p⟩] : List (View.Piece (Elt F) S4096x3x32 .f32)), y ∈ pc.1.set :=
  View.cover_of_tiled [⟨wholeValue, p⟩] S4096x3x32.size (by rfl) y

set_option maxHeartbeats 1000000 in
/-- The body on whole staging buffers, the six inputs' at `x0 … x5` and the output's at anything: it loads the
    six blocks whole, reads the output block (the value read is dropped), stores the blend over the whole output
    block, and returns with the inputs' buffers as they were and the output's at `out0_6` of them. -/
theorem sound_kernel (c : Dev nD) (E : Set ℕ) (i : grid0.Coords)
    (arg1 : Memref sig .tc .vmem S4096x3x32 .f32) (harg1 : arg1.IsWhole) (arg2 : Memref sig .tc .vmem S4096x3x32 .f32) (harg2 : arg2.IsWhole)
    (arg3 : Memref sig .tc .vmem S4096x3x32 .f32) (harg3 : arg3.IsWhole) (arg4 : Memref sig .tc .vmem S4096x3x32 .f32) (harg4 : arg4.IsWhole)
    (arg5 : Memref sig .tc .vmem S4096x3x1 .f32) (harg5 : arg5.IsWhole) (arg6 : Memref sig .tc .vmem S4096x3x1 .f32) (harg6 : arg6.IsWhole)
    (arg7 : Memref sig .tc .vmem S4096x3x32 .f32) (harg7 : arg7.IsWhole)
    (x0 x1 x2 x3 : Vec F S4096x3x32 .f32) (x4 x5 : Vec F S4096x3x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

/-! ## The proof data of the pipeline -/

/-- On core `c`: the arrays as the region finds them; after the body at point `t` each input's buffer at its
    block and the output's at the blend of the six input blocks; the invariant is the scoped rest and the
    generator register, untouched; full shares; nothing owed. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents, by projection (the fold stays folded). -/
theorem A_eq (c : Dev nD) (w : Fin cfg0.W) : (dats m 0 c).A w = V m c (Pipeline.arrRef spec0 w) := by
  dsimp only [dats]

/-- What the body leaves, window by window, by projection. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

/-- Each input's staging buffer holds its block when the body is called. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`: the invariant, what the core owes, and the seven staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates,
    with every array of the pipeline at what the proof data give and every other unscoped buffer as the reshape
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- THE FRAME: @main runs to the end and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.Bilinear.lean ====
/-
  Bilinear sampling of three feature planes, point by point: the specification both programs are proved to compute.

  For a coordinate g, the pixel coordinate is  pix g = clip(reflect((g + 1) * 0.5 * 512), 0, 512)  where reflect takes
  a = |(g + 1) * 0.5 * 512|, r = a - 1024 * floor(a / 1024), and returns 1024 - r where r > 512, else r. Its cell is
  floor(pix g) as a 32-bit integer, the next cell min(cell + 1, 512), its weight w = pix g - floor(pix g). A plane P of shape
  [32, 513, 513] is read at channel ch and a (row, column) cell pair, each index first wrapped (i + 513 where i < 0) and then
  clamped into [0, 512]. The sample is the bilinear blend of the four corner texels with weights (1 - wx)(1 - wy), wx(1 - wy),
  (1 - wx)wy, wx wy. The two programs group each weight product differently:  v * (a * b)  against  (v * a) * b ; on the
  extended reals multiplication is associative, so the two blends are one function (no finiteness is needed).
-/
import Idealize.ShloMosaic.PureOps.Ideal
import Idealize.ShloMosaic.Lib.ValueIdx

noncomputable section

namespace Cert.Bilinear

open Idealize.ShloMosaic Idealize.ShloMosaic.ValueIdx

variable {F : FTy → Type} [FloatOps F]

/-- A float constant by its binary word. -/
def kS (w : BitVec 32) : F .f32 := FloatOps.ofBits .f32 w

/-- |(g + 1) · 0.5 · 512| -/
def scaledS (g : F .f32) : F .f32 :=
  FloatOps.hostAbsf (FloatOps.mulf (FloatOps.mulf (FloatOps.addf g (kS 0x3F800000#32)) (kS 0x3F000000#32)) (kS 0x44000000#32))
/-- its remainder modulo 1024 -/
def remS (g : F .f32) : F .f32 :=
  FloatOps.subf (scaledS g) (FloatOps.mulf (kS 0x44800000#32) (FloatOps.hostUnary .floor (FloatOps.hostDivf (scaledS g) (kS 0x44800000#32))))
/-- folded back where it exceeds 512 -/
def foldedS (g : F .f32) : F .f32 :=
  Scalar.select (FloatOps.cmpf .ogt (remS g) (kS 0x44000000#32)) (FloatOps.subf (kS 0x44800000#32) (remS g)) (remS g)
/-- and clipped to [0, 512]: the pixel coordinate -/
def pixS (g : F .f32) : F .f32 := FloatOps.minimumf (kS 0x44000000#32) (FloatOps.maximumf (kS 0x00000000#32) (foldedS g))

/-- The interpolation weight. -/
def fracS (g : F .f32) : F .f32 := FloatOps.subf (pixS g) (FloatOps.hostUnary .floor (pixS g))
/-- The pixel's cell and the next cell. -/
def cellS (g : F .f32) : BitVec 32 := FloatOps.fptosi 32 (FloatOps.hostUnary .floor (pixS g))
def nextS (g : F .f32) : BitVec 32 := IntOp.minsi (IntOp.addi (cellS g) 1#32) 512#32
/-- The wrap of a negative index. -/
def wrapS (i : BitVec 32) : BitVec 32 := Scalar.select (IntOp.cmpi .slt i 0#32) (IntOp.addi i 513#32) i
/-- A signed index clamped into [0, 512], as a position on an axis of extent 513. -/
def posS (i : BitVec 32) : Fin 513 := ⟨min i.toInt.toNat 512, by omega⟩

/-- The plane's value in channel `ch` at the (row, column) cell pair, each wrapped and clamped. -/
def texel (P : (⟨3, ![32, 513, 513]⟩ : Shape).Idx → F .f32) (ch : Fin 32) (iy ix : BitVec 32) : F .f32 :=
  P (ix3 ch (posS (wrapS iy)) (posS (wrapS ix)))

/-- The blend with each weight product formed first (the kernel's grouping). -/
def blendK (v00 v01 v10 v11 wx wy : F .f32) : F .f32 :=
  FloatOps.addf (FloatOps.addf (FloatOps.addf
    (FloatOps.mulf v00 (FloatOps.mulf (FloatOps.subf (kS 0x3F800000#32) wx) (FloatOps.subf (kS 0x3F800000#32) wy)))
    (FloatOps.mulf v01 (FloatOps.mulf wx (FloatOps.subf (kS 0x3F800000#32) wy))))
    (FloatOps.mulf v10 (FloatOps.mulf (FloatOps.subf (kS 0x3F800000#32) wx) wy)))
    (FloatOps.mulf v11 (FloatOps.mulf wx wy))
/-- The blend with the texel multiplied by one weight after the other (the reference's grouping). -/
def blendR (v00 v01 v10 v11 wx wy : F .f32) : F .f32 :=
  FloatOps.addf (FloatOps.addf (FloatOps.addf
    (FloatOps.mulf (FloatOps.mulf v00 (FloatOps.subf (kS 0x3F800000#32) wx)) (FloatOps.subf (kS 0x3F800000#32) wy))
    (FloatOps.mulf (FloatOps.mulf v01 wx) (FloatOps.subf (kS 0x3F800000#32) wy)))
    (FloatOps.mulf (FloatOps.mulf v10 (FloatOps.subf (kS 0x3F800000#32) wx)) wy))
    (FloatOps.mulf (FloatOps.mulf v11 wx) wy)

/-- One plane sampled at the point with coordinates (gx, gy), in channel `ch`, under a given blend. -/
def sampleS (blend : F .f32 → F .f32 → F .f32 → F .f32 → F .f32 → F .f32 → F .f32)
    (P : (⟨3, ![32, 513, 513]⟩ : Shape).Idx → F .f32) (ch : Fin 32) (gx gy : F .f32) : F .f32 :=
  blend (texel P ch (cellS gy) (cellS gx)) (texel P ch (cellS gy) (nextS gx))
    (texel P ch (nextS gy) (cellS gx)) (texel P ch (nextS gy) (nextS gx)) (fracS gx) (fracS gy)

/-- Which coordinate column feeds the x (column) and the y (row) coordinate of each plane. -/
def gxCol : Fin 3 → Fin 3 := ![1, 0, 0]
def gyCol : Fin 3 → Fin 3 := ![2, 2, 1]

/-- THE SPECIFICATION: the result at point (b, s), plane p, channel ch. -/
def spec (blend : F .f32 → F .f32 → F .f32 → F .f32 → F .f32 → F .f32 → F .f32)
    (x : (⟨3, ![4, 262144, 3]⟩ : Shape).Idx → F .f32) (P : Fin 3 → (⟨3, ![32, 513, 513]⟩ : Shape).Idx → F .f32)
    (b : Fin 4) (s : Fin 262144) (p : Fin 3) (ch : Fin 32) : F .f32 :=
  sampleS blend (P p) ch (x (ix3 b s (gxCol p))) (x (ix3 b s (gyCol p)))

/-- On the extended reals the two groupings of the blend agree: multiplication is associative. -/
theorem blendK_eq_blendR (v00 v01 v10 v11 wx wy : Ideal .f32) :
    blendK (F := Ideal) v00 v01 v10 v11 wx wy = blendR (F := Ideal) v00 v01 v10 v11 wx wy := by
  unfold blendK blendR
  simp only [Ideal.mulf_def, mul_assoc]

theorem spec_blendK_eq_blendR (x : (⟨3, ![4, 262144, 3]⟩ : Shape).Idx → Ideal .f32)
    (P : Fin 3 → (⟨3, ![32, 513, 513]⟩ : Shape).Idx → Ideal .f32) (b : Fin 4) (s : Fin 262144) (p : Fin 3) (ch : Fin 32) :
    spec (F := Ideal) blendK x P b s p ch = spec (F := Ideal) blendR x P b s p ch := by
  unfold spec sampleS
  exact blendK_eq_blendR _ _ _ _ _ _

end Cert.Bilinear

end
-- ==== Proof.KernelRegionValue.lean ====
/- THE VALUE of the kernel program's one region and of the reshape that follows it.

   The region's body is pointwise: at each entry of its 4096 x 3 x 32 output block it blends the four value blocks
   by the products of the two weights (and of their complements to one) found at the same row and plane; the
   weights carry no channel axis and are broadcast along it. The 256 grid points' blocks are the consecutive
   stretches of 4096 rows, so they tile the 1048576 rows of the output array, and the array ends holding the same
   blend of the six WHOLE window arrays, entry by entry (`regionOut`). The reshape after the region regroups the
   row axis 1048576 = 4 x 262144 and moves no value: entry (b, s, p, ch) of the result is entry
   (262144 b + s, p, ch) of the region's output. -/
import proofs.«157496_j37812892074356_1_alg».proof.Proof.KernelIdealFrame
import proofs.«157496_j37812892074356_1_alg».proof.Proof.Bilinear
import Idealize.ShloMosaic.Lib.Pipeline.Value
import Idealize.ShloMosaic.Lib.ValueIdx

set_option maxRecDepth 16384

noncomputable section

namespace Cert.KernelIdeal.Region

open Cert.KernelIdeal Cert.KernelIdeal.Gen Cert.KernelIdeal.Fr Cert.Bilinear
open Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- what the region leaves in its output array, as one function of the six window arrays -/
def regionOut (a0 a1 a2 a3 : S1048576x3x32.Idx → F .f32) (a4 a5 : S1048576x3x1.Idx → F .f32) : S1048576x3x32.Idx → F .f32 :=
  fun j => blendK (a0 j) (a1 j) (a2 j) (a3 j) (a4 (ix3 (j 0) (j 1) 0)) (a5 (ix3 (j 0) (j 1) 0))

/-- The reshape after the region at an index: the row axis is regrouped, 1048576 = 4 x 262144. -/
theorem reshape_out_at {α : Type} (y : S1048576x3x32.Idx → α) (b : Fin 4) (s : Fin 262144) (p : Fin 3) (ch : Fin 32) :
    shapeCast S4x262144x3x32 y shapeCasts_S1048576x3x32_S4x262144x3x32 (ix4 b s p ch) = y (ix3 ⟨b.val * 262144 + s.val, by omega⟩ p ch) :=
  shapeCast_apply y shapeCasts_S1048576x3x32_S4x262144x3x32 _ _ (by
    rw [Shape.rowMajor_val_three, Shape.rowMajor_val_four]
    show ((b.val * 262144 + s.val) * 3 + p.val) * 32 + ch.val = ((b.val * 262144 + s.val) * 3 + p.val) * 32 + ch.val
    rfl)

/-! ## The body's payload at an index -/

/-- A weight block has no channel axis: broadcast along it, entry (r, p, ch) is the weight at (r, p, 0). -/
theorem weight_broadcast_at {α : Type} (x : S4096x3x1.Idx → α) (r : Fin 4096) (p : Fin 3) (ch : Fin 32) :
    broadcastTo S4096x3x32 x broadcasts_S4096x3x1_S4096x3x32 (ix3 r p ch) = x (ix3 r p 0) :=
  broadcastTo_apply x broadcasts_S4096x3x1_S4096x3x32 _ _ (fun a => by
    match a with
    | ⟨0, _⟩ => show r.val = if (4096 : ℕ) = 1 then 0 else r.val; rw [if_neg (by decide)]
    | ⟨1, _⟩ => show p.val = if (3 : ℕ) = 1 then 0 else p.val; rw [if_neg (by decide)]
    | ⟨2, _⟩ => show (0 : ℕ) = if (1 : ℕ) = 1 then 0 else ch.val; rw [if_pos rfl])

/-- THE PAYLOAD AT AN ENTRY: the blend of the four value blocks' entries by the two weights of the entry's row
    and plane, each weight product formed first. -/
theorem payload_at (wx wy : Vec F S4096x3x1 .f32) (v00 v01 v10 v11 : Vec F S4096x3x32 .f32) (r : Fin 4096) (p : Fin 3) (ch : Fin 32) :
    k0_pay1 wx wy v00 v01 v10 v11 (ix3 r p ch)
      = blendK (v00 (ix3 r p ch)) (v01 (ix3 r p ch)) (v10 (ix3 r p ch)) (v11 (ix3 r p ch)) (wx (ix3 r p 0)) (wy (ix3 r p 0)) := by
  unfold k0_pay1
  simp only [shapeCast_self]
  show FloatOps.addf (FloatOps.addf (FloatOps.addf
      (FloatOps.mulf (v00 (ix3 r p ch)) (broadcastTo S4096x3x32 _ broadcasts_S4096x3x1_S4096x3x32 (ix3 r p ch)))
      (FloatOps.mulf (v01 (ix3 r p ch)) (broadcastTo S4096x3x32 _ broadcasts_S4096x3x1_S4096x3x32 (ix3 r p ch))))
      (FloatOps.mulf (v10 (ix3 r p ch)) (broadcastTo S4096x3x32 _ broadcasts_S4096x3x1_S4096x3x32 (ix3 r p ch))))
      (FloatOps.mulf (v11 (ix3 r p ch)) (broadcastTo S4096x3x32 _ broadcasts_S4096x3x1_S4096x3x32 (ix3 r p ch))) = _
  rw [weight_broadcast_at, weight_broadcast_at, weight_broadcast_at, weight_broadcast_at]
  rfl

/-! ## What one grid point writes back -/

theorem zero_offsets : (![0, 0, 0] : Fin 3 → Nat) = fun _ => 0 := funext fun a => by fin_cases a <;> rfl

/-- WHAT THE BODY LEAVES in its output block, entry by entry: its one store covers the block, and each load reads a
    whole input block, so entry (r, p, ch) is the blend of the value blocks' entries there by the weights at (r, p). -/
theorem out_at (x0 x1 x2 x3 : Vec F S4096x3x32 .f32) (x4 x5 : Vec F S4096x3x1 .f32) (r : Fin 4096) (p : Fin 3) (ch : Fin 32) :
    out0_6 x0 x1 x2 x3 x4 x5 (ix3 r p ch)
      = blendK (x0 (ix3 r p ch)) (x1 (ix3 r p ch)) (x2 (ix3 r p ch)) (x3 (ix3 r p ch)) (x4 (ix3 r p 0)) (x5 (ix3 r p 0)) := by
  unfold out0_6
  rw [View.canon_unit_zero zero_offsets]
  simp only [View.ld_unit_zero (S := S4096x3x32) zero_offsets, View.ld_unit_zero (S := S4096x3x1) zero_offsets]
  exact payload_at x4 x5 x0 x1 x2 x3 r p ch

/-- The seven index maps, decided over the grid: at point `t` every window's block index is (t, 0, 0). -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

theorem point_lt (t : Fin cfg0.N) : t.val < 256 := lt_of_lt_of_eq t.isLt N_0

/-- Row `r` of point `t`'s block is row 4096 t + r of the array. -/
abbrev arrayRow (t : Fin cfg0.N) (r : Fin 4096) : Fin 1048576 := ⟨t.val * 4096 + r.val, by have := point_lt t; omega⟩

/-- Where entry (r, p, ch) of point `t`'s block lies in its array, for the four value windows and the output window. -/
theorem value_entry0 (t : Fin cfg0.N) (r : Fin 4096) (p : Fin 3) (ch : Fin 32) :
    ((cfg0.win 0).blk t).view.emb (ix3 r p ch) = ix3 (arrayRow t r) p ch := by
  obtain ⟨⟨e0, e1, e2⟩, -⟩ := block_index t
  funext a; apply Fin.ext
  match a with
  | ⟨0, _⟩ => show win0_0.index t (0 : Fin 3) * 4096 + 1 * r.val = t.val * 4096 + r.val; omega
  | ⟨1, _⟩ => show win0_0.index t (1 : Fin 3) * 3 + 1 * p.val = p.val; omega
  | ⟨2, _⟩ => show win0_0.index t (2 : Fin 3) * 32 + 1 * ch.val = ch.val; omega
theorem value_entry1 (t : Fin cfg0.N) (r : Fin 4096) (p : Fin 3) (ch : Fin 32) :
    ((cfg0.win 1).blk t).view.emb (ix3 r p ch) = ix3 (arrayRow t r) p ch := by
  obtain ⟨-, ⟨e0, e1, e2⟩, -⟩ := block_index t
  funext a; apply Fin.ext
  match a with
  | ⟨0, _⟩ => show win0_1.index t (0 : Fin 3) * 4096 + 1 * r.val = t.val * 4096 + r.val; omega
  | ⟨1, _⟩ => show win0_1.index t (1 : Fin 3) * 3 + 1 * p.val = p.val; omega
  | ⟨2, _⟩ => show win0_1.index t (2 : Fin 3) * 32 + 1 * ch.val = ch.val; omega
theorem value_entry2 (t : Fin cfg0.N) (r : Fin 4096) (p : Fin 3) (ch : Fin 32) :
    ((cfg0.win 2).blk t).view.emb (ix3 r p ch) = ix3 (arrayRow t r) p ch := by
  obtain ⟨-, -, ⟨e0, e1, e2⟩, -⟩ := block_index t
  funext a; apply Fin.ext
  match a with
  | ⟨0, _⟩ => show win0_2.index t (0 : Fin 3) * 4096 + 1 * r.val = t.val * 4096 + r.val; omega
  | ⟨1, _⟩ => show win0_2.index t (1 : Fin 3) * 3 + 1 * p.val = p.val; omega
  | ⟨2, _⟩ => show win0_2.index t (2 : Fin 3) * 32 + 1 * ch.val = ch.val; omega
theorem value_entry3 (t : Fin cfg0.N) (r : Fin 4096) (p : Fin 3) (ch : Fin 32) :
    ((cfg0.win 3).blk t).view.emb (ix3 r p ch) = ix3 (arrayRow t r) p ch := by
  obtain ⟨-, -, -, ⟨e0, e1, e2⟩, -⟩ := block_index t
  funext a; apply Fin.ext
  match a with
  | ⟨0, _⟩ => show win0_3.index t (0 : Fin 3) * 4096 + 1 * r.val = t.val * 4096 + r.val; omega
  | ⟨1, _⟩ => show win0_3.index t (1 : Fin 3) * 3 + 1 * p.val = p.val; omega
  | ⟨2, _⟩ => show win0_3.index t (2 : Fin 3) * 32 + 1 * ch.val = ch.val; omega
theorem out_entry (t : Fin cfg0.N) (r : Fin 4096) (p : Fin 3) (ch : Fin 32) :
    ((cfg0.win 6).blk t).view.emb (ix3 r p ch) = ix3 (arrayRow t r) p ch := by
  obtain ⟨-, -, -, -, -, -, e0, e1, e2⟩ := block_index t
  funext a; apply Fin.ext
  match a with
  | ⟨0, _⟩ => show win0_6.index t (0 : Fin 3) * 4096 + 1 * r.val = t.val * 4096 + r.val; omega
  | ⟨1, _⟩ => show win0_6.index t (1 : Fin 3) * 3 + 1 * p.val = p.val; omega
  | ⟨2, _⟩ => show win0_6.index t (2 : Fin 3) * 32 + 1 * ch.val = ch.val; omega
/-- The same for the two weight windows, whose blocks have one channel. -/
theorem weight_entry4 (t : Fin cfg0.N) (r : Fin 4096) (p : Fin 3) :
    ((cfg0.win 4).blk t).view.emb (ix3 r p 0) = ix3 (arrayRow t r) p 0 := by
  obtain ⟨-, -, -, -, ⟨e0, e1, e2⟩, -⟩ := block_index t
  funext a; apply Fin.ext
  match a with
  | ⟨0, _⟩ => show win0_4.index t (0 : Fin 3) * 4096 + 1 * r.val = t.val * 4096 + r.val; omega
  | ⟨1, _⟩ => show win0_4.index t (1 : Fin 3) * 3 + 1 * p.val = p.val; omega
  | ⟨2, _⟩ => show win0_4.index t (2 : Fin 3) * 1 + 1 * 0 = 0; omega
theorem weight_entry5 (t : Fin cfg0.N) (r : Fin 4096) (p : Fin 3) :
    ((cfg0.win 5).blk t).view.emb (ix3 r p 0) = ix3 (arrayRow t r) p 0 := by
  obtain ⟨-, -, -, -, -, ⟨e0, e1, e2⟩, -⟩ := block_index t
  funext a; apply Fin.ext
  match a with
  | ⟨0, _⟩ => show win0_5.index t (0 : Fin 3) * 4096 + 1 * r.val = t.val * 4096 + r.val; omega
  | ⟨1, _⟩ => show win0_5.index t (1 : Fin 3) * 3 + 1 * p.val = p.val; omega
  | ⟨2, _⟩ => show win0_5.index t (2 : Fin 3) * 1 + 1 * 0 = 0; omega

/-- POINT `t`'S BLOCK OF THE RESULT, from ANY six arrays read through the windows' blocks at `t`: every window's
    block at `t` is the same stretch of rows of its array, so the body's blend of the blocks is the blend of the
    arrays, read at the block's place. -/
theorem block_blend (t : Fin cfg0.N) (a0 a1 a2 a3 : S1048576x3x32.Idx → F .f32) (a4 a5 : S1048576x3x1.Idx → F .f32)
    (r : Fin 4096) (p : Fin 3) (ch : Fin 32) :
    out0_6 (((cfg0.win 0).blk t).view.read (Elt F) a0) (((cfg0.win 1).blk t).view.read (Elt F) a1)
        (((cfg0.win 2).blk t).view.read (Elt F) a2) (((cfg0.win 3).blk t).view.read (Elt F) a3)
        (((cfg0.win 4).blk t).view.read (Elt F) a4) (((cfg0.win 5).blk t).view.read (Elt F) a5) (ix3 r p ch)
      = regionOut a0 a1 a2 a3 a4 a5 (ix3 (arrayRow t r) p ch) := by
  refine (out_at _ _ _ _ _ _ r p ch).trans ?_
  show blendK (a0 (((cfg0.win 0).blk t).view.emb (ix3 r p ch))) (a1 (((cfg0.win 1).blk t).view.emb (ix3 r p ch)))
        (a2 (((cfg0.win 2).blk t).view.emb (ix3 r p ch))) (a3 (((cfg0.win 3).blk t).view.emb (ix3 r p ch)))
        (a4 (((cfg0.win 4).blk t).view.emb (ix3 r p 0))) (a5 (((cfg0.win 5).blk t).view.emb (ix3 r p 0)))
      = blendK (a0 (ix3 (arrayRow t r) p ch)) (a1 (ix3 (arrayRow t r) p ch)) (a2 (ix3 (arrayRow t r) p ch)) (a3 (ix3 (arrayRow t r) p ch))
        (a4 (ix3 (arrayRow t r) p 0)) (a5 (ix3 (arrayRow t r) p 0))
  rw [value_entry0 t r p ch, value_entry1 t r p ch, value_entry2 t r p ch, value_entry3 t r p ch, weight_entry4 t r p, weight_entry5 t r p]

/-- Each input window's block at `t` is its array, as the region finds it, read through the block. -/
theorem iblk0_eq (c : Dev nD) (t : Fin cfg0.N) : iblk m c 0 t = ((cfg0.win 0).blk t).view.read (Elt F) (V m c main_v352) := by unfold iblk; rfl
theorem iblk1_eq (c : Dev nD) (t : Fin cfg0.N) : iblk m c 1 t = ((cfg0.win 1).blk t).view.read (Elt F) (V m c main_v356) := by unfold iblk; rfl
theorem iblk2_eq (c : Dev nD) (t : Fin cfg0.N) : iblk m c 2 t = ((cfg0.win 2).blk t).view.read (Elt F) (V m c main_v360) := by unfold iblk; rfl
theorem iblk3_eq (c : Dev nD) (t : Fin cfg0.N) : iblk m c 3 t = ((cfg0.win 3).blk t).view.read (Elt F) (V m c main_v364) := by unfold iblk; rfl
theorem iblk4_eq (c : Dev nD) (t : Fin cfg0.N) : iblk m c 4 t = ((cfg0.win 4).blk t).view.read (Elt F) (V m c main_v369) := by unfold iblk; rfl
theorem iblk5_eq (c : Dev nD) (t : Fin cfg0.N) : iblk m c 5 t = ((cfg0.win 5).blk t).view.read (Elt F) (V m c main_v374) := by unfold iblk; rfl

/-- WHAT POINT `t` WRITES BACK is block `t` of `regionOut` of the six window arrays as the region finds them. -/
theorem flushed_eq (c : Dev nD) (t : Fin cfg0.N) :
    (dats m 0 c).flushed 6 t = ((cfg0.win 6).blk t).view.read (Elt F) (regionOut (V m c main_v352) (V m c main_v356) (V m c main_v360) (V m c main_v364) (V m c main_v369) (V m c main_v374)) := by
  show (cfg0.win 6).cut (grid0.coords t) ((dats m 0 c).after 6 t) = _
  rw [after0_6, iblk0_eq m c t, iblk1_eq m c t, iblk2_eq m c t, iblk3_eq m c t, iblk4_eq m c t, iblk5_eq m c t]
  funext j
  obtain ⟨r, p, ch, rfl⟩ : ∃ (r : Fin 4096) (p : Fin 3) (ch : Fin 32), j = ix3 r p ch := ⟨j 0, j 1, j 2, eq_ix3 j⟩
  have hx : (cfg0.win 6).xinj (grid0.coords t) (ix3 r p ch) = ix3 r p ch :=
    funext fun a => by match a with | ⟨0, _⟩ => rfl | ⟨1, _⟩ => rfl | ⟨2, _⟩ => rfl
  show out0_6 (((cfg0.win 0).blk t).view.read (Elt F) (V m c main_v352)) (((cfg0.win 1).blk t).view.read (Elt F) (V m c main_v356))
        (((cfg0.win 2).blk t).view.read (Elt F) (V m c main_v360)) (((cfg0.win 3).blk t).view.read (Elt F) (V m c main_v364))
        (((cfg0.win 4).blk t).view.read (Elt F) (V m c main_v369)) (((cfg0.win 5).blk t).view.read (Elt F) (V m c main_v374))
        ((cfg0.win 6).xinj (grid0.coords t) (ix3 r p ch))
      = regionOut (V m c main_v352) (V m c main_v356) (V m c main_v360) (V m c main_v364) (V m c main_v369) (V m c main_v374) (((cfg0.win 6).blk t).view.emb (ix3 r p ch))
  rw [hx, out_entry t r p ch]
  exact block_blend t (V m c main_v352) (V m c main_v356) (V m c main_v360) (V m c main_v364) (V m c main_v369) (V m c main_v374) r p ch

/-! ## From blocks to the array -/

/-- An index of the output array is in point `t`'s block iff each coordinate is in the block's range on its axis. -/
theorem mem_out_block (t : Fin cfg0.N) (i : S1048576x3x32.Idx) :
    i ∈ ((cfg0.win 6).blk t).view.set ↔ ∀ a : Fin 3, win0_6.index t a * S4096x3x32.size a ≤ (i a).val ∧ (i a).val < win0_6.index t a * S4096x3x32.size a + S4096x3x32.size a := by
  show i ∈ ((View.whole main_v375).slice (win0_6.rect t)).set ↔ _
  rw [View.set_slice_whole, Rect.mem_set_unit]
  exact Iff.rfl

/-- THE BLOCKS TILE THE ARRAY: row `i 0` lies in the block of point `(i 0) / 4096`. -/
theorem out_cover (i : S1048576x3x32.Idx) : ∃ t : Fin cfg0.N, (cfg0.win 6).flush t = true ∧ i ∈ ((cfg0.win 6).blk t).view.set := by
  have h0 : (i 0).val < 1048576 := (i 0).isLt
  have h1 : (i 1).val < 3 := (i 1).isLt
  have h2 : (i 2).val < 32 := (i 2).isLt
  have hN : cfg0.N = 256 := N_0
  let t : Fin cfg0.N := ⟨(i 0).val / 4096, by rw [hN]; omega⟩
  have ht : t.val = (i 0).val / 4096 := rfl
  obtain ⟨-, -, -, -, -, -, e0, e1, e2⟩ := block_index t
  refine ⟨t, flush0_6 t, ?_⟩
  rw [mem_out_block]
  intro a
  match a with
  | ⟨0, _⟩ => show win0_6.index t (0 : Fin 3) * 4096 ≤ (i 0).val ∧ (i 0).val < win0_6.index t (0 : Fin 3) * 4096 + 4096; omega
  | ⟨1, _⟩ => show win0_6.index t (1 : Fin 3) * 3 ≤ (i 1).val ∧ (i 1).val < win0_6.index t (1 : Fin 3) * 3 + 3; omega
  | ⟨2, _⟩ => show win0_6.index t (2 : Fin 3) * 32 ≤ (i 2).val ∧ (i 2).val < win0_6.index t (2 : Fin 3) * 32 + 32; omega

/-- THE OUTPUT ARRAY after the region: the blend of the six window arrays as the region finds them. -/
theorem final6 (c : Dev nD) : (dats m 0 c).arrAt 6 cfg0.N = regionOut (V m c main_v352) (V m c main_v356) (V m c main_v360) (V m c main_v364) (V m c main_v369) (V m c main_v374) :=
  (dats m 0 c).arrAt_eq_of_cover 6 (regionOut (V m c main_v352) (V m c main_v356) (V m c main_v360) (V m c main_v364) (V m c main_v369) (V m c main_v374))
    (fun t _ => flushed_eq m c t) out_cover

/-! ## The reshape after the region, and the run -/

/-- The reshape after the region, applied to what the region leaves in its output array. -/
theorem tail_value (c : Dev nD) :
    Pipeline.afterTail₀ cfgs (dats m) 0 (V0 m) [hostOps1] c main_v376
      = shapeCast S4x262144x3x32 (regionOut (V m c main_v352) (V m c main_v356) (V m c main_v360) (V m c main_v364) (V m c main_v369) (V m c main_v374)) shapeCasts_S1048576x3x32_S4x262144x3x32 := by
  unfold Pipeline.afterTail₀
  show StableHlo.after hostOps1 _ (Proc.devRef .tc main_v376) = _
  after_results
  have hA : Pipeline.withArrays (cfgs 0).spec c (V0 m c) (fun w => (dats m 0 c).arrAt w (cfgs 0).N) (Proc.devRef .tc main_v375)
      = regionOut (V m c main_v352) (V m c main_v356) (V m c main_v360) (V m c main_v364) (V m c main_v369) (V m c main_v374) :=
    (Pipeline.withArrays_arr spec0 launch0.win.arr_inj c _ _ 6).trans (final6 m c)
  rw [hA]
  rfl

/-- THE RUN, read: after the frame run the reshaped output holds the blend of the six window arrays as the region finds
    them, regrouped, and the four arguments end as launched. -/
theorem run_value : θ_run defs (onTc (τ := τ) (main (F := F))) ⟨m, fun _ => 0, ρ⟩ (fun r => ∀ c : Dev nD,
      r.2.mem ((c.tc : Thread nD τ).loc main_v376) = shapeCast S4x262144x3x32 (regionOut (V m c main_v352) (V m c main_v356) (V m c main_v360) (V m c main_v364) (V m c main_v369) (V m c main_v374)) shapeCasts_S1048576x3x32_S4x262144x3x32
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h c =>
      ⟨((h c).2 main_v376 (Pipeline.mem_restRefs_of main_v376 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Region

end
-- ==== Proof.KernelHostFns.lean ====
/-
  The kernel program's host computation before its one region, as array-level functions of the four argument arrays.

  For a query point with coordinate g in one axis, the pixel coordinate is  pix g = clip(reflect((g + 1) * 0.5 * 512), 0, 512),
  where reflect folds |.| back into [0, 512] with period 1024: r = a - 1024 * floor(a / 1024), then 1024 - r where r > 512.
  Its integer cell is floor(pix g) (as a 32-bit integer), the next cell min(cell + 1, 512), and its fractional part the
  interpolation weight. A corner value is the plane read at (row cell, column cell) for every channel; the wrap of a negative
  index (i < 0 ? i + 513 : i) stands in front of each gather. All of this is the program's own text, folded into named functions.
-/
import proofs.«157496_j37812892074356_1_alg».proof.Proof.Gen.KernelIdeal

noncomputable section

namespace Cert.KernelIdeal.Host

open Cert.KernelIdeal Cert.KernelIdeal.Gen Idealize.ShloMosaic Idealize.ShloMosaic.TcCoe Idealize.SL.Sem

variable {F : FTy → Type} [FloatOps F]

/-- A vector over the N = 4·262144 query points. -/
abbrev PtF (F : FTy → Type) [FloatOps F] := (⟨S1048576, .f32⟩ : BufTy).Contents (Elt F)
abbrev PtI (F : FTy → Type) [FloatOps F] := (⟨S1048576, .i32⟩ : BufTy).Contents (Elt F)
abbrev Plane (F : FTy → Type) [FloatOps F] := (⟨S32x513x513, .f32⟩ : BufTy).Contents (Elt F)
abbrev Pts (F : FTy → Type) [FloatOps F] := (⟨S4x262144x3, .f32⟩ : BufTy).Contents (Elt F)

/-- A float constant at every point. -/
def kf (w : BitVec 32) : PtF F := broadcastInDim S1048576 ![] bcast_S_S1048576 (constant S_ .f32 w)
/-- The same constant after the clip function's (identity) convert. -/
def kfc (w : BitVec 32) : PtF F := broadcastInDim S1048576 ![] bcast_S_S1048576 (id (constant S_ .f32 w))
/-- An integer constant at every point. -/
def ki (w : BitVec 32) : PtI F := broadcastInDim S1048576 ![] bcast_S_S1048576 (constantI S_ 32 w)

/-- The points as an [N, 3] array, and its three columns as vectors. -/
def flatPts (x : Pts F) : (⟨S1048576x3, .f32⟩ : BufTy).Contents (Elt F) := shapeCast _ x shapeCasts_S4x262144x3_S1048576x3
def col0 (x : Pts F) : PtF F := shapeCast _ (extractStridedSlice S1048576x1 ![0, 0] (flatPts x) slices_S1048576x3_S1048576x1_0_0) shapeCasts_S1048576x1_S1048576
def col1 (x : Pts F) : PtF F := shapeCast _ (extractStridedSlice S1048576x1 ![0, 1] (flatPts x) slices_S1048576x3_S1048576x1_0_1) shapeCasts_S1048576x1_S1048576
def col2 (x : Pts F) : PtF F := shapeCast _ (extractStridedSlice S1048576x1 ![0, 2] (flatPts x) slices_S1048576x3_S1048576x1_0_2) shapeCasts_S1048576x1_S1048576

/-- |(g + 1) · 0.5 · 512| -/
def scaled (g : PtF F) : PtF F := Host.absf (F := F) (mulf (F := F) (mulf (F := F) (addf (F := F) g (kf 0x3F800000#32)) (kf 0x3F000000#32)) (kf 0x44000000#32))
/-- its remainder modulo 1024 -/
def rem1024 (g : PtF F) : PtF F := subf (F := F) (scaled g) (mulf (F := F) (kf 0x44800000#32) (Host.floor (F := F) (Host.divf (F := F) (scaled g) (kf 0x44800000#32))))
/-- folded back where it exceeds 512 -/
def folded (g : PtF F) : PtF F := select (cmpf (F := F) .ogt (rem1024 g) (kf 0x44000000#32)) (subf (F := F) (kf 0x44800000#32) (rem1024 g)) (rem1024 g)
/-- and clipped to [0, 512]: the pixel coordinate -/
def pix (g : PtF F) : PtF F := minimumf (F := F) (kfc 0x44000000#32) (maximumf (F := F) (kfc 0x00000000#32) (folded g))

/-- The interpolation weight: the pixel coordinate's fractional part. -/
def frac (g : PtF F) : PtF F := subf (F := F) (pix g) (Host.floor (F := F) (pix g))
/-- The pixel's cell, and the next cell (kept inside the plane). -/
def cell (g : PtF F) : PtI F := fptosi (F := F) 32 (Host.floor (F := F) (pix g))
def cellNext (g : PtF F) : PtI F := minsi (addi (cell g) (ki (F := F) 1#32)) (ki (F := F) 512#32)
/-- The wrap of a negative index: i + 513 where i < 0. -/
def wrapNeg (i : PtI F) : PtI F := select (cmpi .slt i (ki (F := F) 0#32)) (addi i (ki (F := F) 513#32)) i

/-- The (row, column) index pairs of a gather, as an [N, 2] integer array. -/
def pairs (iy ix : PtI F) : (⟨S1048576x2, .i32⟩ : BufTy).Contents (Elt F) :=
  concatenate S1048576x2 1 [⟨S1048576x1, broadcastInDim S1048576x1 ![0] bcast_S1048576_S1048576x1_0 (wrapNeg iy)⟩,
    ⟨S1048576x1, broadcastInDim S1048576x1 ![0] bcast_S1048576_S1048576x1_0 (wrapNeg ix)⟩] concatenates_S1048576x1_S1048576x1_S1048576x2_d1
/-- The plane read at those pairs, for every channel: [N, 32]. -/
def corner (P : Plane F) (iy ix : PtI F) : (⟨S1048576x32, .f32⟩ : BufTy).Contents (Elt F) :=
  transpose S1048576x32 [1, 0] (Host.gather gather_S32x513x513_S1048576x2_S32x1048576_0_12_n_n_12_1_3211 P (pairs iy ix)) transposes_S32x1048576_S1048576x32_1_0

/-- Three per-plane [N, 32] arrays stacked on a new middle axis: [N, 3, 32]. -/
def stack32 (a b c : (⟨S1048576x32, .f32⟩ : BufTy).Contents (Elt F)) : (⟨S1048576x3x32, .f32⟩ : BufTy).Contents (Elt F) :=
  concatenate S1048576x3x32 1 [⟨S1048576x1x32, broadcastInDim S1048576x1x32 ![0, 2] bcast_S1048576x32_S1048576x1x32_0_2 a⟩,
    ⟨S1048576x1x32, broadcastInDim S1048576x1x32 ![0, 2] bcast_S1048576x32_S1048576x1x32_0_2 b⟩,
    ⟨S1048576x1x32, broadcastInDim S1048576x1x32 ![0, 2] bcast_S1048576x32_S1048576x1x32_0_2 c⟩] concatenates_S1048576x1x32_S1048576x1x32_S1048576x1x32_S1048576x3x32_d1
/-- Three per-plane weight vectors stacked: [N, 3, 1]. -/
def stack1 (a b c : PtF F) : (⟨S1048576x3x1, .f32⟩ : BufTy).Contents (Elt F) :=
  broadcastInDim S1048576x3x1 ![0, 1] bcast_S1048576x3_S1048576x3x1_0_1
    (concatenate S1048576x3 1 [⟨S1048576x1, broadcastInDim S1048576x1 ![0] bcast_S1048576_S1048576x1_0 a⟩,
      ⟨S1048576x1, broadcastInDim S1048576x1 ![0] bcast_S1048576_S1048576x1_0 b⟩,
      ⟨S1048576x1, broadcastInDim S1048576x1 ![0] bcast_S1048576_S1048576x1_0 c⟩] concatenates_S1048576x1_S1048576x1_S1048576x1_S1048576x3_d1)

/-! The six window arrays. Plane 0 samples columns (1, 2) as (x, y), plane 1 columns (0, 2), plane 2 columns (0, 1). -/

def win_v00 (x : Pts F) (P1 P2 P3 : Plane F) := stack32 (corner P1 (cell (col2 x)) (cell (col1 x))) (corner P2 (cell (col2 x)) (cell (col0 x))) (corner P3 (cell (col1 x)) (cell (col0 x)))
def win_v01 (x : Pts F) (P1 P2 P3 : Plane F) := stack32 (corner P1 (cell (col2 x)) (cellNext (col1 x))) (corner P2 (cell (col2 x)) (cellNext (col0 x))) (corner P3 (cell (col1 x)) (cellNext (col0 x)))
def win_v10 (x : Pts F) (P1 P2 P3 : Plane F) := stack32 (corner P1 (cellNext (col2 x)) (cell (col1 x))) (corner P2 (cellNext (col2 x)) (cell (col0 x))) (corner P3 (cellNext (col1 x)) (cell (col0 x)))
def win_v11 (x : Pts F) (P1 P2 P3 : Plane F) := stack32 (corner P1 (cellNext (col2 x)) (cellNext (col1 x))) (corner P2 (cellNext (col2 x)) (cellNext (col0 x))) (corner P3 (cellNext (col1 x)) (cellNext (col0 x)))
def win_wx (x : Pts F) := stack1 (frac (col1 x)) (frac (col0 x)) (frac (col0 x))
def win_wy (x : Pts F) := stack1 (frac (col2 x)) (frac (col2 x)) (frac (col1 x))

end Cert.KernelIdeal.Host

end
-- ==== Proof.LibHostLine.lean ====
/-
  Evaluating a line of host operations in one rewriting pass, through concatenates.

  (1) A host operation over a LITERAL family of three references (a concatenate of three operands), read at its own result buffer:
  each operand's contents appear AT THEIR OWN REFERENCE, as `Fin.cons (F a) (Fin.cons (F b) (Fin.cons (F c) _))`, rather than under a
  binder as `fun k => F (![a, b, c] k)`: under the binder the reference is not a literal and the evaluation cannot go on into the
  operands. The three-reference analogue of the library's four-reference lemma.
  (2) A concatenate keeps its operands in a list of (shape, array) pairs and its side condition is stated over that list, so a
  rewriting pass cannot rewrite an operand in place: the side condition's type would change with it. `concat2` and `concat3` are the
  two- and three-operand concatenates with the side condition over the SHAPES only and the operands as plain arguments; each is the
  list form by definition, and with the two conversion lemmas in the pass the evaluation goes on inside the operands.
-/
import Idealize.ShloMosaic.Lib.StableHlo.Run

noncomputable section

namespace Idealize.ShloMosaic.StableHlo

variable {τ : Topo} {sig : RefSig} {Val : EltTy → Type}
variable {x a b y : Ref sig .tc}

/-- The result of a three-operand host operation at its own result buffer, the three operands' contents spelt out. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, for use as a `simp` lemma. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

namespace Idealize.ShloMosaic

section Concat
variable {α : Type}

/-- Two arrays joined along axis `a`, the operands as plain arguments. -/
def concat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- Three arrays joined along axis `a`, the operands as plain arguments. -/
def concat3 (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h

/-- The list form of a two-operand concatenate is `concat2`. -/
theorem concatenate_pair_eq (t : Shape) (a : Fin t.rank) (s₁ s₂ : Shape) (x₁ : s₁.Idx → α) (x₂ : s₂.Idx → α)
    (h : Shape.Concatenates (([⟨s₁, x₁⟩, ⟨s₂, x₂⟩] : List ((s : Shape) × (s.Idx → α))).map (fun (p : (s : Shape) × (s.Idx → α)) => p.1)) t a) :
    concatenate t a [⟨s₁, x₁⟩, ⟨s₂, x₂⟩] h = concat2 t a s₁ s₂ h x₁ x₂ := rfl

/-- The list form of a three-operand concatenate is `concat3`. -/
theorem concatenate_triple_eq (t : Shape) (a : Fin t.rank) (s₁ s₂ s₃ : Shape) (x₁ : s₁.Idx → α) (x₂ : s₂.Idx → α) (x₃ : s₃.Idx → α)
    (h : Shape.Concatenates (([⟨s₁, x₁⟩, ⟨s₂, x₂⟩, ⟨s₃, x₃⟩] : List ((s : Shape) × (s.Idx → α))).map (fun (p : (s : Shape) × (s.Idx → α)) => p.1)) t a) :
    concatenate t a [⟨s₁, x₁⟩, ⟨s₂, x₂⟩, ⟨s₃, x₃⟩] h = concat3 t a s₁ s₂ s₃ h x₁ x₂ x₃ := rfl

end Concat

namespace StableHlo

/-- The evaluation of a line of host operations in one `simp` pass, with the three-reference lemma and the concatenate
    conversions added. -/
macro "after_results_simp3" : tactic =>
  `(tactic| (simp (disch := decide) only [after_cons, after_nil,
      nullary_result', unary_result', binary_result', ternary_result', quaternary_result', reshape_result', nary4_result', nary3_result', nary_result',
      unaryIndexed_result', binaryIndexed_result',
      nullary_result_ne', unary_result_ne', binary_result_ne', ternary_result_ne', quaternary_result_ne', reshape_result_ne',
      nary_result_ne', unaryIndexed_result_ne', binaryIndexed_result_ne',
      concatenate_pair_eq, concatenate_triple_eq]))

end StableHlo

end Idealize.ShloMosaic

end
-- ==== Proof.KernelStacks.lean ====
/-
  The six stacks of the kernel program's host part (a concatenate of three operands each), read at their own result buffers with
  the three operands' contents as plain arguments, so that the evaluation of the host line goes on inside the operands.
-/
import proofs.«157496_j37812892074356_1_alg».proof.Proof.Gen.KernelIdeal.Launch
import proofs.«157496_j37812892074356_1_alg».proof.Proof.LibHostLine

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The stack written to `main_v352`, read at its own buffer: the three operands' contents as plain arguments. -/
theorem stack_v352 (G : Valuation τ sig (Elt F)) :
    (StableHlo.nary ![main_v349, main_v350, main_v351] main_v352 (fun u => concatenate S1048576x3x32 1 [⟨S1048576x1x32, u 0⟩, ⟨S1048576x1x32, u 1⟩, ⟨S1048576x1x32, u 2⟩] concatenates_S1048576x1x32_S1048576x1x32_S1048576x1x32_S1048576x3x32_d1) : HloOp τ sig (Elt F)).result G (no_index (Proc.devRef .tc main_v352))
      = concat3 S1048576x3x32 1 S1048576x1x32 S1048576x1x32 S1048576x1x32 concatenates_S1048576x1x32_S1048576x1x32_S1048576x1x32_S1048576x3x32_d1 (G (Proc.devRef .tc main_v349)) (G (Proc.devRef .tc main_v350)) (G (Proc.devRef .tc main_v351)) := by
  rw [nary3_result]; rfl

/-- The stack written to `main_v356`, read at its own buffer: the three operands' contents as plain arguments. -/
theorem stack_v356 (G : Valuation τ sig (Elt F)) :
    (StableHlo.nary ![main_v353, main_v354, main_v355] main_v356 (fun u => concatenate S1048576x3x32 1 [⟨S1048576x1x32, u 0⟩, ⟨S1048576x1x32, u 1⟩, ⟨S1048576x1x32, u 2⟩] concatenates_S1048576x1x32_S1048576x1x32_S1048576x1x32_S1048576x3x32_d1) : HloOp τ sig (Elt F)).result G (no_index (Proc.devRef .tc main_v356))
      = concat3 S1048576x3x32 1 S1048576x1x32 S1048576x1x32 S1048576x1x32 concatenates_S1048576x1x32_S1048576x1x32_S1048576x1x32_S1048576x3x32_d1 (G (Proc.devRef .tc main_v353)) (G (Proc.devRef .tc main_v354)) (G (Proc.devRef .tc main_v355)) := by
  rw [nary3_result]; rfl

/-- The stack written to `main_v360`, read at its own buffer: the three operands' contents as plain arguments. -/
theorem stack_v360 (G : Valuation τ sig (Elt F)) :
    (StableHlo.nary ![main_v357, main_v358, main_v359] main_v360 (fun u => concatenate S1048576x3x32 1 [⟨S1048576x1x32, u 0⟩, ⟨S1048576x1x32, u 1⟩, ⟨S1048576x1x32, u 2⟩] concatenates_S1048576x1x32_S1048576x1x32_S1048576x1x32_S1048576x3x32_d1) : HloOp τ sig (Elt F)).result G (no_index (Proc.devRef .tc main_v360))
      = concat3 S1048576x3x32 1 S1048576x1x32 S1048576x1x32 S1048576x1x32 concatenates_S1048576x1x32_S1048576x1x32_S1048576x1x32_S1048576x3x32_d1 (G (Proc.devRef .tc main_v357)) (G (Proc.devRef .tc main_v358)) (G (Proc.devRef .tc main_v359)) := by
  rw [nary3_result]; rfl

/-- The stack written to `main_v364`, read at its own buffer: the three operands' contents as plain arguments. -/
theorem stack_v364 (G : Valuation τ sig (Elt F)) :
    (StableHlo.nary ![main_v361, main_v362, main_v363] main_v364 (fun u => concatenate S1048576x3x32 1 [⟨S1048576x1x32, u 0⟩, ⟨S1048576x1x32, u 1⟩, ⟨S1048576x1x32, u 2⟩] concatenates_S1048576x1x32_S1048576x1x32_S1048576x1x32_S1048576x3x32_d1) : HloOp τ sig (Elt F)).result G (no_index (Proc.devRef .tc main_v364))
      = concat3 S1048576x3x32 1 S1048576x1x32 S1048576x1x32 S1048576x1x32 concatenates_S1048576x1x32_S1048576x1x32_S1048576x1x32_S1048576x3x32_d1 (G (Proc.devRef .tc main_v361)) (G (Proc.devRef .tc main_v362)) (G (Proc.devRef .tc main_v363)) := by
  rw [nary3_result]; rfl

/-- The stack written to `main_v368`, read at its own buffer: the three operands' contents as plain arguments. -/
theorem stack_v368 (G : Valuation τ sig (Elt F)) :
    (StableHlo.nary ![main_v365, main_v366, main_v367] main_v368 (fun u => concatenate S1048576x3 1 [⟨S1048576x1, u 0⟩, ⟨S1048576x1, u 1⟩, ⟨S1048576x1, u 2⟩] concatenates_S1048576x1_S1048576x1_S1048576x1_S1048576x3_d1) : HloOp τ sig (Elt F)).result G (no_index (Proc.devRef .tc main_v368))
      = concat3 S1048576x3 1 S1048576x1 S1048576x1 S1048576x1 concatenates_S1048576x1_S1048576x1_S1048576x1_S1048576x3_d1 (G (Proc.devRef .tc main_v365)) (G (Proc.devRef .tc main_v366)) (G (Proc.devRef .tc main_v367)) := by
  rw [nary3_result]; rfl

/-- The stack written to `main_v373`, read at its own buffer: the three operands' contents as plain arguments. -/
theorem stack_v373 (G : Valuation τ sig (Elt F)) :
    (StableHlo.nary ![main_v370, main_v371, main_v372] main_v373 (fun u => concatenate S1048576x3 1 [⟨S1048576x1, u 0⟩, ⟨S1048576x1, u 1⟩, ⟨S1048576x1, u 2⟩] concatenates_S1048576x1_S1048576x1_S1048576x1_S1048576x3_d1) : HloOp τ sig (Elt F)).result G (no_index (Proc.devRef .tc main_v373))
      = concat3 S1048576x3 1 S1048576x1 S1048576x1 S1048576x1 concatenates_S1048576x1_S1048576x1_S1048576x1_S1048576x3_d1 (G (Proc.devRef .tc main_v370)) (G (Proc.devRef .tc main_v371)) (G (Proc.devRef .tc main_v372)) := by
  rw [nary3_result]; rfl

end Cert.KernelIdeal.Host

end
-- ==== Proof.KernelWindowsA.lean ====
/-
  The six arrays the region's windows stage are the folded host functions of the argument arrays: the host operations before
  the region are evaluated in order from ANY starting contents W, and what each window's array then holds is read off as the
  corresponding function of W at the four arguments. (Nothing is proved here about the values themselves: the two sides are the
  same operations, once as a list and once as a nested term.) The evaluation is one rewriting pass over the line; the stacks are
  read by their own lemmas so that the pass goes on inside their operands, and the folded side is opened before the two are compared.
-/
import proofs.«157496_j37812892074356_1_alg».proof.Proof.Gen.KernelIdeal.Launch
import proofs.«157496_j37812892074356_1_alg».proof.Proof.KernelHostFns
import proofs.«157496_j37812892074356_1_alg».proof.Proof.KernelStacks

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

set_option maxHeartbeats 0 in
theorem win_v00_eq (W : Valuation τ sig (Elt F)) :
    StableHlo.after (List.flatten [hostOps0 (F := F), hostOps0_1 (F := F), hostOps0_2 (F := F), hostOps0_3 (F := F), hostOps0_4 (F := F), hostOps0_5 (F := F), hostOps0_6 (F := F), hostOps0_7 (F := F), hostOps0_8 (F := F), hostOps0_9 (F := F), hostOps0_10 (F := F), hostOps0_11 (F := F), hostOps0_12 (F := F), hostOps0_13 (F := F), hostOps0_14 (F := F), hostOps0_15 (F := F), hostOps0_16 (F := F), hostOps0_17 (F := F), hostOps0_18 (F := F), hostOps0_19 (F := F), hostOps0_20 (F := F), hostOps0_21 (F := F), hostOps0_22 (F := F), hostOps0_23 (F := F), hostOps0_24 (F := F)]) W (Proc.devRef .tc main_v352)
      = win_v00 (F := F) (W (Proc.devRef .tc main_arg0)) (W (Proc.devRef .tc main_arg1)) (W (Proc.devRef .tc main_arg2)) (W (Proc.devRef .tc main_arg3)) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v352, stack_v356, stack_v360, stack_v364, stack_v368, stack_v373]
  unfold win_v00
  (try unfold stack32); (try unfold stack1); (try unfold corner); (try unfold pairs); (try unfold wrapNeg); (try unfold cellNext); (try unfold cell); (try unfold frac); (try unfold pix); (try unfold folded); (try unfold rem1024); (try unfold scaled); (try unfold kf); (try unfold kfc); (try unfold ki); (try unfold col0); (try unfold col1); (try unfold col2); (try unfold flatPts)
  simp only [concatenate_pair_eq, concatenate_triple_eq]
  rfl

set_option maxHeartbeats 0 in
theorem win_v01_eq (W : Valuation τ sig (Elt F)) :
    StableHlo.after (List.flatten [hostOps0 (F := F), hostOps0_1 (F := F), hostOps0_2 (F := F), hostOps0_3 (F := F), hostOps0_4 (F := F), hostOps0_5 (F := F), hostOps0_6 (F := F), hostOps0_7 (F := F), hostOps0_8 (F := F), hostOps0_9 (F := F), hostOps0_10 (F := F), hostOps0_11 (F := F), hostOps0_12 (F := F), hostOps0_13 (F := F), hostOps0_14 (F := F), hostOps0_15 (F := F), hostOps0_16 (F := F), hostOps0_17 (F := F), hostOps0_18 (F := F), hostOps0_19 (F := F), hostOps0_20 (F := F), hostOps0_21 (F := F), hostOps0_22 (F := F), hostOps0_23 (F := F), hostOps0_24 (F := F)]) W (Proc.devRef .tc main_v356)
      = win_v01 (F := F) (W (Proc.devRef .tc main_arg0)) (W (Proc.devRef .tc main_arg1)) (W (Proc.devRef .tc main_arg2)) (W (Proc.devRef .tc main_arg3)) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v352, stack_v356, stack_v360, stack_v364, stack_v368, stack_v373]
  unfold win_v01
  (try unfold stack32); (try unfold stack1); (try unfold corner); (try unfold pairs); (try unfold wrapNeg); (try unfold cellNext); (try unfold cell); (try unfold frac); (try unfold pix); (try unfold folded); (try unfold rem1024); (try unfold scaled); (try unfold kf); (try unfold kfc); (try unfold ki); (try unfold col0); (try unfold col1); (try unfold col2); (try unfold flatPts)
  simp only [concatenate_pair_eq, concatenate_triple_eq]
  rfl

set_option maxHeartbeats 0 in
theorem win_wx_eq (W : Valuation τ sig (Elt F)) :
    StableHlo.after (List.flatten [hostOps0 (F := F), hostOps0_1 (F := F), hostOps0_2 (F := F), hostOps0_3 (F := F), hostOps0_4 (F := F), hostOps0_5 (F := F), hostOps0_6 (F := F), hostOps0_7 (F := F), hostOps0_8 (F := F), hostOps0_9 (F := F), hostOps0_10 (F := F), hostOps0_11 (F := F), hostOps0_12 (F := F), hostOps0_13 (F := F), hostOps0_14 (F := F), hostOps0_15 (F := F), hostOps0_16 (F := F), hostOps0_17 (F := F), hostOps0_18 (F := F), hostOps0_19 (F := F), hostOps0_20 (F := F), hostOps0_21 (F := F), hostOps0_22 (F := F), hostOps0_23 (F := F), hostOps0_24 (F := F)]) W (Proc.devRef .tc main_v369)
      = win_wx (F := F) (W (Proc.devRef .tc main_arg0)) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v352, stack_v356, stack_v360, stack_v364, stack_v368, stack_v373]
  unfold win_wx
  (try unfold stack32); (try unfold stack1); (try unfold corner); (try unfold pairs); (try unfold wrapNeg); (try unfold cellNext); (try unfold cell); (try unfold frac); (try unfold pix); (try unfold folded); (try unfold rem1024); (try unfold scaled); (try unfold kf); (try unfold kfc); (try unfold ki); (try unfold col0); (try unfold col1); (try unfold col2); (try unfold flatPts)
  simp only [concatenate_pair_eq, concatenate_triple_eq]
  rfl

end Cert.KernelIdeal.Host

end
-- ==== Proof.KernelWindowsB.lean ====
/-
  The six arrays the region's windows stage are the folded host functions of the argument arrays: the host operations before
  the region are evaluated in order from ANY starting contents W, and what each window's array then holds is read off as the
  corresponding function of W at the four arguments. (Nothing is proved here about the values themselves: the two sides are the
  same operations, once as a list and once as a nested term.) The evaluation is one rewriting pass over the line; the stacks are
  read by their own lemmas so that the pass goes on inside their operands, and the folded side is opened before the two are compared.
-/
import proofs.«157496_j37812892074356_1_alg».proof.Proof.Gen.KernelIdeal.Launch
import proofs.«157496_j37812892074356_1_alg».proof.Proof.KernelHostFns
import proofs.«157496_j37812892074356_1_alg».proof.Proof.KernelStacks

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

set_option maxHeartbeats 0 in
theorem win_v10_eq (W : Valuation τ sig (Elt F)) :
    StableHlo.after (List.flatten [hostOps0 (F := F), hostOps0_1 (F := F), hostOps0_2 (F := F), hostOps0_3 (F := F), hostOps0_4 (F := F), hostOps0_5 (F := F), hostOps0_6 (F := F), hostOps0_7 (F := F), hostOps0_8 (F := F), hostOps0_9 (F := F), hostOps0_10 (F := F), hostOps0_11 (F := F), hostOps0_12 (F := F), hostOps0_13 (F := F), hostOps0_14 (F := F), hostOps0_15 (F := F), hostOps0_16 (F := F), hostOps0_17 (F := F), hostOps0_18 (F := F), hostOps0_19 (F := F), hostOps0_20 (F := F), hostOps0_21 (F := F), hostOps0_22 (F := F), hostOps0_23 (F := F), hostOps0_24 (F := F)]) W (Proc.devRef .tc main_v360)
      = win_v10 (F := F) (W (Proc.devRef .tc main_arg0)) (W (Proc.devRef .tc main_arg1)) (W (Proc.devRef .tc main_arg2)) (W (Proc.devRef .tc main_arg3)) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v352, stack_v356, stack_v360, stack_v364, stack_v368, stack_v373]
  unfold win_v10
  (try unfold stack32); (try unfold stack1); (try unfold corner); (try unfold pairs); (try unfold wrapNeg); (try unfold cellNext); (try unfold cell); (try unfold frac); (try unfold pix); (try unfold folded); (try unfold rem1024); (try unfold scaled); (try unfold kf); (try unfold kfc); (try unfold ki); (try unfold col0); (try unfold col1); (try unfold col2); (try unfold flatPts)
  simp only [concatenate_pair_eq, concatenate_triple_eq]
  rfl

set_option maxHeartbeats 0 in
theorem win_v11_eq (W : Valuation τ sig (Elt F)) :
    StableHlo.after (List.flatten [hostOps0 (F := F), hostOps0_1 (F := F), hostOps0_2 (F := F), hostOps0_3 (F := F), hostOps0_4 (F := F), hostOps0_5 (F := F), hostOps0_6 (F := F), hostOps0_7 (F := F), hostOps0_8 (F := F), hostOps0_9 (F := F), hostOps0_10 (F := F), hostOps0_11 (F := F), hostOps0_12 (F := F), hostOps0_13 (F := F), hostOps0_14 (F := F), hostOps0_15 (F := F), hostOps0_16 (F := F), hostOps0_17 (F := F), hostOps0_18 (F := F), hostOps0_19 (F := F), hostOps0_20 (F := F), hostOps0_21 (F := F), hostOps0_22 (F := F), hostOps0_23 (F := F), hostOps0_24 (F := F)]) W (Proc.devRef .tc main_v364)
      = win_v11 (F := F) (W (Proc.devRef .tc main_arg0)) (W (Proc.devRef .tc main_arg1)) (W (Proc.devRef .tc main_arg2)) (W (Proc.devRef .tc main_arg3)) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v352, stack_v356, stack_v360, stack_v364, stack_v368, stack_v373]
  unfold win_v11
  (try unfold stack32); (try unfold stack1); (try unfold corner); (try unfold pairs); (try unfold wrapNeg); (try unfold cellNext); (try unfold cell); (try unfold frac); (try unfold pix); (try unfold folded); (try unfold rem1024); (try unfold scaled); (try unfold kf); (try unfold kfc); (try unfold ki); (try unfold col0); (try unfold col1); (try unfold col2); (try unfold flatPts)
  simp only [concatenate_pair_eq, concatenate_triple_eq]
  rfl

set_option maxHeartbeats 0 in
theorem win_wy_eq (W : Valuation τ sig (Elt F)) :
    StableHlo.after (List.flatten [hostOps0 (F := F), hostOps0_1 (F := F), hostOps0_2 (F := F), hostOps0_3 (F := F), hostOps0_4 (F := F), hostOps0_5 (F := F), hostOps0_6 (F := F), hostOps0_7 (F := F), hostOps0_8 (F := F), hostOps0_9 (F := F), hostOps0_10 (F := F), hostOps0_11 (F := F), hostOps0_12 (F := F), hostOps0_13 (F := F), hostOps0_14 (F := F), hostOps0_15 (F := F), hostOps0_16 (F := F), hostOps0_17 (F := F), hostOps0_18 (F := F), hostOps0_19 (F := F), hostOps0_20 (F := F), hostOps0_21 (F := F), hostOps0_22 (F := F), hostOps0_23 (F := F), hostOps0_24 (F := F)]) W (Proc.devRef .tc main_v374)
      = win_wy (F := F) (W (Proc.devRef .tc main_arg0)) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v352, stack_v356, stack_v360, stack_v364, stack_v368, stack_v373]
  unfold win_wy
  (try unfold stack32); (try unfold stack1); (try unfold corner); (try unfold pairs); (try unfold wrapNeg); (try unfold cellNext); (try unfold cell); (try unfold frac); (try unfold pix); (try unfold folded); (try unfold rem1024); (try unfold scaled); (try unfold kf); (try unfold kfc); (try unfold ki); (try unfold col0); (try unfold col1); (try unfold col2); (try unfold flatPts)
  simp only [concatenate_pair_eq, concatenate_triple_eq]
  rfl

end Cert.KernelIdeal.Host

end
-- ==== Proof.LibPlaneGather.lean ====
/-
  A plane gather read at an index.

  `P[:, y, x]` for an operand P of shape [C, H, W] and integer (row, column) pairs lowers to a gather with offset axis [0] of the
  result, the operand's axes 1 and 2 collapsed and named by the start index map [1, 2], slice sizes [C, 1, 1], and the pair on the
  LAST axis of the start indices. Result element (ch, point) is P at channel ch, at the row and the column the point's pair names,
  each read as a signed integer and clamped into the axis: a gather clamps every start index into [0, extent − slice size].
  Two layouts of the pairs are covered: a LIST of pairs [N, 2] (result [C, N]) and a GRID of pairs [A, B, 2] (result [C, A, B]).
-/
import Idealize.ShloMosaic.Lib.ValueIdx

noncomputable section

namespace Idealize.ShloMosaic.ValueIdx

section PlaneGather
variable {α : Type}

/-- The dimension numbers of the plane gather over a list of pairs; their conditions `wf` are decided on literal shapes. -/
abbrev pairListDims (C H W N : Nat)
    (wf : GatherDims.WF ⟨3, ![C, H, W]⟩ ⟨2, ![N, 2]⟩ ⟨2, ![C, N]⟩ [0] [1, 2] [] [1, 2] [] 1 ![C, 1, 1]) :
    GatherDims ⟨3, ![C, H, W]⟩ ⟨2, ![N, 2]⟩ ⟨2, ![C, N]⟩ where
  offsetDims := [0]
  collapsedSliceDims := [1, 2]
  operandBatchingDims := []
  startIndicesBatchingDims := []
  startIndexMap := [1, 2]
  indexVectorDim := 1
  sliceSizes := ![C, 1, 1]
  wf := wf

/-- THE LIST GATHER READ AT (ch, n): the operand at channel `ch`, at the row `idx[n, 0]` and the column `idx[n, 1]`, each read
    signed and clamped into its axis. -/
theorem gather_pairList_apply {C H W N w : Nat} (hH : 0 < H) (hW : 0 < W)
    (wf : GatherDims.WF ⟨3, ![C, H, W]⟩ ⟨2, ![N, 2]⟩ ⟨2, ![C, N]⟩ [0] [1, 2] [] [1, 2] [] 1 ![C, 1, 1])
    (x : (⟨3, ![C, H, W]⟩ : Shape).Idx → α) (idx : IVec ⟨2, ![N, 2]⟩ w) (ch : Fin C) (n : Fin N) :
    Host.gather (pairListDims C H W N wf) x idx (ix2 ch n)
      = x (ix3 ch ⟨min (idx (ix2 n (0 : Fin 2))).toInt.toNat (H - 1), by omega⟩
                  ⟨min (idx (ix2 n (1 : Fin 2))).toInt.toNat (W - 1), by omega⟩) := by
  -- Axis 0 is outside the start index map; axes 1 and 2 are in it (and are the collapsed axes).
  have nm0 : (0 : Fin 3) ∉ ([1, 2] : List (Fin 3)) := by decide
  have m1 : (1 : Fin 3) ∈ ([1, 2] : List (Fin 3)) := by decide
  have m2 : (2 : Fin 3) ∈ ([1, 2] : List (Fin 3)) := by decide
  -- The gather reads the operand at the operand index; compare the two indices axis by axis.
  unfold Host.gather
  refine congrArg x (funext fun ax => Fin.ext ?_)
  match ax with
  | ⟨0, _⟩ =>
    -- Channel axis: no start, no batching coordinate; the offset coordinate is the result's coordinate on its offset axis.
    show (pairListDims C H W N wf).start (ix2 ch n) idx 0 + (pairListDims C H W N wf).batchCoord (ix2 ch n) 0 + (pairListDims C H W N wf).offCoord (ix2 ch n) 0 = ch.val
    rw [GatherDims.batchCoord_eq_zero _ _ _ List.not_mem_nil]
    have hs : (pairListDims C H W N wf).start (ix2 ch n) idx 0 = 0 := by
      unfold GatherDims.start; exact dif_neg nm0
    have ho : (pairListDims C H W N wf).offCoord (ix2 ch n) 0 = ch.val := rfl
    rw [hs, ho]; omega
  | ⟨1, _⟩ =>
    -- Row axis: collapsed, so only the clamped start remains, read off component 0 of the point's pair.
    show (pairListDims C H W N wf).start (ix2 ch n) idx 1 + (pairListDims C H W N wf).batchCoord (ix2 ch n) 1 + (pairListDims C H W N wf).offCoord (ix2 ch n) 1
      = min (idx (ix2 n (0 : Fin 2))).toInt.toNat (H - 1)
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (pairListDims C H W N wf).startIndexMap from m1)]
    have hsi : (pairListDims C H W N wf).siIdx (ix2 ch n) ⟨List.idxOf (1 : Fin 3) (pairListDims C H W N wf).startIndexMap,
        List.idxOf_lt_length_iff.2 m1⟩ = (ix2 n (0 : Fin 2)) := by
      funext b; refine Fin.ext ?_
      match b with
      | ⟨0, _⟩ => rfl
      | ⟨1, _⟩ => rfl
    rw [hsi]
    rfl
  | ⟨2, _⟩ =>
    -- Column axis: collapsed, so only the clamped start remains, read off component 1 of the point's pair.
    show (pairListDims C H W N wf).start (ix2 ch n) idx 2 + (pairListDims C H W N wf).batchCoord (ix2 ch n) 2 + (pairListDims C H W N wf).offCoord (ix2 ch n) 2
      = min (idx (ix2 n (1 : Fin 2))).toInt.toNat (W - 1)
    rw [GatherDims.batchCoord_eq_zero _ _ _ List.not_mem_nil,
      GatherDims.offCoord_eq_zero _ _ _ (fun h => ((GatherDims.mem_sKept _ _).mp h).1 m2)]
    simp only [Nat.add_zero]
    unfold GatherDims.start
    rw [dif_pos (show (2 : Fin 3) ∈ (pairListDims C H W N wf).startIndexMap from m2)]
    have hsi : (pairListDims C H W N wf).siIdx (ix2 ch n) ⟨List.idxOf (2 : Fin 3) (pairListDims C H W N wf).startIndexMap,
        List.idxOf_lt_length_iff.2 m2⟩ = (ix2 n (1 : Fin 2)) := by
      funext b; refine Fin.ext ?_
      match b with
      | ⟨0, _⟩ => rfl
      | ⟨1, _⟩ => rfl
    rw [hsi]
    rfl

/-- The dimension numbers of the plane gather over a grid of pairs. -/
abbrev pairGridDims (C H W A B : Nat)
    (wf : GatherDims.WF ⟨3, ![C, H, W]⟩ ⟨3, ![A, B, 2]⟩ ⟨3, ![C, A, B]⟩ [0] [1, 2] [] [1, 2] [] 2 ![C, 1, 1]) :
    GatherDims ⟨3, ![C, H, W]⟩ ⟨3, ![A, B, 2]⟩ ⟨3, ![C, A, B]⟩ where
  offsetDims := [0]
  collapsedSliceDims := [1, 2]
  operandBatchingDims := []
  startIndicesBatchingDims := []
  startIndexMap := [1, 2]
  indexVectorDim := 2
  sliceSizes := ![C, 1, 1]
  wf := wf

/-- THE GRID GATHER READ AT (ch, a, b): the operand at channel `ch`, at the row `idx[a, b, 0]` and the column `idx[a, b, 1]`, each
    read signed and clamped into its axis. -/
theorem gather_pairGrid_apply {C H W A B w : Nat} (hH : 0 < H) (hW : 0 < W)
    (wf : GatherDims.WF ⟨3, ![C, H, W]⟩ ⟨3, ![A, B, 2]⟩ ⟨3, ![C, A, B]⟩ [0] [1, 2] [] [1, 2] [] 2 ![C, 1, 1])
    (x : (⟨3, ![C, H, W]⟩ : Shape).Idx → α) (idx : IVec ⟨3, ![A, B, 2]⟩ w) (ch : Fin C) (a : Fin A) (b : Fin B) :
    Host.gather (pairGridDims C H W A B wf) x idx (ix3 ch a b)
      = x (ix3 ch ⟨min (idx (ix3 a b (0 : Fin 2))).toInt.toNat (H - 1), by omega⟩
                  ⟨min (idx (ix3 a b (1 : Fin 2))).toInt.toNat (W - 1), by omega⟩) := by
  -- Axis 0 is outside the start index map; axes 1 and 2 are in it (and are the collapsed axes).
  have nm0 : (0 : Fin 3) ∉ ([1, 2] : List (Fin 3)) := by decide
  have m1 : (1 : Fin 3) ∈ ([1, 2] : List (Fin 3)) := by decide
  have m2 : (2 : Fin 3) ∈ ([1, 2] : List (Fin 3)) := by decide
  -- The gather reads the operand at the operand index; compare the two indices axis by axis.
  unfold Host.gather
  refine congrArg x (funext fun ax => Fin.ext ?_)
  match ax with
  | ⟨0, _⟩ =>
    -- Channel axis: no start, no batching coordinate; the offset coordinate is the result's coordinate on its offset axis.
    show (pairGridDims C H W A B wf).start (ix3 ch a b) idx 0 + (pairGridDims C H W A B wf).batchCoord (ix3 ch a b) 0 + (pairGridDims C H W A B wf).offCoord (ix3 ch a b) 0 = ch.val
    rw [GatherDims.batchCoord_eq_zero _ _ _ List.not_mem_nil]
    have hs : (pairGridDims C H W A B wf).start (ix3 ch a b) idx 0 = 0 := by
      unfold GatherDims.start; exact dif_neg nm0
    have ho : (pairGridDims C H W A B wf).offCoord (ix3 ch a b) 0 = ch.val := rfl
    rw [hs, ho]; omega
  | ⟨1, _⟩ =>
    -- Row axis: collapsed, so only the clamped start remains, read off component 0 of the point's pair.
    show (pairGridDims C H W A B wf).start (ix3 ch a b) idx 1 + (pairGridDims C H W A B wf).batchCoord (ix3 ch a b) 1 + (pairGridDims C H W A B wf).offCoord (ix3 ch a b) 1
      = min (idx (ix3 a b (0 : Fin 2))).toInt.toNat (H - 1)
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (pairGridDims C H W A B wf).startIndexMap from m1)]
    have hsi : (pairGridDims C H W A B wf).siIdx (ix3 ch a b) ⟨List.idxOf (1 : Fin 3) (pairGridDims C H W A B wf).startIndexMap,
        List.idxOf_lt_length_iff.2 m1⟩ = (ix3 a b (0 : Fin 2)) := by
      funext b; refine Fin.ext ?_
      match b with
      | ⟨0, _⟩ => rfl
      | ⟨1, _⟩ => rfl
      | ⟨2, _⟩ => rfl
    rw [hsi]
    rfl
  | ⟨2, _⟩ =>
    -- Column axis: collapsed, so only the clamped start remains, read off component 1 of the point's pair.
    show (pairGridDims C H W A B wf).start (ix3 ch a b) idx 2 + (pairGridDims C H W A B wf).batchCoord (ix3 ch a b) 2 + (pairGridDims C H W A B wf).offCoord (ix3 ch a b) 2
      = min (idx (ix3 a b (1 : Fin 2))).toInt.toNat (W - 1)
    rw [GatherDims.batchCoord_eq_zero _ _ _ List.not_mem_nil,
      GatherDims.offCoord_eq_zero _ _ _ (fun h => ((GatherDims.mem_sKept _ _).mp h).1 m2)]
    simp only [Nat.add_zero]
    unfold GatherDims.start
    rw [dif_pos (show (2 : Fin 3) ∈ (pairGridDims C H W A B wf).startIndexMap from m2)]
    have hsi : (pairGridDims C H W A B wf).siIdx (ix3 ch a b) ⟨List.idxOf (2 : Fin 3) (pairGridDims C H W A B wf).startIndexMap,
        List.idxOf_lt_length_iff.2 m2⟩ = (ix3 a b (1 : Fin 2)) := by
      funext b; refine Fin.ext ?_
      match b with
      | ⟨0, _⟩ => rfl
      | ⟨1, _⟩ => rfl
      | ⟨2, _⟩ => rfl
    rw [hsi]
    rfl

end PlaneGather

end Idealize.ShloMosaic.ValueIdx

end
-- ==== Proof.KernelHostAt.lean ====
/-
  The kernel program's six window arrays read at an index.

  Each window array is a stack, over the three planes, of a per-plane array over the N = 4 * 262144 query points: a corner
  array [N, 32] (the plane read, for every channel, at a (row, column) cell pair of the point) or a weight vector [N].
  Point (b, s) is row b * 262144 + s of the flattened points. At that row, the column vectors are the point's coordinates,
  the pixel coordinate, its cell, the next cell and the fractional part are the scalar functions of the specification, and a
  corner is the specification's texel: the wrap of a negative index and the gather's clamp into [0, 512] are the texel's
  own wrap and clamp.
-/
import proofs.«157496_j37812892074356_1_alg».proof.Proof.KernelHostFns
import proofs.«157496_j37812892074356_1_alg».proof.Proof.Bilinear
import proofs.«157496_j37812892074356_1_alg».proof.Proof.LibPlaneGather
import Idealize.ShloMosaic.Lib.Pipeline.Value
import Idealize.ShloMosaic.Lib.ValueIdx

noncomputable section

namespace Cert.KernelIdeal.Host

open Cert.KernelIdeal Cert.KernelIdeal.Gen Cert.Bilinear Idealize.ShloMosaic Idealize.ShloMosaic.ValueIdx

variable {F : FTy → Type} [FloatOps F]

/-- Point (b, s) as a row of the flattened [N, 3] points. -/
def flatPt (b : Fin 4) (s : Fin 262144) : Fin 1048576 := ⟨b.val * 262144 + s.val, by omega⟩

/-! ## The columns of the points -/

/-- Column K of the flattened points at row b * 262144 + s is coordinate K of point (b, s): the flat row-major position
    (b * 262144 + s) * 3 + K on both sides. -/
theorem colK_at (x : Pts F) (K : Fin 3) (h : S1048576x3.Slices ![0, K.val] S1048576x1) (b : Fin 4) (s : Fin 262144) :
    shapeCast S1048576 (extractStridedSlice S1048576x1 ![0, K.val] (flatPts x) h) shapeCasts_S1048576x1_S1048576 (ix1 (flatPt b s))
      = x (ix3 b s K) := by
  unfold flatPts
  refine (shapeCast_apply _ _ (ix1 (flatPt b s)) (ix2 (flatPt b s) (0 : Fin 1)) (by
    rw [Shape.rowMajor_val_two, Shape.rowMajor_val_one]
    show (flatPt b s).val * 1 + 0 = (flatPt b s).val
    omega)).trans ?_
  refine (extractStridedSlice_apply _ _ _ (ix2 (flatPt b s) (0 : Fin 1)) (ix2 (flatPt b s) K) (fun a => match a with
    | ⟨0, _⟩ => by show (flatPt b s).val = 0 + (flatPt b s).val; omega
    | ⟨1, _⟩ => by show K.val = K.val + 0; omega)).trans ?_
  exact shapeCast_apply _ _ _ (ix3 b s K) (by
    rw [Shape.rowMajor_val_three, Shape.rowMajor_val_two]
    show (b.val * 262144 + s.val) * 3 + K.val = (b.val * 262144 + s.val) * 3 + K.val
    rfl)

theorem col0_at (x : Pts F) (b : Fin 4) (s : Fin 262144) : col0 x (ix1 (flatPt b s)) = x (ix3 b s 0) :=
  colK_at x 0 slices_S1048576x3_S1048576x1_0_0 b s
theorem col1_at (x : Pts F) (b : Fin 4) (s : Fin 262144) : col1 x (ix1 (flatPt b s)) = x (ix3 b s 1) :=
  colK_at x 1 slices_S1048576x3_S1048576x1_0_1 b s
theorem col2_at (x : Pts F) (b : Fin 4) (s : Fin 262144) : col2 x (ix1 (flatPt b s)) = x (ix3 b s 2) :=
  colK_at x 2 slices_S1048576x3_S1048576x1_0_2 b s

/-! ## Constants: a scalar broadcast reads the scalar everywhere -/

theorem kf_at (w : BitVec 32) (i : S1048576.Idx) : (kf w : PtF F) i = kS w :=
  broadcastInDim_apply _ _ _ i ix0 (fun a => a.elim0)
theorem kfc_at (w : BitVec 32) (i : S1048576.Idx) : (kfc w : PtF F) i = kS w :=
  broadcastInDim_apply _ _ _ i ix0 (fun a => a.elim0)
theorem ki_at (w : BitVec 32) (i : S1048576.Idx) : (ki w : PtI F) i = w :=
  broadcastInDim_apply _ _ _ i ix0 (fun a => a.elim0)

/-! ## The pointwise chain: every operation acts coordinate by coordinate -/

theorem scaled_at (g : PtF F) (i : S1048576.Idx) : scaled g i = scaledS (g i) := by
  simp only [scaled, Host.absf, mulf, addf, kf_at]
  rfl
theorem rem1024_at (g : PtF F) (i : S1048576.Idx) : rem1024 g i = remS (g i) := by
  simp only [rem1024, subf, mulf, Host.floor, Host.divf, kf_at, scaled_at]
  rfl
theorem folded_at (g : PtF F) (i : S1048576.Idx) : folded g i = foldedS (g i) := by
  simp only [folded, select, cmpf, subf, kf_at, rem1024_at]
  rfl
theorem pix_at (g : PtF F) (i : S1048576.Idx) : pix g i = pixS (g i) := by
  simp only [pix, minimumf, maximumf, kfc_at, folded_at]
  rfl
theorem frac_at (g : PtF F) (i : S1048576.Idx) : frac g i = fracS (g i) := by
  simp only [frac, subf, Host.floor, pix_at]
  rfl
theorem cell_at (g : PtF F) (i : S1048576.Idx) : cell g i = cellS (g i) := by
  simp only [cell, fptosi, Host.floor, pix_at]
  rfl
theorem cellNext_at (g : PtF F) (i : S1048576.Idx) : cellNext g i = nextS (g i) := by
  simp only [cellNext, minsi, addi, ki_at, cell_at]
  rfl
theorem wrapNeg_at (v : PtI F) (i : S1048576.Idx) : wrapNeg v i = wrapS (v i) := by
  simp only [wrapNeg, select, cmpi, addi, ki_at]
  rfl

/-! ## Pairs, corners, stacks -/

/-- The first entry of a point's pair is its wrapped row index. -/
theorem pairs_at0 (iy ix : PtI F) (n : Fin 1048576) : pairs iy ix (ix2 n (0 : Fin 2)) = wrapS (iy (ix1 n)) := by
  unfold pairs
  refine (concatenate_pair_apply_left (s₁ := S1048576x1) (s₂ := S1048576x1) _ _ _ _ (ix2 n (0 : Fin 2)) rfl (ix2 n (0 : Fin 1))
    (fun b => match b with | ⟨0, _⟩ => rfl | ⟨1, _⟩ => rfl)).trans ?_
  refine (broadcastInDim_apply _ _ _ _ (ix1 n) (fun a => match a with | ⟨0, _⟩ => rfl)).trans ?_
  exact wrapNeg_at iy (ix1 n)

/-- The second entry of a point's pair is its wrapped column index. -/
theorem pairs_at1 (iy ix : PtI F) (n : Fin 1048576) : pairs iy ix (ix2 n (1 : Fin 2)) = wrapS (ix (ix1 n)) := by
  unfold pairs
  refine (concatenate_pair_apply_right (s₁ := S1048576x1) (s₂ := S1048576x1) _ _ _ _ (ix2 n (1 : Fin 2)) rfl rfl (ix2 n (0 : Fin 1))
    (fun b hb => match b, hb with | ⟨0, _⟩, _ => rfl | ⟨1, _⟩, hb => absurd rfl hb) rfl).trans ?_
  refine (broadcastInDim_apply _ _ _ _ (ix1 n) (fun a => match a with | ⟨0, _⟩ => rfl)).trans ?_
  exact wrapNeg_at ix (ix1 n)

/-- A corner array at (point, channel) is the specification's texel: the gather clamps each wrapped index into [0, 512]. -/
theorem corner_at (P : Plane F) (iy ix : PtI F) (n : Fin 1048576) (ch : Fin 32) :
    corner P iy ix (ix2 n ch) = texel P ch (iy (ix1 n)) (ix (ix1 n)) := by
  unfold corner
  refine (transpose_apply _ _ _ (ix2 n ch) (ix2 ch n) (fun b => match b with | ⟨0, _⟩ => rfl | ⟨1, _⟩ => rfl)).trans ?_
  show Host.gather (pairListDims 32 513 513 1048576 gather_S32x513x513_S1048576x2_S32x1048576_0_12_n_n_12_1_3211_wf) P (pairs iy ix) (ix2 ch n) = _
  rw [gather_pairList_apply (by decide) (by decide)]
  simp only [pairs_at0, pairs_at1]
  rfl

/-- A stack of three [N, 32] arrays on a new middle axis reads, at (n, p, ch), array p at (n, ch). -/
theorem stack32_at (a b c : (⟨S1048576x32, .f32⟩ : BufTy).Contents (Elt F)) (n : Fin 1048576) (p : Fin 3) (ch : Fin 32) :
    stack32 a b c (ix3 n p ch) = (![a, b, c] p) (ix2 n ch) := by
  unfold stack32
  match p with
  | ⟨0, _⟩ =>
    refine (concatenate_apply_piece _ _ _ (ix3 n (⟨0, by omega⟩ : Fin 3) ch) 0 (by show (0 : Nat) < 3; omega) S1048576x1x32 _ rfl rfl 0 rfl (ix3 n (0 : Fin 1) ch)
      (fun b hb => match b, hb with | ⟨0, _⟩, _ => rfl | ⟨1, _⟩, hb => absurd rfl hb | ⟨2, _⟩, _ => rfl) rfl).trans ?_
    exact broadcastInDim_apply _ _ _ _ (ix2 n ch) (fun a => match a with | ⟨0, _⟩ => rfl | ⟨1, _⟩ => rfl)
  | ⟨1, _⟩ =>
    refine (concatenate_apply_piece _ _ _ (ix3 n (⟨1, by omega⟩ : Fin 3) ch) 1 (by show (1 : Nat) < 3; omega) S1048576x1x32 _ rfl rfl 1 rfl (ix3 n (0 : Fin 1) ch)
      (fun b hb => match b, hb with | ⟨0, _⟩, _ => rfl | ⟨1, _⟩, hb => absurd rfl hb | ⟨2, _⟩, _ => rfl) rfl).trans ?_
    exact broadcastInDim_apply _ _ _ _ (ix2 n ch) (fun a => match a with | ⟨0, _⟩ => rfl | ⟨1, _⟩ => rfl)
  | ⟨2, _⟩ =>
    refine (concatenate_apply_piece _ _ _ (ix3 n (⟨2, by omega⟩ : Fin 3) ch) 2 (by show (2 : Nat) < 3; omega) S1048576x1x32 _ rfl rfl 2 rfl (ix3 n (0 : Fin 1) ch)
      (fun b hb => match b, hb with | ⟨0, _⟩, _ => rfl | ⟨1, _⟩, hb => absurd rfl hb | ⟨2, _⟩, _ => rfl) rfl).trans ?_
    exact broadcastInDim_apply _ _ _ _ (ix2 n ch) (fun a => match a with | ⟨0, _⟩ => rfl | ⟨1, _⟩ => rfl)

/-- A stack of three vectors over the points, with a trailing unit axis, reads vector p at n. -/
theorem stack1_at (a b c : PtF F) (n : Fin 1048576) (p : Fin 3) (z : Fin 1) :
    stack1 a b c (ix3 n p z) = (![a, b, c] p) (ix1 n) := by
  unfold stack1
  refine (broadcastInDim_apply _ _ _ (ix3 n p z) (ix2 n p) (fun a => match a with | ⟨0, _⟩ => rfl | ⟨1, _⟩ => rfl)).trans ?_
  match p with
  | ⟨0, _⟩ =>
    refine (concatenate_apply_piece _ _ _ (ix2 n (⟨0, by omega⟩ : Fin 3)) 0 (by show (0 : Nat) < 3; omega) S1048576x1 _ rfl rfl 0 rfl (ix2 n (0 : Fin 1))
      (fun b hb => match b, hb with | ⟨0, _⟩, _ => rfl | ⟨1, _⟩, hb => absurd rfl hb) rfl).trans ?_
    exact broadcastInDim_apply _ _ _ _ (ix1 n) (fun a => match a with | ⟨0, _⟩ => rfl)
  | ⟨1, _⟩ =>
    refine (concatenate_apply_piece _ _ _ (ix2 n (⟨1, by omega⟩ : Fin 3)) 1 (by show (1 : Nat) < 3; omega) S1048576x1 _ rfl rfl 1 rfl (ix2 n (0 : Fin 1))
      (fun b hb => match b, hb with | ⟨0, _⟩, _ => rfl | ⟨1, _⟩, hb => absurd rfl hb) rfl).trans ?_
    exact broadcastInDim_apply _ _ _ _ (ix1 n) (fun a => match a with | ⟨0, _⟩ => rfl)
  | ⟨2, _⟩ =>
    refine (concatenate_apply_piece _ _ _ (ix2 n (⟨2, by omega⟩ : Fin 3)) 2 (by show (2 : Nat) < 3; omega) S1048576x1 _ rfl rfl 2 rfl (ix2 n (0 : Fin 1))
      (fun b hb => match b, hb with | ⟨0, _⟩, _ => rfl | ⟨1, _⟩, hb => absurd rfl hb) rfl).trans ?_
    exact broadcastInDim_apply _ _ _ _ (ix1 n) (fun a => match a with | ⟨0, _⟩ => rfl)

/-! ## The six window arrays

Plane 0 takes its row coordinate from column 2 and its column coordinate from column 1 of the points, plane 1 from columns 2
and 0, plane 2 from columns 1 and 0. -/

variable (x : Pts F) (P1 P2 P3 : Plane F) (b : Fin 4) (s : Fin 262144) (p : Fin 3) (ch : Fin 32)

theorem win_v00_at : win_v00 x P1 P2 P3 (ix3 (flatPt b s) p ch)
    = texel (![P1, P2, P3] p) ch (cellS (x (ix3 b s (gyCol p)))) (cellS (x (ix3 b s (gxCol p)))) := by
  unfold win_v00
  rw [stack32_at]
  match p with
  | ⟨0, _⟩ =>
    show corner P1 (cell (col2 x)) (cell (col1 x)) (ix2 (flatPt b s) ch) = texel P1 ch (cellS (x (ix3 b s 2))) (cellS (x (ix3 b s 1)))
    rw [corner_at, cell_at, cell_at, col2_at, col1_at]
  | ⟨1, _⟩ =>
    show corner P2 (cell (col2 x)) (cell (col0 x)) (ix2 (flatPt b s) ch) = texel P2 ch (cellS (x (ix3 b s 2))) (cellS (x (ix3 b s 0)))
    rw [corner_at, cell_at, cell_at, col2_at, col0_at]
  | ⟨2, _⟩ =>
    show corner P3 (cell (col1 x)) (cell (col0 x)) (ix2 (flatPt b s) ch) = texel P3 ch (cellS (x (ix3 b s 1))) (cellS (x (ix3 b s 0)))
    rw [corner_at, cell_at, cell_at, col1_at, col0_at]

theorem win_v01_at : win_v01 x P1 P2 P3 (ix3 (flatPt b s) p ch)
    = texel (![P1, P2, P3] p) ch (cellS (x (ix3 b s (gyCol p)))) (nextS (x (ix3 b s (gxCol p)))) := by
  unfold win_v01
  rw [stack32_at]
  match p with
  | ⟨0, _⟩ =>
    show corner P1 (cell (col2 x)) (cellNext (col1 x)) (ix2 (flatPt b s) ch) = texel P1 ch (cellS (x (ix3 b s 2))) (nextS (x (ix3 b s 1)))
    rw [corner_at, cell_at, cellNext_at, col2_at, col1_at]
  | ⟨1, _⟩ =>
    show corner P2 (cell (col2 x)) (cellNext (col0 x)) (ix2 (flatPt b s) ch) = texel P2 ch (cellS (x (ix3 b s 2))) (nextS (x (ix3 b s 0)))
    rw [corner_at, cell_at, cellNext_at, col2_at, col0_at]
  | ⟨2, _⟩ =>
    show corner P3 (cell (col1 x)) (cellNext (col0 x)) (ix2 (flatPt b s) ch) = texel P3 ch (cellS (x (ix3 b s 1))) (nextS (x (ix3 b s 0)))
    rw [corner_at, cell_at, cellNext_at, col1_at, col0_at]

theorem win_v10_at : win_v10 x P1 P2 P3 (ix3 (flatPt b s) p ch)
    = texel (![P1, P2, P3] p) ch (nextS (x (ix3 b s (gyCol p)))) (cellS (x (ix3 b s (gxCol p)))) := by
  unfold win_v10
  rw [stack32_at]
  match p with
  | ⟨0, _⟩ =>
    show corner P1 (cellNext (col2 x)) (cell (col1 x)) (ix2 (flatPt b s) ch) = texel P1 ch (nextS (x (ix3 b s 2))) (cellS (x (ix3 b s 1)))
    rw [corner_at, cellNext_at, cell_at, col2_at, col1_at]
  | ⟨1, _⟩ =>
    show corner P2 (cellNext (col2 x)) (cell (col0 x)) (ix2 (flatPt b s) ch) = texel P2 ch (nextS (x (ix3 b s 2))) (cellS (x (ix3 b s 0)))
    rw [corner_at, cellNext_at, cell_at, col2_at, col0_at]
  | ⟨2, _⟩ =>
    show corner P3 (cellNext (col1 x)) (cell (col0 x)) (ix2 (flatPt b s) ch) = texel P3 ch (nextS (x (ix3 b s 1))) (cellS (x (ix3 b s 0)))
    rw [corner_at, cellNext_at, cell_at, col1_at, col0_at]

theorem win_v11_at : win_v11 x P1 P2 P3 (ix3 (flatPt b s) p ch)
    = texel (![P1, P2, P3] p) ch (nextS (x (ix3 b s (gyCol p)))) (nextS (x (ix3 b s (gxCol p)))) := by
  unfold win_v11
  rw [stack32_at]
  match p with
  | ⟨0, _⟩ =>
    show corner P1 (cellNext (col2 x)) (cellNext (col1 x)) (ix2 (flatPt b s) ch) = texel P1 ch (nextS (x (ix3 b s 2))) (nextS (x (ix3 b s 1)))
    rw [corner_at, cellNext_at, cellNext_at, col2_at, col1_at]
  | ⟨1, _⟩ =>
    show corner P2 (cellNext (col2 x)) (cellNext (col0 x)) (ix2 (flatPt b s) ch) = texel P2 ch (nextS (x (ix3 b s 2))) (nextS (x (ix3 b s 0)))
    rw [corner_at, cellNext_at, cellNext_at, col2_at, col0_at]
  | ⟨2, _⟩ =>
    show corner P3 (cellNext (col1 x)) (cellNext (col0 x)) (ix2 (flatPt b s) ch) = texel P3 ch (nextS (x (ix3 b s 1))) (nextS (x (ix3 b s 0)))
    rw [corner_at, cellNext_at, cellNext_at, col1_at, col0_at]

theorem win_wx_at (z : Fin 1) : win_wx x (ix3 (flatPt b s) p z) = fracS (x (ix3 b s (gxCol p))) := by
  unfold win_wx
  rw [stack1_at]
  match p with
  | ⟨0, _⟩ =>
    show frac (col1 x) (ix1 (flatPt b s)) = fracS (x (ix3 b s 1))
    rw [frac_at, col1_at]
  | ⟨1, _⟩ =>
    show frac (col0 x) (ix1 (flatPt b s)) = fracS (x (ix3 b s 0))
    rw [frac_at, col0_at]
  | ⟨2, _⟩ =>
    show frac (col0 x) (ix1 (flatPt b s)) = fracS (x (ix3 b s 0))
    rw [frac_at, col0_at]

theorem win_wy_at (z : Fin 1) : win_wy x (ix3 (flatPt b s) p z) = fracS (x (ix3 b s (gyCol p))) := by
  unfold win_wy
  rw [stack1_at]
  match p with
  | ⟨0, _⟩ =>
    show frac (col2 x) (ix1 (flatPt b s)) = fracS (x (ix3 b s 2))
    rw [frac_at, col2_at]
  | ⟨1, _⟩ =>
    show frac (col2 x) (ix1 (flatPt b s)) = fracS (x (ix3 b s 2))
    rw [frac_at, col2_at]
  | ⟨2, _⟩ =>
    show frac (col1 x) (ix1 (flatPt b s)) = fracS (x (ix3 b s 1))
    rw [frac_at, col1_at]

end Cert.KernelIdeal.Host

end
-- ==== Proof.KernelValue.lean ====
/-
  The kernel program's run at the ideal instance, with its result NAMED: every weakly fair execution of @main ends with the
  result array holding, at point (b, s), plane p, channel ch, the bilinear sample of plane p at that point (the
  specification, with each weight product formed before it meets its texel), and the four arguments as launched.

  The pieces: the frame run gives the result as the reshape of what the region leaves in its output array; that is the
  pointwise blend of the six window arrays; each window array is the folded host function of the arguments; and each of
  those, read at an index, is the specification's texel or weight.
-/
import proofs.«157496_j37812892074356_1_alg».proof.Proof.KernelRegionValue
import proofs.«157496_j37812892074356_1_alg».proof.Proof.KernelWindowsA
import proofs.«157496_j37812892074356_1_alg».proof.Proof.KernelWindowsB
import proofs.«157496_j37812892074356_1_alg».proof.Proof.KernelHostAt

set_option maxRecDepth 16384

noncomputable section

namespace Cert.KernelIdeal.Sampled

open Cert.KernelIdeal Cert.KernelIdeal.Gen Cert.KernelIdeal.Fr Cert.KernelIdeal.Host Cert.KernelIdeal.Region Cert.Bilinear
open Idealize.ShloMosaic Idealize.ShloMosaic.TcCoe Idealize.SL.Sem Idealize.ShloMosaic.ValueIdx

variable {F : FTy → Type} [FloatOps F]
variable (m : (ℓ : Loc nD τ sig) → Buf (Elt F) ℓ) (ρ : Dev nD → PrngReg)

/-- The specification as an array over [4, 262144, 3, 32], for a given grouping of the blend. -/
def sampled (blend : F .f32 → F .f32 → F .f32 → F .f32 → F .f32 → F .f32 → F .f32)
    (x : Pts F) (P1 P2 P3 : Plane F) : S4x262144x3x32.Idx → F .f32 :=
  fun j => spec blend x ![P1, P2, P3] (j 0) (j 1) (j 2) (j 3)

/-- Each window array, as the region finds it, is the folded host function of the launch contents of the arguments. -/
theorem V_v00 (c : Dev nD) : V m c main_v352 = win_v00 (m ((c.tc : Thread nD τ).loc main_arg0)) (m ((c.tc : Thread nD τ).loc main_arg1)) (m ((c.tc : Thread nD τ).loc main_arg2)) (m ((c.tc : Thread nD τ).loc main_arg3)) :=
  win_v00_eq (fun b => m (c, b))
theorem V_v01 (c : Dev nD) : V m c main_v356 = win_v01 (m ((c.tc : Thread nD τ).loc main_arg0)) (m ((c.tc : Thread nD τ).loc main_arg1)) (m ((c.tc : Thread nD τ).loc main_arg2)) (m ((c.tc : Thread nD τ).loc main_arg3)) :=
  win_v01_eq (fun b => m (c, b))
theorem V_v10 (c : Dev nD) : V m c main_v360 = win_v10 (m ((c.tc : Thread nD τ).loc main_arg0)) (m ((c.tc : Thread nD τ).loc main_arg1)) (m ((c.tc : Thread nD τ).loc main_arg2)) (m ((c.tc : Thread nD τ).loc main_arg3)) :=
  win_v10_eq (fun b => m (c, b))
theorem V_v11 (c : Dev nD) : V m c main_v364 = win_v11 (m ((c.tc : Thread nD τ).loc main_arg0)) (m ((c.tc : Thread nD τ).loc main_arg1)) (m ((c.tc : Thread nD τ).loc main_arg2)) (m ((c.tc : Thread nD τ).loc main_arg3)) :=
  win_v11_eq (fun b => m (c, b))
theorem V_wx (c : Dev nD) : V m c main_v369 = win_wx (m ((c.tc : Thread nD τ).loc main_arg0)) := win_wx_eq (fun b => m (c, b))
theorem V_wy (c : Dev nD) : V m c main_v374 = win_wy (m ((c.tc : Thread nD τ).loc main_arg0)) := win_wy_eq (fun b => m (c, b))

/-- The reshaped region output, index by index, is the specification with the kernel's grouping of the blend. -/
theorem result_eq (x : Pts F) (P1 P2 P3 : Plane F) :
    shapeCast S4x262144x3x32 (regionOut (win_v00 x P1 P2 P3) (win_v01 x P1 P2 P3) (win_v10 x P1 P2 P3) (win_v11 x P1 P2 P3) (win_wx x) (win_wy x))
      shapeCasts_S1048576x3x32_S4x262144x3x32 = sampled blendK x P1 P2 P3 := by
  funext j
  obtain ⟨b, s, p, ch, rfl⟩ : ∃ (b : Fin 4) (s : Fin 262144) (p : Fin 3) (ch : Fin 32), j = ix4 b s p ch := ⟨j 0, j 1, j 2, j 3, eq_ix4 j⟩
  rw [reshape_out_at]
  show blendK (win_v00 x P1 P2 P3 (ix3 (flatPt b s) p ch)) (win_v01 x P1 P2 P3 (ix3 (flatPt b s) p ch))
      (win_v10 x P1 P2 P3 (ix3 (flatPt b s) p ch)) (win_v11 x P1 P2 P3 (ix3 (flatPt b s) p ch))
      (win_wx x (ix3 (flatPt b s) p 0)) (win_wy x (ix3 (flatPt b s) p 0)) = _
  rw [win_v00_at, win_v01_at, win_v10_at, win_v11_at, win_wx_at, win_wy_at]
  rfl

/-- THE KERNEL'S RUN with its result named. -/
theorem run_spec : θ_run defs (onTc (τ := τ) (main (F := F))) ⟨m, fun _ => 0, ρ⟩ (fun r => ∀ c : Dev nD,
      r.2.mem ((c.tc : Thread nD τ).loc main_v376)
        = sampled blendK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (by
      rw [V_v00 m c, V_v01 m c, V_v10 m c, V_v11 m c, V_wx m c, V_wy m c]
      exact result_eq _ _ _ _), (h c).2⟩) (run_value m ρ)

end Cert.KernelIdeal.Sampled

end
-- ==== Proof.RefHostFns.lean ====
/-
  The reference program's computation as array-level functions of the four argument arrays.

  It is the same sampling as the kernel's host part, carried out on [4, 262144] grids of query points instead of one flat
  vector: the pixel coordinate  pix g = clip(reflect((g + 1) * 0.5 * 512), 0, 512), its cell floor(pix g), the next cell
  min(cell + 1, 512), the weight pix g - floor(pix g), the wrap of a negative index in front of each gather, and a corner value
  the plane read at (row cell, column cell) for every channel. Here the blend is also done on the host, channel-major:
      ((v00 * (1 - wx)) * (1 - wy)) + ((v01 * wx) * (1 - wy)) + ((v10 * (1 - wx)) * wy) + ((v11 * wx) * wy),
  each weight spread over the 32 channels, then the channel axis is moved last and the three planes are stacked.
  All of this is the program's own text, folded into named functions.
-/
import proofs.«157496_j37812892074356_1_alg».proof.Proof.Gen.ReferenceIdeal

noncomputable section

namespace Cert.ReferenceIdeal.Host

open Cert.ReferenceIdeal Cert.ReferenceIdeal.Gen Idealize.ShloMosaic Idealize.ShloMosaic.TcCoe Idealize.SL.Sem

variable {F : FTy → Type} [FloatOps F]

/-- A value per query point, on the [4, 262144] grid. -/
abbrev GrF (F : FTy → Type) [FloatOps F] := (⟨S4x262144, .f32⟩ : BufTy).Contents (Elt F)
abbrev GrI (F : FTy → Type) [FloatOps F] := (⟨S4x262144, .i32⟩ : BufTy).Contents (Elt F)
abbrev Plane (F : FTy → Type) [FloatOps F] := (⟨S32x513x513, .f32⟩ : BufTy).Contents (Elt F)
abbrev Pts (F : FTy → Type) [FloatOps F] := (⟨S4x262144x3, .f32⟩ : BufTy).Contents (Elt F)
/-- A value per channel and query point. -/
abbrev ChGr (F : FTy → Type) [FloatOps F] := (⟨S32x4x262144, .f32⟩ : BufTy).Contents (Elt F)

def kf (w : BitVec 32) : GrF F := broadcastInDim S4x262144 ![] bcast_S_S4x262144 (constant S_ .f32 w)
def kfc (w : BitVec 32) : GrF F := broadcastInDim S4x262144 ![] bcast_S_S4x262144 (id (constant S_ .f32 w))
def ki (w : BitVec 32) : GrI F := broadcastInDim S4x262144 ![] bcast_S_S4x262144 (constantI S_ 32 w)

/-- The three coordinate columns of the points. -/
def col0 (x : Pts F) : GrF F := shapeCast _ (extractStridedSlice S4x262144x1 ![0, 0, 0] x slices_S4x262144x3_S4x262144x1_0_0_0) shapeCasts_S4x262144x1_S4x262144
def col1 (x : Pts F) : GrF F := shapeCast _ (extractStridedSlice S4x262144x1 ![0, 0, 1] x slices_S4x262144x3_S4x262144x1_0_0_1) shapeCasts_S4x262144x1_S4x262144
def col2 (x : Pts F) : GrF F := shapeCast _ (extractStridedSlice S4x262144x1 ![0, 0, 2] x slices_S4x262144x3_S4x262144x1_0_0_2) shapeCasts_S4x262144x1_S4x262144

/-- |(g + 1) · 0.5 · 512| -/
def scaled (g : GrF F) : GrF F := Host.absf (F := F) (mulf (F := F) (mulf (F := F) (addf (F := F) g (kf 0x3F800000#32)) (kf 0x3F000000#32)) (kf 0x44000000#32))
/-- its remainder modulo 1024 -/
def rem1024 (g : GrF F) : GrF F := subf (F := F) (scaled g) (mulf (F := F) (kf 0x44800000#32) (Host.floor (F := F) (Host.divf (F := F) (scaled g) (kf 0x44800000#32))))
/-- folded back where it exceeds 512 -/
def folded (g : GrF F) : GrF F := select (cmpf (F := F) .ogt (rem1024 g) (kf 0x44000000#32)) (subf (F := F) (kf 0x44800000#32) (rem1024 g)) (rem1024 g)
/-- and clipped to [0, 512]: the pixel coordinate -/
def pix (g : GrF F) : GrF F := minimumf (F := F) (kfc 0x44000000#32) (maximumf (F := F) (kfc 0x00000000#32) (folded g))

def frac (g : GrF F) : GrF F := subf (F := F) (pix g) (Host.floor (F := F) (pix g))
def cell (g : GrF F) : GrI F := fptosi (F := F) 32 (Host.floor (F := F) (pix g))
def cellNext (g : GrF F) : GrI F := minsi (addi (cell g) (ki (F := F) 1#32)) (ki (F := F) 512#32)
/-- The wrap of a negative index: i + 513 where i < 0. -/
def wrapNeg (i : GrI F) : GrI F := select (cmpi .slt i (ki (F := F) 0#32)) (addi i (ki (F := F) 513#32)) i

/-- The (row, column) index pairs of a gather, as a [4, 262144, 2] integer array. -/
def pairs (iy ix : GrI F) : (⟨S4x262144x2, .i32⟩ : BufTy).Contents (Elt F) :=
  concatenate S4x262144x2 2 [⟨S4x262144x1, broadcastInDim S4x262144x1 ![0, 1] bcast_S4x262144_S4x262144x1_0_1 (wrapNeg iy)⟩,
    ⟨S4x262144x1, broadcastInDim S4x262144x1 ![0, 1] bcast_S4x262144_S4x262144x1_0_1 (wrapNeg ix)⟩] concatenates_S4x262144x1_S4x262144x1_S4x262144x2_d2
/-- The plane read at those pairs, for every channel: [32, 4, 262144]. -/
def corner (P : Plane F) (iy ix : GrI F) : ChGr F :=
  Host.gather gather_S32x513x513_S4x262144x2_S32x4x262144_0_12_n_n_12_2_3211 P (pairs iy ix)

/-- A per-point weight spread over the 32 channels. -/
def spread (w : GrF F) : ChGr F :=
  broadcastInDim S32x4x262144 ![0, 1, 2] bcast_S1x4x262144_S32x4x262144_0_1_2 (broadcastInDim S1x4x262144 ![1, 2] bcast_S4x262144_S1x4x262144_1_2 w)
/-- 1 - w -/
def oneMinus (w : GrF F) : GrF F := subf (F := F) (kf 0x3F800000#32) w

/-- One plane sampled bilinearly at the points with coordinates (gx, gy): [4, 262144, 32]. -/
def sample (P : Plane F) (gx gy : GrF F) : (⟨S4x262144x32, .f32⟩ : BufTy).Contents (Elt F) :=
  transpose S4x262144x32 [1, 2, 0]
    (addf (F := F) (addf (F := F) (addf (F := F)
      (mulf (F := F) (mulf (F := F) (corner P (cell gy) (cell gx)) (spread (oneMinus (frac gx)))) (spread (oneMinus (frac gy))))
      (mulf (F := F) (mulf (F := F) (corner P (cell gy) (cellNext gx)) (spread (frac gx))) (spread (oneMinus (frac gy)))))
      (mulf (F := F) (mulf (F := F) (corner P (cellNext gy) (cell gx)) (spread (oneMinus (frac gx)))) (spread (frac gy))))
      (mulf (F := F) (mulf (F := F) (corner P (cellNext gy) (cellNext gx)) (spread (frac gx))) (spread (frac gy))))
    transposes_S32x4x262144_S4x262144x32_1_2_0

/-- The three planes' samples stacked on a new axis before the channels: [4, 262144, 3, 32].
    Plane 0 samples columns (1, 2) as (x, y), plane 1 columns (0, 2), plane 2 columns (0, 1). -/
def result (x : Pts F) (P1 P2 P3 : Plane F) : (⟨S4x262144x3x32, .f32⟩ : BufTy).Contents (Elt F) :=
  concatenate S4x262144x3x32 2 [⟨S4x262144x1x32, broadcastInDim S4x262144x1x32 ![0, 1, 3] bcast_S4x262144x32_S4x262144x1x32_0_1_3 (sample P1 (col1 x) (col2 x))⟩,
    ⟨S4x262144x1x32, broadcastInDim S4x262144x1x32 ![0, 1, 3] bcast_S4x262144x32_S4x262144x1x32_0_1_3 (sample P2 (col0 x) (col2 x))⟩,
    ⟨S4x262144x1x32, broadcastInDim S4x262144x1x32 ![0, 1, 3] bcast_S4x262144x32_S4x262144x1x32_0_1_3 (sample P3 (col0 x) (col1 x))⟩] concatenates_S4x262144x1x32_S4x262144x1x32_S4x262144x1x32_S4x262144x3x32_d2

end Cert.ReferenceIdeal.Host

end
-- ==== Proof.RefRun.lean ====
/-
  The reference program's run at any float instance, with its result NAMED: the program is a straight line of host operations,
  so every weakly fair execution ends with each buffer at the fold of the operations over the launch contents; the result
  buffer's fold is the folded host function `result` of the four arguments (the same operations, once as a list and once as a
  nested term), and no operation writes an argument. The line is handled as the ten windows @main prints in, appended. The
  evaluation is one rewriting pass over the line; the final stack is read by its own lemma so that the pass goes on inside its
  operands, and the folded side is opened before the two are compared.
-/
import proofs.«157496_j37812892074356_1_alg».proof.Proof.RefOpsChunks
import proofs.«157496_j37812892074356_1_alg».proof.Proof.RefHostFns
import proofs.«157496_j37812892074356_1_alg».proof.Proof.LibHostLine

set_option maxRecDepth 16384

noncomputable section

namespace Cert.ReferenceIdeal.Host

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The whole line: the ten windows' operations, in order. -/
abbrev ops : List (HloOp τ sig (Elt F)) := ops0 ++ (ops1 ++ (ops2 ++ (ops3 ++ (ops4 ++ (ops5 ++ (ops6 ++ (ops7 ++ (ops8 ++ (ops9)))))))))

/-- @main is that line run in order. -/
theorem main_eq (c : Dev nD) : main (F := F) c = seq (ops (F := F)) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c) = _
  rw [main_part0_eq, main_part1_eq, main_part2_eq, main_part3_eq, main_part4_eq, main_part5_eq, main_part6_eq, main_part7_eq, main_part8_eq, main_part9_eq]
  simp only [ops, seq_append]

/-- A fact of every operation of every window is a fact of every operation of the line. -/
theorem forall_ops {p : HloOp τ sig (Elt F) → Prop}
    (h0 : (ops0 (F := F)).Forall p) (h1 : (ops1 (F := F)).Forall p) (h2 : (ops2 (F := F)).Forall p) (h3 : (ops3 (F := F)).Forall p) (h4 : (ops4 (F := F)).Forall p)
    (h5 : (ops5 (F := F)).Forall p) (h6 : (ops6 (F := F)).Forall p) (h7 : (ops7 (F := F)).Forall p) (h8 : (ops8 (F := F)).Forall p) (h9 : (ops9 (F := F)).Forall p) :
    ∀ op ∈ (ops (F := F)), p op := by
  intro op h
  simp only [ops, List.mem_append] at h
  rcases h with h | h | h | h | h | h | h | h | h | h
  · exact List.forall_iff_forall_mem.mp h0 op h
  · exact List.forall_iff_forall_mem.mp h1 op h
  · exact List.forall_iff_forall_mem.mp h2 op h
  · exact List.forall_iff_forall_mem.mp h3 op h
  · exact List.forall_iff_forall_mem.mp h4 op h
  · exact List.forall_iff_forall_mem.mp h5 op h
  · exact List.forall_iff_forall_mem.mp h6 op h
  · exact List.forall_iff_forall_mem.mp h7 op h
  · exact List.forall_iff_forall_mem.mp h8 op h
  · exact List.forall_iff_forall_mem.mp h9 op h

/-- Every operation touches TensorCore references only. -/
theorem ops_sub : (ops : List (HloOp τ sig (Elt F))).Forall fun op => op.bufs ⊆ tcRefs τ sig :=
  List.forall_iff_forall_mem.mpr (forall_ops ops0_sub ops1_sub ops2_sub ops3_sub ops4_sub ops5_sub ops6_sub ops7_sub ops8_sub ops9_sub)

set_option maxHeartbeats 4000000 in
theorem ops0_fresh : (ops0 : List (HloOp τ sig (Elt F))).Forall fun op => op.fresh = ∅ := by
  simp only [List.Forall]; repeat' constructor
set_option maxHeartbeats 4000000 in
theorem ops1_fresh : (ops1 : List (HloOp τ sig (Elt F))).Forall fun op => op.fresh = ∅ := by
  simp only [List.Forall]; repeat' constructor
set_option maxHeartbeats 4000000 in
theorem ops2_fresh : (ops2 : List (HloOp τ sig (Elt F))).Forall fun op => op.fresh = ∅ := by
  simp only [List.Forall]; repeat' constructor
set_option maxHeartbeats 4000000 in
theorem ops3_fresh : (ops3 : List (HloOp τ sig (Elt F))).Forall fun op => op.fresh = ∅ := by
  simp only [List.Forall]; repeat' constructor
set_option maxHeartbeats 4000000 in
theorem ops4_fresh : (ops4 : List (HloOp τ sig (Elt F))).Forall fun op => op.fresh = ∅ := by
  simp only [List.Forall]; repeat' constructor
set_option maxHeartbeats 4000000 in
theorem ops5_fresh : (ops5 : List (HloOp τ sig (Elt F))).Forall fun op => op.fresh = ∅ := by
  simp only [List.Forall]; repeat' constructor
set_option maxHeartbeats 4000000 in
theorem ops6_fresh : (ops6 : List (HloOp τ sig (Elt F))).Forall fun op => op.fresh = ∅ := by
  simp only [List.Forall]; repeat' constructor
set_option maxHeartbeats 4000000 in
theorem ops7_fresh : (ops7 : List (HloOp τ sig (Elt F))).Forall fun op => op.fresh = ∅ := by
  simp only [List.Forall]; repeat' constructor
set_option maxHeartbeats 4000000 in
theorem ops8_fresh : (ops8 : List (HloOp τ sig (Elt F))).Forall fun op => op.fresh = ∅ := by
  simp only [List.Forall]; repeat' constructor
set_option maxHeartbeats 4000000 in
theorem ops9_fresh : (ops9 : List (HloOp τ sig (Elt F))).Forall fun op => op.fresh = ∅ := by
  simp only [List.Forall]; repeat' constructor

/-- Every operation determines its results (none allocates). -/
theorem ops_fresh : ∀ op ∈ (ops (F := F)), op.fresh = ∅ :=
  forall_ops ops0_fresh ops1_fresh ops2_fresh ops3_fresh ops4_fresh ops5_fresh ops6_fresh ops7_fresh ops8_fresh ops9_fresh

/-- The final stack, read at its own buffer: the three operands' contents as plain arguments. -/
theorem stack_v447 (G : Valuation τ sig (Elt F)) :
    (StableHlo.nary ![main_v444, main_v445, main_v446] main_v447 (fun u => concatenate S4x262144x3x32 2 [⟨S4x262144x1x32, u 0⟩, ⟨S4x262144x1x32, u 1⟩, ⟨S4x262144x1x32, u 2⟩] concatenates_S4x262144x1x32_S4x262144x1x32_S4x262144x1x32_S4x262144x3x32_d2) : HloOp τ sig (Elt F)).result G (no_index (Proc.devRef .tc main_v447))
      = concat3 S4x262144x3x32 2 S4x262144x1x32 S4x262144x1x32 S4x262144x1x32 concatenates_S4x262144x1x32_S4x262144x1x32_S4x262144x1x32_S4x262144x3x32_d2 (G (Proc.devRef .tc main_v444)) (G (Proc.devRef .tc main_v445)) (G (Proc.devRef .tc main_v446)) := by
  rw [nary3_result]; rfl

set_option maxHeartbeats 0 in
/-- The result buffer after the whole line, from any starting contents, is the folded function of the arguments there. -/
theorem result_eq (W : Valuation τ sig (Elt F)) :
    StableHlo.after (ops (F := F)) W (Proc.devRef .tc main_v447)
      = result (F := F) (W (Proc.devRef .tc main_arg0)) (W (Proc.devRef .tc main_arg1)) (W (Proc.devRef .tc main_arg2)) (W (Proc.devRef .tc main_arg3)) := by
  simp only [ops, ops0, ops1, ops2, ops3, ops4, ops5, ops6, ops7, ops8, ops9, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v447]
  unfold result
  (try unfold sample); (try unfold corner); (try unfold pairs); (try unfold spread); (try unfold oneMinus); (try unfold wrapNeg); (try unfold cellNext); (try unfold cell); (try unfold frac); (try unfold pix); (try unfold folded); (try unfold rem1024); (try unfold scaled); (try unfold kf); (try unfold kfc); (try unfold ki); (try unfold col0); (try unfold col1); (try unfold col2)
  simp only [concatenate_pair_eq, concatenate_triple_eq]
  rfl

set_option maxHeartbeats 0 in
/-- No operation writes argument 0: it keeps its starting contents. -/
theorem kept_arg0 (W : Valuation τ sig (Elt F)) : StableHlo.after (ops (F := F)) W (Proc.devRef .tc main_arg0) = W (Proc.devRef .tc main_arg0) := by
  simp only [ops, ops0, ops1, ops2, ops3, ops4, ops5, ops6, ops7, ops8, ops9, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v447]
set_option maxHeartbeats 0 in
/-- No operation writes argument 1: it keeps its starting contents. -/
theorem kept_arg1 (W : Valuation τ sig (Elt F)) : StableHlo.after (ops (F := F)) W (Proc.devRef .tc main_arg1) = W (Proc.devRef .tc main_arg1) := by
  simp only [ops, ops0, ops1, ops2, ops3, ops4, ops5, ops6, ops7, ops8, ops9, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v447]
set_option maxHeartbeats 0 in
/-- No operation writes argument 2: it keeps its starting contents. -/
theorem kept_arg2 (W : Valuation τ sig (Elt F)) : StableHlo.after (ops (F := F)) W (Proc.devRef .tc main_arg2) = W (Proc.devRef .tc main_arg2) := by
  simp only [ops, ops0, ops1, ops2, ops3, ops4, ops5, ops6, ops7, ops8, ops9, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v447]
set_option maxHeartbeats 0 in
/-- No operation writes argument 3: it keeps its starting contents. -/
theorem kept_arg3 (W : Valuation τ sig (Elt F)) : StableHlo.after (ops (F := F)) W (Proc.devRef .tc main_arg3) = W (Proc.devRef .tc main_arg3) := by
  simp only [ops, ops0, ops1, ops2, ops3, ops4, ops5, ops6, ops7, ops8, ops9, List.cons_append, List.nil_append, List.append_nil]
  simp (disch := decide) only [after_cons, after_nil,
      nullary_result', unary_result', binary_result', ternary_result', quaternary_result', reshape_result',
      nullary_result_ne', unary_result_ne', binary_result_ne', ternary_result_ne', quaternary_result_ne', reshape_result_ne', nary_result_ne',
      concatenate_pair_eq, stack_v447]

/-- THE REFERENCE'S RUN with its result named. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v447)
        = result (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v447).trans (result_eq _), (h c main_arg0).trans (kept_arg0 _),
      (h c main_arg1).trans (kept_arg1 _), (h c main_arg2).trans (kept_arg2 _), (h c main_arg3).trans (kept_arg3 _)⟩)
    (run_seq scopedRefs_eq scopedSems_eq defs main (fun _ => ops) main_eq (fun _ => ops_sub) m ρ (fun _ => ops_fresh))

end Cert.ReferenceIdeal.Host

end
-- ==== Proof.RefHostAt.lean ====
/-
  The reference program's result read at an index.

  The reference computes its result with array-level operations on [4, 262144] grids of query points. Read at one index
  (b, s, p, ch), every pointwise operation is the scalar operation on the operands at that index, every layout operation
  (slice, reshape, broadcast, transpose, concatenation) reads one index of its operand, and the plane gather reads the plane
  at the channel and at the wrapped and clamped (row, column) pair of the point. Chained together, the result at
  (b, s, p, ch) is the bilinear sample of plane p in channel ch at the two coordinate columns the plane uses, with the
  reference's grouping of the weight products: the specification.
-/
import proofs.«157496_j37812892074356_1_alg».proof.Proof.RefHostFns
import proofs.«157496_j37812892074356_1_alg».proof.Proof.Bilinear
import proofs.«157496_j37812892074356_1_alg».proof.Proof.LibPlaneGather
import Idealize.ShloMosaic.Lib.Pipeline.Value
import Idealize.ShloMosaic.Lib.ValueIdx

noncomputable section

namespace Cert.ReferenceIdeal.Host

open Cert.ReferenceIdeal Cert.ReferenceIdeal.Gen Cert.Bilinear Idealize.ShloMosaic Idealize.ShloMosaic.ValueIdx

variable {F : FTy → Type} [FloatOps F]

/-! ## Constants spread over the grid -/

theorem kf_at (w : BitVec 32) (i : S4x262144.Idx) : kf (F := F) w i = kS w := by
  unfold kf
  exact broadcastInDim_apply _ _ (constant S_ .f32 w) i ix0 (fun a => a.elim0)

theorem kfc_at (w : BitVec 32) (i : S4x262144.Idx) : kfc (F := F) w i = kS w := by
  unfold kfc
  exact broadcastInDim_apply _ _ (id (constant S_ .f32 w)) i ix0 (fun a => a.elim0)

theorem ki_at (w : BitVec 32) (i : S4x262144.Idx) : ki (F := F) w i = w := by
  unfold ki
  exact broadcastInDim_apply _ _ (constantI S_ 32 w) i ix0 (fun a => a.elim0)

/-! ## The coordinate columns -/

/-- The reshape [4, 262144, 1] → [4, 262144] read at (b, s) is its operand at (b, s, 0): the same row-major position. -/
theorem dropUnit_at {α : Type} (y : S4x262144x1.Idx → α) (b : Fin 4) (s : Fin 262144) :
    shapeCast S4x262144 y shapeCasts_S4x262144x1_S4x262144 (ix2 b s) = y (ix3 b s (0 : Fin 1)) := by
  refine shapeCast_apply y _ (ix2 b s) (ix3 b s (0 : Fin 1)) ?_
  rewrite [Shape.rowMajor_val_three, Shape.rowMajor_val_two]
  show (b.val * 262144 + s.val) * 1 + 0 = b.val * 262144 + s.val
  omega

/-- The slice of column K of the points, read at (b, s, 0), is the point's coordinate K. -/
theorem colSlice_at {α : Type} (x : S4x262144x3.Idx → α) (K : Fin 3) (h : S4x262144x3.Slices ![0, 0, K.val] S4x262144x1)
    (b : Fin 4) (s : Fin 262144) :
    extractStridedSlice S4x262144x1 ![0, 0, K.val] x h (ix3 b s (0 : Fin 1)) = x (ix3 b s K) := by
  refine extractStridedSlice_apply ![0, 0, K.val] x h (ix3 b s (0 : Fin 1)) (ix3 b s K) (fun a => match a with
    | ⟨0, _⟩ => by show b.val = 0 + b.val; omega
    | ⟨1, _⟩ => by show s.val = 0 + s.val; omega
    | ⟨2, _⟩ => by show K.val = K.val + 0; omega)

theorem col0_at (x : Pts F) (b : Fin 4) (s : Fin 262144) : col0 x (ix2 b s) = x (ix3 b s 0) := by
  unfold col0
  exact (dropUnit_at _ b s).trans (colSlice_at x 0 _ b s)

theorem col1_at (x : Pts F) (b : Fin 4) (s : Fin 262144) : col1 x (ix2 b s) = x (ix3 b s 1) := by
  unfold col1
  exact (dropUnit_at _ b s).trans (colSlice_at x 1 _ b s)

theorem col2_at (x : Pts F) (b : Fin 4) (s : Fin 262144) : col2 x (ix2 b s) = x (ix3 b s 2) := by
  unfold col2
  exact (dropUnit_at _ b s).trans (colSlice_at x 2 _ b s)

/-! ## The pixel coordinate, its cells and its weight, point by point -/

theorem scaled_at (g : GrF F) (i : S4x262144.Idx) : scaled g i = scaledS (g i) := by
  show FloatOps.hostAbsf (FloatOps.mulf (FloatOps.mulf (FloatOps.addf (g i) (kf (F := F) 0x3F800000#32 i)) (kf (F := F) 0x3F000000#32 i))
    (kf (F := F) 0x44000000#32 i)) = _
  rw [kf_at, kf_at, kf_at]
  rfl

theorem rem1024_at (g : GrF F) (i : S4x262144.Idx) : rem1024 g i = remS (g i) := by
  show FloatOps.subf (scaled g i) (FloatOps.mulf (kf (F := F) 0x44800000#32 i)
    (FloatOps.hostUnary .floor (FloatOps.hostDivf (scaled g i) (kf (F := F) 0x44800000#32 i)))) = _
  rw [kf_at, scaled_at]
  rfl

theorem folded_at (g : GrF F) (i : S4x262144.Idx) : folded g i = foldedS (g i) := by
  show Scalar.select (FloatOps.cmpf .ogt (rem1024 g i) (kf (F := F) 0x44000000#32 i))
    (FloatOps.subf (kf (F := F) 0x44800000#32 i) (rem1024 g i)) (rem1024 g i) = _
  rw [kf_at, kf_at, rem1024_at]
  rfl

theorem pix_at (g : GrF F) (i : S4x262144.Idx) : pix g i = pixS (g i) := by
  show FloatOps.minimumf (kfc (F := F) 0x44000000#32 i) (FloatOps.maximumf (kfc (F := F) 0x00000000#32 i) (folded g i)) = _
  rw [kfc_at, kfc_at, folded_at]
  rfl

theorem frac_at (g : GrF F) (i : S4x262144.Idx) : frac g i = fracS (g i) := by
  show FloatOps.subf (pix g i) (FloatOps.hostUnary .floor (pix g i)) = _
  rw [pix_at]
  rfl

theorem cell_at (g : GrF F) (i : S4x262144.Idx) : cell g i = cellS (g i) := by
  show FloatOps.fptosi 32 (FloatOps.hostUnary .floor (pix g i)) = _
  rw [pix_at]
  rfl

theorem cellNext_at (g : GrF F) (i : S4x262144.Idx) : cellNext g i = nextS (g i) := by
  show IntOp.minsi (IntOp.addi (cell g i) (ki (F := F) 1#32 i)) (ki (F := F) 512#32 i) = _
  rw [ki_at, ki_at, cell_at]
  rfl

theorem wrapNeg_at (j : GrI F) (i : S4x262144.Idx) : wrapNeg j i = wrapS (j i) := by
  show Scalar.select (IntOp.cmpi .slt (j i) (ki (F := F) 0#32 i)) (IntOp.addi (j i) (ki (F := F) 513#32 i)) (j i) = _
  rw [ki_at, ki_at]
  rfl

theorem oneMinus_at (w : GrF F) (i : S4x262144.Idx) : oneMinus w i = FloatOps.subf (kS 0x3F800000#32) (w i) := by
  show FloatOps.subf (kf (F := F) 0x3F800000#32 i) (w i) = _
  rw [kf_at]

/-! ## The index pairs and the gathered corner -/

/-- The pair array at (b, s, 0) is the wrapped row index: the first piece of the concatenation, a broadcast on a unit axis. -/
theorem pairs_at0 (iy ix : GrI F) (b : Fin 4) (s : Fin 262144) :
    pairs iy ix (ix3 b s (0 : Fin 2)) = wrapNeg iy (ix2 b s) := by
  unfold pairs
  refine (concatenate_pair_apply_left (t := S4x262144x2) (s₁ := S4x262144x1) (s₂ := S4x262144x1) (2 : Fin 3) _ _ _ (ix3 b s (0 : Fin 2)) rfl (ix3 b s (0 : Fin 1)) (fun a => match a with
    | ⟨0, _⟩ => rfl
    | ⟨1, _⟩ => rfl
    | ⟨2, _⟩ => rfl)).trans ?_
  exact broadcastInDim_apply _ _ (wrapNeg iy) (ix3 b s (0 : Fin 1)) (ix2 b s) (fun a => match a with
    | ⟨0, _⟩ => rfl
    | ⟨1, _⟩ => rfl)

/-- The pair array at (b, s, 1) is the wrapped column index: the second piece. -/
theorem pairs_at1 (iy ix : GrI F) (b : Fin 4) (s : Fin 262144) :
    pairs iy ix (ix3 b s (1 : Fin 2)) = wrapNeg ix (ix2 b s) := by
  unfold pairs
  refine (concatenate_pair_apply_right (t := S4x262144x2) (s₁ := S4x262144x1) (s₂ := S4x262144x1) (2 : Fin 3) _ _ _ (ix3 b s (1 : Fin 2)) rfl rfl (ix3 b s (0 : Fin 1)) (fun a => match a with
    | ⟨0, _⟩ => fun _ => rfl
    | ⟨1, _⟩ => fun _ => rfl
    | ⟨2, _⟩ => fun hne => absurd rfl hne) rfl).trans ?_
  exact broadcastInDim_apply _ _ (wrapNeg ix) (ix3 b s (0 : Fin 1)) (ix2 b s) (fun a => match a with
    | ⟨0, _⟩ => rfl
    | ⟨1, _⟩ => rfl)

/-- A plane read at a channel and at two indices clamped into [0, 512] is the texel at the unwrapped indices, when the two
    indices are the wraps of those. -/
theorem texel_of_wrapped (P : Plane F) (ch : Fin 32) (u v iy ix : BitVec 32) (hu : u = wrapS iy) (hv : v = wrapS ix)
    (h1 : min u.toInt.toNat (513 - 1) < 513) (h2 : min v.toInt.toNat (513 - 1) < 513) :
    P (ix3 ch ⟨min u.toInt.toNat (513 - 1), h1⟩ ⟨min v.toInt.toNat (513 - 1), h2⟩) = texel P ch iy ix := by
  subst hu
  subst hv
  rfl

/-- The gathered corner at (ch, b, s) is the plane's texel in channel ch at the point's (row, column) cells: the gather reads
    the pair of the point, each index wrapped by the program and clamped by the gather. -/
theorem corner_at (P : Plane F) (iy ix : GrI F) (ch : Fin 32) (b : Fin 4) (s : Fin 262144) :
    corner P iy ix (ix3 ch b s) = texel P ch (iy (ix2 b s)) (ix (ix2 b s)) := by
  unfold corner
  refine (gather_pairGrid_apply (C := 32) (H := 513) (W := 513) (A := 4) (B := 262144) (by decide) (by decide)
    gather_S32x513x513_S4x262144x2_S32x4x262144_0_12_n_n_12_2_3211_wf P (pairs iy ix) ch b s).trans ?_
  exact texel_of_wrapped P ch _ _ _ _ (by rw [pairs_at0, wrapNeg_at]) (by rw [pairs_at1, wrapNeg_at]) _ _

/-- A weight spread over the channels, read at (ch, b, s), is the weight at (b, s). -/
theorem spread_at (w : GrF F) (ch : Fin 32) (b : Fin 4) (s : Fin 262144) : spread w (ix3 ch b s) = w (ix2 b s) := by
  unfold spread
  refine (broadcastInDim_apply _ _ _ (ix3 ch b s) (ix3 (0 : Fin 1) b s) (fun a => match a with
    | ⟨0, _⟩ => rfl
    | ⟨1, _⟩ => rfl
    | ⟨2, _⟩ => rfl)).trans ?_
  exact broadcastInDim_apply _ _ w (ix3 (0 : Fin 1) b s) (ix2 b s) (fun a => match a with
    | ⟨0, _⟩ => rfl
    | ⟨1, _⟩ => rfl)

/-! ## One plane's sample and the stacked result -/

theorem addf_at {s : Shape} {φ : FTy} (a c : FVec F s φ) (i : s.Idx) : addf a c i = FloatOps.addf (a i) (c i) := rfl
theorem mulf_at {s : Shape} {φ : FTy} (a c : FVec F s φ) (i : s.Idx) : mulf a c i = FloatOps.mulf (a i) (c i) := rfl

/-- One plane's sample at (b, s, ch): the channel-major blend read at (ch, b, s), whose four addends are the corner texels
    each multiplied by its x weight and then by its y weight, in the order and the grouping of `blendR`. -/
theorem sample_at (P : Plane F) (gx gy : GrF F) (b : Fin 4) (s : Fin 262144) (ch : Fin 32) :
    sample P gx gy (ix3 b s ch) = sampleS blendR P ch (gx (ix2 b s)) (gy (ix2 b s)) := by
  unfold sample
  refine (transpose_apply [1, 2, 0] _ _ (ix3 b s ch) (ix3 ch b s) (fun a => match a with
    | ⟨0, _⟩ => rfl
    | ⟨1, _⟩ => rfl
    | ⟨2, _⟩ => rfl)).trans ?_
  simp only [addf_at, mulf_at, corner_at, spread_at, oneMinus_at, frac_at, cell_at, cellNext_at]
  rfl

/-- THE REFERENCE'S RESULT AT (b, s, p, ch) IS THE SPECIFICATION, with the reference's grouping of the weight products:
    plane p's piece of the stack, a broadcast on a unit axis of that plane's sample at its two coordinate columns. -/
theorem result_at (x : Pts F) (P1 P2 P3 : Plane F) (b : Fin 4) (s : Fin 262144) (p : Fin 3) (ch : Fin 32) :
    result x P1 P2 P3 (ix4 b s p ch) = spec blendR x ![P1, P2, P3] b s p ch := by
  unfold result
  match p with
  | ⟨0, _⟩ =>
    refine (concatenate_apply_piece (t := S4x262144x3x32) (2 : Fin 4) _ _ (ix4 b s (0 : Fin 3) ch) 0 (by show (0 : Nat) < 3; omega) S4x262144x1x32 _ rfl rfl 0 rfl
      (ix4 b s (0 : Fin 1) ch) (fun a => match a with
        | ⟨0, _⟩ => fun _ => rfl
        | ⟨1, _⟩ => fun _ => rfl
        | ⟨2, _⟩ => fun hne => absurd rfl hne
        | ⟨3, _⟩ => fun _ => rfl) rfl).trans ?_
    refine (broadcastInDim_apply _ _ _ (ix4 b s (0 : Fin 1) ch) (ix3 b s ch) (fun a => match a with
      | ⟨0, _⟩ => rfl
      | ⟨1, _⟩ => rfl
      | ⟨2, _⟩ => rfl)).trans ?_
    rw [sample_at, col1_at, col2_at]
    rfl
  | ⟨1, _⟩ =>
    refine (concatenate_apply_piece (t := S4x262144x3x32) (2 : Fin 4) _ _ (ix4 b s (1 : Fin 3) ch) 1 (by show (1 : Nat) < 3; omega) S4x262144x1x32 _ rfl rfl 1 rfl
      (ix4 b s (0 : Fin 1) ch) (fun a => match a with
        | ⟨0, _⟩ => fun _ => rfl
        | ⟨1, _⟩ => fun _ => rfl
        | ⟨2, _⟩ => fun hne => absurd rfl hne
        | ⟨3, _⟩ => fun _ => rfl) rfl).trans ?_
    refine (broadcastInDim_apply _ _ _ (ix4 b s (0 : Fin 1) ch) (ix3 b s ch) (fun a => match a with
      | ⟨0, _⟩ => rfl
      | ⟨1, _⟩ => rfl
      | ⟨2, _⟩ => rfl)).trans ?_
    rw [sample_at, col0_at, col2_at]
    rfl
  | ⟨2, _⟩ =>
    refine (concatenate_apply_piece (t := S4x262144x3x32) (2 : Fin 4) _ _ (ix4 b s (2 : Fin 3) ch) 2 (by show (2 : Nat) < 3; omega) S4x262144x1x32 _ rfl rfl 2 rfl
      (ix4 b s (0 : Fin 1) ch) (fun a => match a with
        | ⟨0, _⟩ => fun _ => rfl
        | ⟨1, _⟩ => fun _ => rfl
        | ⟨2, _⟩ => fun hne => absurd rfl hne
        | ⟨3, _⟩ => fun _ => rfl) rfl).trans ?_
    refine (broadcastInDim_apply _ _ _ (ix4 b s (0 : Fin 1) ch) (ix3 b s ch) (fun a => match a with
      | ⟨0, _⟩ => rfl
      | ⟨1, _⟩ => rfl
      | ⟨2, _⟩ => rfl)).trans ?_
    rw [sample_at, col0_at, col1_at]
    rfl

end Cert.ReferenceIdeal.Host

end
-- ==== Proof.lean ====
/-
  The certificate: a bilinear sampling of three feature planes at 4·262144 query points, computed by a kernel program (host
  index arithmetic and gathers, then ONE pipelined region that blends the four gathered corner values with the two weights) and
  by a reference that does everything on the host.

  Frames. The kernel programs run twenty-five stretches of host operations, the region, and one reshape; none of them writes an
  argument array (Proof/KernelBitsFrame.lean at the word level, Proof/KernelIdealFrame.lean at the ideal instance). The reference
  is a straight line of host operations (Proof/RefRun.lean).
  Preserves. The idealization rewrote nothing: the conjunct is `True`.
  Algebraic. At the ideal instance the kernel's result at point (b, s), plane p, channel ch is the specification of
  Proof/Bilinear.lean with every weight product formed first, v · ((1 − wx)(1 − wy)) and so on (Proof/KernelValue.lean); the
  reference's is the same specification with the texel multiplied by one weight after the other, (v · (1 − wx)) · (1 − wy)
  (Proof/RefHostAt.lean). On the extended reals multiplication is associative, so the two are one function
  (`Cert.Bilinear.spec_blendK_eq_blendR`); the precondition is never opened.
-/
import proofs.«157496_j37812892074356_1_alg».proof.Defs
import proofs.«157496_j37812892074356_1_alg».proof.Proof.Gen.Kernel
import proofs.«157496_j37812892074356_1_alg».proof.Proof.Gen.KernelIdeal
import proofs.«157496_j37812892074356_1_alg».proof.Proof.Gen.ReferenceIdeal
import proofs.«157496_j37812892074356_1_alg».proof.Proof.Gen.Pre_finite_inputs
import proofs.«157496_j37812892074356_1_alg».proof.Proof.KernelBitsFrame
import proofs.«157496_j37812892074356_1_alg».proof.Proof.KernelIdealFrame
import proofs.«157496_j37812892074356_1_alg».proof.Proof.KernelValue
import proofs.«157496_j37812892074356_1_alg».proof.Proof.RefRun
import proofs.«157496_j37812892074356_1_alg».proof.Proof.RefHostAt
import proofs.«157496_j37812892074356_1_alg».proof.Proof.Bilinear
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Fr.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

/-- And the reference: its named run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Host.run_result (F := Ideal) m ρ)

/-- From memories agreeing on the arguments both programs end with the same result: the specification, whose two groupings of
    the blend agree on the extended reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Sampled.run_spec (F := Ideal) m ρ, ?_⟩
  refine (θ_run Cert.ReferenceIdeal.defs _ _).mono (fun _ h c => ⟨(h c).1.trans ?_, (h c).2⟩)
    (Cert.ReferenceIdeal.Host.run_result (F := Ideal) m' ρ')
  rw [(hagree c).1, (hagree c).2.1, (hagree c).2.2.1, (hagree c).2.2.2]
  funext j
  obtain ⟨b, s, p, ch, rfl⟩ : ∃ (b : Fin 4) (s : Fin 262144) (p : Fin 3) (ch : Fin 32), j = ix4 b s p ch := ⟨j 0, j 1, j 2, j 3, eq_ix4 j⟩
  rw [Cert.ReferenceIdeal.Host.result_at]
  exact (Cert.Bilinear.spec_blendK_eq_blendR _ _ b s p ch).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
